-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x12 : Shape := ⟨2, ![262144, 12]⟩
abbrev S170x50 : Shape := ⟨2, ![170, 50]⟩
abbrev S50x51 : Shape := ⟨2, ![50, 51]⟩
abbrev S50 : Shape := ⟨1, ![50]⟩
abbrev S25x50 : Shape := ⟨2, ![25, 50]⟩
abbrev S25 : Shape := ⟨1, ![25]⟩
abbrev S10x25 : Shape := ⟨2, ![10, 25]⟩
abbrev S10 : Shape := ⟨1, ![10]⟩
abbrev S2x100 : Shape := ⟨2, ![2, 100]⟩
abbrev S2 : Shape := ⟨1, ![2]⟩
abbrev S_ : Shape := ⟨0, ![]⟩
abbrev S262144x10 : Shape := ⟨2, ![262144, 10]⟩

class Facts : Prop where
  bcast_S_S262144x12 : S_.BroadcastsInDim S262144x12 (![] : Fin 0 → Fin S262144x12.rank)
  reducesTo_S262144x12_S_d0_1 : S262144x12.ReducesTo [0, 1] S_
  h_S_ : 0 < S_.numel
  bcast_S_S170x50 : S_.BroadcastsInDim S170x50 (![] : Fin 0 → Fin S170x50.rank)
  reducesTo_S170x50_S_d0_1 : S170x50.ReducesTo [0, 1] S_
  bcast_S_S50x51 : S_.BroadcastsInDim S50x51 (![] : Fin 0 → Fin S50x51.rank)
  reducesTo_S50x51_S_d0_1 : S50x51.ReducesTo [0, 1] S_
  bcast_S_S50 : S_.BroadcastsInDim S50 (![] : Fin 0 → Fin S50.rank)
  reducesTo_S50_S_d0 : S50.ReducesTo [0] S_
  bcast_S_S25x50 : S_.BroadcastsInDim S25x50 (![] : Fin 0 → Fin S25x50.rank)
  reducesTo_S25x50_S_d0_1 : S25x50.ReducesTo [0, 1] S_
  bcast_S_S25 : S_.BroadcastsInDim S25 (![] : Fin 0 → Fin S25.rank)
  reducesTo_S25_S_d0 : S25.ReducesTo [0] S_
  bcast_S_S10x25 : S_.BroadcastsInDim S10x25 (![] : Fin 0 → Fin S10x25.rank)
  reducesTo_S10x25_S_d0_1 : S10x25.ReducesTo [0, 1] S_
  bcast_S_S10 : S_.BroadcastsInDim S10 (![] : Fin 0 → Fin S10.rank)
  reducesTo_S10_S_d0 : S10.ReducesTo [0] S_
  bcast_S_S2x100 : S_.BroadcastsInDim S2x100 (![] : Fin 0 → Fin S2x100.rank)
  reducesTo_S2x100_S_d0_1 : S2x100.ReducesTo [0, 1] S_
  bcast_S_S2 : S_.BroadcastsInDim S2 (![] : Fin 0 → Fin S2.rank)
  reducesTo_S2_S_d0 : S2.ReducesTo [0] S_
  slices_S262144x12_S262144x10_0_2 : S262144x12.Slices ![0, 2] S262144x10
  bcast_S_S262144x10 : S_.BroadcastsInDim S262144x10 (![] : Fin 0 → Fin S262144x10.rank)
  reducesTo_S262144x10_S_d0_1 : S262144x10.ReducesTo [0, 1] S_

variable [Facts]

def fn_part4 {F : FTy → Type} [FloatOps F] (main_arg0 : FVec F S262144x12 .f32) (main_arg14 : FVec F S2x100 .f32) (main_arg15 : FVec F S2 .f32) (main_v63 : IVec S_ 1) (main_v67 : IVec S_ 1) : IVec S_ 1 :=
  let main_v68 : IVec S_ 1 := andi main_v63 main_v67
  let main_v69 : FVec F S2x100 .f32 := Host.absf main_arg14
  let main_cst_26 : FVec F S_ .f32 := constant S_ .f32 0x7F800000#32
  let main_v70 : FVec F S2x100 .f32 := broadcastInDim S2x100 ![] bcast_S_S2x100 main_cst_26
  let main_v71 : IVec S2x100 1 := cmpf .olt main_v69 main_v70
  let main_c_27 : IVec S_ 1 := constantI S_ 1 1#1
  let main_v72 : IVec S_ 1 := (fun x v => Host.reduce IntOp.andi x v reducesTo_S2x100_S_d0_1 h_S_) main_v71 main_c_27
  let main_v73 : IVec S_ 1 := andi main_v68 main_v72
  let main_v74 : FVec F S2 .f32 := Host.absf main_arg15
  let main_cst_28 : FVec F S_ .f32 := constant S_ .f32 0x7F800000#32
  let main_v75 : FVec F S2 .f32 := broadcastInDim S2 ![] bcast_S_S2 main_cst_28
  let main_v76 : IVec S2 1 := cmpf .olt main_v74 main_v75
  let main_c_29 : IVec S_ 1 := constantI S_ 1 1#1
  let main_v77 : IVec S_ 1 := (fun x v => Host.reduce IntOp.andi x v reducesTo_S2_S_d0 h_S_) main_v76 main_c_29
  let main_v78 : IVec S_ 1 := andi main_v73 main_v77
  let main_v79 : FVec F S262144x10 .f32 := (extractStridedSlice S262144x10 ![0, 2] · slices_S262144x12_S262144x10_0_2) main_arg0
  let main_v80 : IVec S262144x10 32 := fptosi 32 main_v79
  let main_c_30 : IVec S_ 32 := constantI S_ 32 0#32
  let main_v81 : IVec S262144x10 32 := broadcastInDim S262144x10 ![] bcast_S_S262144x10 main_c_30
  let main_v82 : IVec S262144x10 1 := cmpi .sge main_v80 main_v81
  let main_c_31 : IVec S_ 1 := constantI S_ 1 1#1
  let main_v83 : IVec S_ 1 := (fun x v => Host.reduce IntOp.andi x v reducesTo_S262144x10_S_d0_1 h_S_) main_v82 main_c_31
  let main_v84 : IVec S_ 1 := andi main_v78 main_v83
  main_v84

def fn_part3 {F : FTy → Type} [FloatOps F] (main_arg0 : FVec F S262144x12 .f32) (main_arg11 : FVec F S25 .f32) (main_arg12 : FVec F S10x25 .f32) (main_arg13 : FVec F S10 .f32) (main_arg14 : FVec F S2x100 .f32) (main_arg15 : FVec F S2 .f32) (main_v48 : IVec S_ 1) (main_v49 : FVec F S25x50 .f32) (main_v50 : FVec F S25x50 .f32) : IVec S_ 1 :=
  let main_v51 : IVec S25x50 1 := cmpf .olt main_v49 main_v50
  let main_c_19 : IVec S_ 1 := constantI S_ 1 1#1
  let main_v52 : IVec S_ 1 := (fun x v => Host.reduce IntOp.andi x v reducesTo_S25x50_S_d0_1 h_S_) main_v51 main_c_19
  let main_v53 : IVec S_ 1 := andi main_v48 main_v52
  let main_v54 : FVec F S25 .f32 := Host.absf main_arg11
  let main_cst_20 : FVec F S_ .f32 := constant S_ .f32 0x7F800000#32
  let main_v55 : FVec F S25 .f32 := broadcastInDim S25 ![] bcast_S_S25 main_cst_20
  let main_v56 : IVec S25 1 := cmpf .olt main_v54 main_v55
  let main_c_21 : IVec S_ 1 := constantI S_ 1 1#1
  let main_v57 : IVec S_ 1 := (fun x v => Host.reduce IntOp.andi x v reducesTo_S25_S_d0 h_S_) main_v56 main_c_21
  let main_v58 : IVec S_ 1 := andi main_v53 main_v57
  let main_v59 : FVec F S10x25 .f32 := Host.absf main_arg12
  let main_cst_22 : FVec F S_ .f32 := constant S_ .f32 0x7F800000#32
  let main_v60 : FVec F S10x25 .f32 := broadcastInDim S10x25 ![] bcast_S_S10x25 main_cst_22
  let main_v61 : IVec S10x25 1 := cmpf .olt main_v59 main_v60
  let main_c_23 : IVec S_ 1 := constantI S_ 1 1#1
  let main_v62 : IVec S_ 1 := (fun x v => Host.reduce IntOp.andi x v reducesTo_S10x25_S_d0_1 h_S_) main_v61 main_c_23
  let main_v63 : IVec S_ 1 := andi main_v58 main_v62
  let main_v64 : FVec F S10 .f32 := Host.absf main_arg13
  let main_cst_24 : FVec F S_ .f32 := constant S_ .f32 0x7F800000#32
  let main_v65 : FVec F S10 .f32 := broadcastInDim S10 ![] bcast_S_S10 main_cst_24
  let main_v66 : IVec S10 1 := cmpf .olt main_v64 main_v65
  let main_c_25 : IVec S_ 1 := constantI S_ 1 1#1
  let main_v67 : IVec S_ 1 := (fun x v => Host.reduce IntOp.andi x v reducesTo_S10_S_d0 h_S_) main_v66 main_c_25
  fn_part4 (F := F) main_arg0 main_arg14 main_arg15 main_v63 main_v67

def fn_part2 {F : FTy → Type} [FloatOps F] (main_arg0 : FVec F S262144x12 .f32) (main_arg7 : FVec F S10 .f32) (main_arg8 : FVec F S50x51 .f32) (main_arg9 : FVec F S50 .f32) (main_arg10 : FVec F S25x50 .f32) (main_arg11 : FVec F S25 .f32) (main_arg12 : FVec F S10x25 .f32) (main_arg13 : FVec F S10 .f32) (main_arg14 : FVec F S2x100 .f32) (main_arg15 : FVec F S2 .f32) (main_v33 : IVec S_ 1) : IVec S_ 1 :=
  let main_v34 : FVec F S10 .f32 := Host.absf main_arg7
  let main_cst_12 : FVec F S_ .f32 := constant S_ .f32 0x7F800000#32
  let main_v35 : FVec F S10 .f32 := broadcastInDim S10 ![] bcast_S_S10 main_cst_12
  let main_v36 : IVec S10 1 := cmpf .olt main_v34 main_v35
  let main_c_13 : IVec S_ 1 := constantI S_ 1 1#1
  let main_v37 : IVec S_ 1 := (fun x v => Host.reduce IntOp.andi x v reducesTo_S10_S_d0 h_S_) main_v36 main_c_13
  let main_v38 : IVec S_ 1 := andi main_v33 main_v37
  let main_v39 : FVec F S50x51 .f32 := Host.absf main_arg8
  let main_cst_14 : FVec F S_ .f32 := constant S_ .f32 0x7F800000#32
  let main_v40 : FVec F S50x51 .f32 := broadcastInDim S50x51 ![] bcast_S_S50x51 main_cst_14
  let main_v41 : IVec S50x51 1 := cmpf .olt main_v39 main_v40
  let main_c_15 : IVec S_ 1 := constantI S_ 1 1#1
  let main_v42 : IVec S_ 1 := (fun x v => Host.reduce IntOp.andi x v reducesTo_S50x51_S_d0_1 h_S_) main_v41 main_c_15
  let main_v43 : IVec S_ 1 := andi main_v38 main_v42
  let main_v44 : FVec F S50 .f32 := Host.absf main_arg9
  let main_cst_16 : FVec F S_ .f32 := constant S_ .f32 0x7F800000#32
  let main_v45 : FVec F S50 .f32 := broadcastInDim S50 ![] bcast_S_S50 main_cst_16
  let main_v46 : IVec S50 1 := cmpf .olt main_v44 main_v45
  let main_c_17 : IVec S_ 1 := constantI S_ 1 1#1
  let main_v47 : IVec S_ 1 := (fun x v => Host.reduce IntOp.andi x v reducesTo_S50_S_d0 h_S_) main_v46 main_c_17
  let main_v48 : IVec S_ 1 := andi main_v43 main_v47
  let main_v49 : FVec F S25x50 .f32 := Host.absf main_arg10
  let main_cst_18 : FVec F S_ .f32 := constant S_ .f32 0x7F800000#32
  let main_v50 : FVec F S25x50 .f32 := broadcastInDim S25x50 ![] bcast_S_S25x50 main_cst_18
  fn_part3 (F := F) main_arg0 main_arg11 main_arg12 main_arg13 main_arg14 main_arg15 main_v48 main_v49 main_v50

def fn_part1 {F : FTy → Type} [FloatOps F] (main_arg0 : FVec F S262144x12 .f32) (main_arg4 : FVec F S25x50 .f32) (main_arg5 : FVec F S25 .f32) (main_arg6 : FVec F S10x25 .f32) (main_arg7 : FVec F S10 .f32) (main_arg8 : FVec F S50x51 .f32) (main_arg9 : FVec F S50 .f32) (main_arg10 : FVec F S25x50 .f32) (main_arg11 : FVec F S25 .f32) (main_arg12 : FVec F S10x25 .f32) (main_arg13 : FVec F S10 .f32) (main_arg14 : FVec F S2x100 .f32) (main_arg15 : FVec F S2 .f32) (main_v13 : IVec S_ 1) (main_v16 : IVec S50 1) : IVec S_ 1 :=
  let main_c_5 : IVec S_ 1 := constantI S_ 1 1#1
  let main_v17 : IVec S_ 1 := (fun x v => Host.reduce IntOp.andi x v reducesTo_S50_S_d0 h_S_) main_v16 main_c_5
  let main_v18 : IVec S_ 1 := andi main_v13 main_v17
  let main_v19 : FVec F S25x50 .f32 := Host.absf main_arg4
  let main_cst_6 : FVec F S_ .f32 := constant S_ .f32 0x7F800000#32
  let main_v20 : FVec F S25x50 .f32 := broadcastInDim S25x50 ![] bcast_S_S25x50 main_cst_6
  let main_v21 : IVec S25x50 1 := cmpf .olt main_v19 main_v20
  let main_c_7 : IVec S_ 1 := constantI S_ 1 1#1
  let main_v22 : IVec S_ 1 := (fun x v => Host.reduce IntOp.andi x v reducesTo_S25x50_S_d0_1 h_S_) main_v21 main_c_7
  let main_v23 : IVec S_ 1 := andi main_v18 main_v22
  let main_v24 : FVec F S25 .f32 := Host.absf main_arg5
  let main_cst_8 : FVec F S_ .f32 := constant S_ .f32 0x7F800000#32
  let main_v25 : FVec F S25 .f32 := broadcastInDim S25 ![] bcast_S_S25 main_cst_8
  let main_v26 : IVec S25 1 := cmpf .olt main_v24 main_v25
  let main_c_9 : IVec S_ 1 := constantI S_ 1 1#1
  let main_v27 : IVec S_ 1 := (fun x v => Host.reduce IntOp.andi x v reducesTo_S25_S_d0 h_S_) main_v26 main_c_9
  let main_v28 : IVec S_ 1 := andi main_v23 main_v27
  let main_v29 : FVec F S10x25 .f32 := Host.absf main_arg6
  let main_cst_10 : FVec F S_ .f32 := constant S_ .f32 0x7F800000#32
  let main_v30 : FVec F S10x25 .f32 := broadcastInDim S10x25 ![] bcast_S_S10x25 main_cst_10
  let main_v31 : IVec S10x25 1 := cmpf .olt main_v29 main_v30
  let main_c_11 : IVec S_ 1 := constantI S_ 1 1#1
  let main_v32 : IVec S_ 1 := (fun x v => Host.reduce IntOp.andi x v reducesTo_S10x25_S_d0_1 h_S_) main_v31 main_c_11
  let main_v33 : IVec S_ 1 := andi main_v28 main_v32
  fn_part2 (F := F) main_arg0 main_arg7 main_arg8 main_arg9 main_arg10 main_arg11 main_arg12 main_arg13 main_arg14 main_arg15 main_v33

def fn {F : FTy → Type} [FloatOps F] (main_arg0 : FVec F S262144x12 .f32) (main_arg1 : FVec F S170x50 .f32) (main_arg2 : FVec F S50x51 .f32) (main_arg3 : FVec F S50 .f32) (main_arg4 : FVec F S25x50 .f32) (main_arg5 : FVec F S25 .f32) (main_arg6 : FVec F S10x25 .f32) (main_arg7 : FVec F S10 .f32) (main_arg8 : FVec F S50x51 .f32) (main_arg9 : FVec F S50 .f32) (main_arg10 : FVec F S25x50 .f32) (main_arg11 : FVec F S25 .f32) (main_arg12 : FVec F S10x25 .f32) (main_arg13 : FVec F S10 .f32) (main_arg14 : FVec F S2x100 .f32) (main_arg15 : FVec F S2 .f32) : IVec S_ 1 :=
  let main_v0 : FVec F S262144x12 .f32 := Host.absf main_arg0
  let main_cst : FVec F S_ .f32 := constant S_ .f32 0x7F800000#32
  let main_v1 : FVec F S262144x12 .f32 := broadcastInDim S262144x12 ![] bcast_S_S262144x12 main_cst
  let main_v2 : IVec S262144x12 1 := cmpf .olt main_v0 main_v1
  let main_c : IVec S_ 1 := constantI S_ 1 1#1
  let main_v3 : IVec S_ 1 := (fun x v => Host.reduce IntOp.andi x v reducesTo_S262144x12_S_d0_1 h_S_) main_v2 main_c
  let main_v4 : FVec F S170x50 .f32 := Host.absf main_arg1
  let main_cst_0 : FVec F S_ .f32 := constant S_ .f32 0x7F800000#32
  let main_v5 : FVec F S170x50 .f32 := broadcastInDim S170x50 ![] bcast_S_S170x50 main_cst_0
  let main_v6 : IVec S170x50 1 := cmpf .olt main_v4 main_v5
  let main_c_1 : IVec S_ 1 := constantI S_ 1 1#1
  let main_v7 : IVec S_ 1 := (fun x v => Host.reduce IntOp.andi x v reducesTo_S170x50_S_d0_1 h_S_) main_v6 main_c_1
  let main_v8 : IVec S_ 1 := andi main_v3 main_v7
  let main_v9 : FVec F S50x51 .f32 := Host.absf main_arg2
  let main_cst_2 : FVec F S_ .f32 := constant S_ .f32 0x7F800000#32
  let main_v10 : FVec F S50x51 .f32 := broadcastInDim S50x51 ![] bcast_S_S50x51 main_cst_2
  let main_v11 : IVec S50x51 1 := cmpf .olt main_v9 main_v10
  let main_c_3 : IVec S_ 1 := constantI S_ 1 1#1
  let main_v12 : IVec S_ 1 := (fun x v => Host.reduce IntOp.andi x v reducesTo_S50x51_S_d0_1 h_S_) main_v11 main_c_3
  let main_v13 : IVec S_ 1 := andi main_v8 main_v12
  let main_v14 : FVec F S50 .f32 := Host.absf main_arg3
  let main_cst_4 : FVec F S_ .f32 := constant S_ .f32 0x7F800000#32
  let main_v15 : FVec F S50 .f32 := broadcastInDim S50 ![] bcast_S_S50 main_cst_4
  let main_v16 : IVec S50 1 := cmpf .olt main_v14 main_v15
  fn_part1 (F := F) main_arg0 main_arg4 main_arg5 main_arg6 main_arg7 main_arg8 main_arg9 main_arg10 main_arg11 main_arg12 main_arg13 main_arg14 main_arg15 main_v13 main_v16
-- ==== Kernel.lean ====
abbrev S262144x12 : Shape := ⟨2, ![262144, 12]⟩
abbrev S170x50 : Shape := ⟨2, ![170, 50]⟩
abbrev S50x51 : Shape := ⟨2, ![50, 51]⟩
abbrev S50 : Shape := ⟨1, ![50]⟩
abbrev S25x50 : Shape := ⟨2, ![25, 50]⟩
abbrev S25 : Shape := ⟨1, ![25]⟩
abbrev S10x25 : Shape := ⟨2, ![10, 25]⟩
abbrev S10 : Shape := ⟨1, ![10]⟩
abbrev S2x100 : Shape := ⟨2, ![2, 100]⟩
abbrev S2 : Shape := ⟨1, ![2]⟩
abbrev S50x50 : Shape := ⟨2, ![50, 50]⟩
abbrev S50x1 : Shape := ⟨2, ![50, 1]⟩
abbrev S50x25 : Shape := ⟨2, ![50, 25]⟩
abbrev S25x10 : Shape := ⟨2, ![25, 10]⟩
abbrev S_ : Shape := ⟨0, ![]⟩
abbrev S100x128 : Shape := ⟨2, ![100, 128]⟩
abbrev S100x2 : Shape := ⟨2, ![100, 2]⟩
abbrev S1 : Shape := ⟨1, ![1]⟩
abbrev S128 : Shape := ⟨1, ![128]⟩
abbrev S262144x2 : Shape := ⟨2, ![262144, 2]⟩
abbrev S2048x12 : Shape := ⟨2, ![2048, 12]⟩
abbrev S2048x2 : Shape := ⟨2, ![2048, 2]⟩
abbrev S2048x1 : Shape := ⟨2, ![2048, 1]⟩
abbrev S2048x10 : Shape := ⟨2, ![2048, 10]⟩
abbrev S2048x5 : Shape := ⟨2, ![2048, 5]⟩
abbrev S2048x170 : Shape := ⟨2, ![2048, 170]⟩
abbrev S10240x170 : Shape := ⟨2, ![10240, 170]⟩
abbrev S10240x50 : Shape := ⟨2, ![10240, 50]⟩
abbrev S1x50 : Shape := ⟨2, ![1, 50]⟩
abbrev S2048x50 : Shape := ⟨2, ![2048, 50]⟩
abbrev S10240x25 : Shape := ⟨2, ![10240, 25]⟩
abbrev S1x25 : Shape := ⟨2, ![1, 25]⟩
abbrev S10240x10 : Shape := ⟨2, ![10240, 10]⟩
abbrev S1x10 : Shape := ⟨2, ![1, 10]⟩
abbrev S2048x128 : Shape := ⟨2, ![2048, 128]⟩
abbrev S10x128 : Shape := ⟨2, ![10, 128]⟩
abbrev S1x128 : Shape := ⟨2, ![1, 128]⟩

abbrev nBuf : Space → Nat
  | .hbm => 49
  | .vmem => 20
  | .smem => 0
  | _ => 0

abbrev bufTy : (tb : Table) → Fin (tcTables nBuf tb) → BufTy
  | .hbm, ⟨0, _⟩ => ⟨S262144x12, .f32⟩
  | .hbm, ⟨1, _⟩ => ⟨S170x50, .f32⟩
  | .hbm, ⟨2, _⟩ => ⟨S50x51, .f32⟩
  | .hbm, ⟨3, _⟩ => ⟨S50, .f32⟩
  | .hbm, ⟨4, _⟩ => ⟨S25x50, .f32⟩
  | .hbm, ⟨5, _⟩ => ⟨S25, .f32⟩
  | .hbm, ⟨6, _⟩ => ⟨S10x25, .f32⟩
  | .hbm, ⟨7, _⟩ => ⟨S10, .f32⟩
  | .hbm, ⟨8, _⟩ => ⟨S50x51, .f32⟩
  | .hbm, ⟨9, _⟩ => ⟨S50, .f32⟩
  | .hbm, ⟨10, _⟩ => ⟨S25x50, .f32⟩
  | .hbm, ⟨11, _⟩ => ⟨S25, .f32⟩
  | .hbm, ⟨12, _⟩ => ⟨S10x25, .f32⟩
  | .hbm, ⟨13, _⟩ => ⟨S10, .f32⟩
  | .hbm, ⟨14, _⟩ => ⟨S2x100, .f32⟩
  | .hbm, ⟨15, _⟩ => ⟨S2, .f32⟩
  | .hbm, ⟨16, _⟩ => ⟨S50x50, .f32⟩
  | .hbm, ⟨17, _⟩ => ⟨S50x1, .f32⟩
  | .hbm, ⟨18, _⟩ => ⟨S50, .f32⟩
  | .hbm, ⟨19, _⟩ => ⟨S50x50, .f32⟩
  | .hbm, ⟨20, _⟩ => ⟨S170x50, .f32⟩
  | .hbm, ⟨21, _⟩ => ⟨S170x50, .bf16⟩
  | .hbm, ⟨22, _⟩ => ⟨S50x25, .f32⟩
  | .hbm, ⟨23, _⟩ => ⟨S50x25, .bf16⟩
  | .hbm, ⟨24, _⟩ => ⟨S25x10, .f32⟩
  | .hbm, ⟨25, _⟩ => ⟨S25x10, .bf16⟩
  | .hbm, ⟨26, _⟩ => ⟨S50x50, .f32⟩
  | .hbm, ⟨27, _⟩ => ⟨S50x1, .f32⟩
  | .hbm, ⟨28, _⟩ => ⟨S50, .f32⟩
  | .hbm, ⟨29, _⟩ => ⟨S50x50, .f32⟩
  | .hbm, ⟨30, _⟩ => ⟨S170x50, .f32⟩
  | .hbm, ⟨31, _⟩ => ⟨S170x50, .bf16⟩
  | .hbm, ⟨32, _⟩ => ⟨S50x25, .f32⟩
  | .hbm, ⟨33, _⟩ => ⟨S50x25, .bf16⟩
  | .hbm, ⟨34, _⟩ => ⟨S25x10, .f32⟩
  | .hbm, ⟨35, _⟩ => ⟨S25x10, .bf16⟩
  | .hbm, ⟨36, _⟩ => ⟨S_, .bf16⟩
  | .hbm, ⟨37, _⟩ => ⟨S100x128, .bf16⟩
  | .hbm, ⟨38, _⟩ => ⟨S100x2, .f32⟩
  | .hbm, ⟨39, _⟩ => ⟨S100x2, .bf16⟩
  | .hbm, ⟨40, _⟩ => ⟨S_, .i32⟩
  | .hbm, ⟨41, _⟩ => ⟨S1, .i32⟩
  | .hbm, ⟨42, _⟩ => ⟨S100x128, .bf16⟩
  | .hbm, ⟨43, _⟩ => ⟨S_, .f32⟩
  | .hbm, ⟨44, _⟩ => ⟨S128, .f32⟩
  | .hbm, ⟨45, _⟩ => ⟨S_, .i32⟩
  | .hbm, ⟨46, _⟩ => ⟨S1, .i32⟩
  | .hbm, ⟨47, _⟩ => ⟨S128, .f32⟩
  | .hbm, ⟨48, _⟩ => ⟨S262144x2, .f32⟩
  | .local _ .vmem, ⟨0, _⟩ => ⟨S2048x12, .f32⟩
  | .local _ .vmem, ⟨1, _⟩ => ⟨S2048x12, .f32⟩
  | .local _ .vmem, ⟨2, _⟩ => ⟨S170x50, .bf16⟩
  | .local _ .vmem, ⟨3, _⟩ => ⟨S50, .f32⟩
  | .local _ .vmem, ⟨4, _⟩ => ⟨S50, .f32⟩
  | .local _ .vmem, ⟨5, _⟩ => ⟨S50x25, .bf16⟩
  | .local _ .vmem, ⟨6, _⟩ => ⟨S25, .f32⟩
  | .local _ .vmem, ⟨7, _⟩ => ⟨S25x10, .bf16⟩
  | .local _ .vmem, ⟨8, _⟩ => ⟨S10, .f32⟩
  | .local _ .vmem, ⟨9, _⟩ => ⟨S170x50, .bf16⟩
  | .local _ .vmem, ⟨10, _⟩ => ⟨S50, .f32⟩
  | .local _ .vmem, ⟨11, _⟩ => ⟨S50, .f32⟩
  | .local _ .vmem, ⟨12, _⟩ => ⟨S50x25, .bf16⟩
  | .local _ .vmem, ⟨13, _⟩ => ⟨S25, .f32⟩
  | .local _ .vmem, ⟨14, _⟩ => ⟨S25x10, .bf16⟩
  | .local _ .vmem, ⟨15, _⟩ => ⟨S10, .f32⟩
  | .local _ .vmem, ⟨16, _⟩ => ⟨S100x128, .bf16⟩
  | .local _ .vmem, ⟨17, _⟩ => ⟨S128, .f32⟩
  | .local _ .vmem, ⟨18, _⟩ => ⟨S2048x2, .f32⟩
  | .local _ .vmem, ⟨19, _⟩ => ⟨S2048x2, .f32⟩
  | _, _ => ⟨S262144x12, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_v12 : Ref sig .tc := ⟨.hbm, 28, rfl⟩
abbrev main_call0_v13 : Ref sig .tc := ⟨.hbm, 29, rfl⟩
abbrev main_call0_v14 : Ref sig .tc := ⟨.hbm, 30, rfl⟩
abbrev main_call0_v15 : Ref sig .tc := ⟨.hbm, 31, rfl⟩
abbrev main_call0_v16 : Ref sig .tc := ⟨.hbm, 32, rfl⟩
abbrev main_call0_v17 : Ref sig .tc := ⟨.hbm, 33, rfl⟩
abbrev main_call0_v18 : Ref sig .tc := ⟨.hbm, 34, rfl⟩
abbrev main_call0_v19 : Ref sig .tc := ⟨.hbm, 35, rfl⟩
abbrev main_call0_cst : Ref sig .tc := ⟨.hbm, 36, rfl⟩
abbrev main_call0_v20 : Ref sig .tc := ⟨.hbm, 37, rfl⟩
abbrev main_call0_v21 : Ref sig .tc := ⟨.hbm, 38, rfl⟩
abbrev main_call0_v22 : Ref sig .tc := ⟨.hbm, 39, rfl⟩
abbrev main_call0_c : Ref sig .tc := ⟨.hbm, 40, rfl⟩
abbrev main_call0_v23 : Ref sig .tc := ⟨.hbm, 41, rfl⟩
abbrev main_call0_v24 : Ref sig .tc := ⟨.hbm, 42, rfl⟩
abbrev main_call0_cst_0 : Ref sig .tc := ⟨.hbm, 43, rfl⟩
abbrev main_call0_v25 : Ref sig .tc := ⟨.hbm, 44, rfl⟩
abbrev main_call0_c_1 : Ref sig .tc := ⟨.hbm, 45, rfl⟩
abbrev main_call0_v26 : Ref sig .tc := ⟨.hbm, 46, rfl⟩
abbrev main_call0_v27 : Ref sig .tc := ⟨.hbm, 47, rfl⟩
abbrev main_v0 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg17_0 : Ref sig .tc := ⟨.vmem, 18, rfl⟩
abbrev cc0_stg17_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem17_0 : DmaSem sig := 18
abbrev cc0_sem17_1 : DmaSem sig := 19

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x12 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S170x50 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S50 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S50 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S50x25 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S25 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S25x10 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S10 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S170x50 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S50 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S50 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S50x25 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S25 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S25x10 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S10 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S100x128 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S2048x2 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

class Facts₀ : Prop where
  slices_S50x51_S50x50_0_0 : S50x51.Slices ![0, 0] S50x50
  slices_S50x51_S50x1_0_50 : S50x51.Slices ![0, 50] S50x1
  shapeCasts_S50x1_S50 : S50x1.ShapeCasts S50
  transposes_S50x50_S50x50_1_0 : S50x50.Transposes [1, 0] S50x50
  bitsLt_bf16_f32 : FTy.bits .bf16 < FTy.bits .f32
  transposes_S25x50_S50x25_1_0 : S25x50.Transposes [1, 0] S50x25
  transposes_S10x25_S25x10_1_0 : S10x25.Transposes [1, 0] S25x10
  bcast_S_S100x128 : S_.BroadcastsInDim S100x128 (![] : Fin 0 → Fin S100x128.rank)
  transposes_S2x100_S100x2_1_0 : S2x100.Transposes [1, 0] S100x2
  bcast_S_S1 : S_.BroadcastsInDim S1 (![] : Fin 0 → Fin S1.rank)
  bcast_S_S128 : S_.BroadcastsInDim S128 (![] : Fin 0 → Fin S128.rank)
  inb_S2048x12_S2048x12_0_0 : ∀ a, (![0, 0] : Fin 2 → Nat) a + S2048x12.size a ≤ S2048x12.size a
  h_S2048x12 : 0 < S2048x12.numel
  slices_S2048x12_o0_0_S2048x1 : S2048x12.Slices ![0, 0] S2048x1
  slices_S2048x12_o0_1_S2048x1 : S2048x12.Slices ![0, 1] S2048x1
  slices_S2048x12_o0_2_S2048x10 : S2048x12.Slices ![0, 2] S2048x10
  slices_S2048x10_o0_0_S2048x5 : S2048x10.Slices ![0, 0] S2048x5
  slices_S2048x10_o0_5_S2048x5 : S2048x10.Slices ![0, 5] S2048x5
  iota_S2048x170_d1_w32 : S2048x170.Iotas .tc 32 [1]
  inb_S170x50_S170x50_0_0 : ∀ a, (![0, 0] : Fin 2 → Nat) a + S170x50.size a ≤ S170x50.size a
  h_S170x50 : 0 < S170x50.numel
  shapeCasts_S170x50_S170x50 : S170x50.ShapeCasts S170x50
  inb_S50_S50_0 : ∀ a, (![0] : Fin 1 → Nat) a + S50.size a ≤ S50.size a
  h_S50 : 0 < S50.numel
  shapeCasts_S50_S50 : S50.ShapeCasts S50
  inb_S50x25_S50x25_0_0 : ∀ a, (![0, 0] : Fin 2 → Nat) a + S50x25.size a ≤ S50x25.size a
  h_S50x25 : 0 < S50x25.numel
  shapeCasts_S50x25_S50x25 : S50x25.ShapeCasts S50x25
  inb_S25_S25_0 : ∀ a, (![0] : Fin 1 → Nat) a + S25.size a ≤ S25.size a
  h_S25 : 0 < S25.numel
  inb_S25x10_S25x10_0_0 : ∀ a, (![0, 0] : Fin 2 → Nat) a + S25x10.size a ≤ S25x10.size a
  h_S25x10 : 0 < S25x10.numel
  shapeCasts_S25x10_S25x10 : S25x10.ShapeCasts S25x10
  inb_S10_S10_0 : ∀ a, (![0] : Fin 1 → Nat) a + S10.size a ≤ S10.size a
  h_S10 : 0 < S10.numel
  slices_S2048x5_o0_0_S2048x1 : S2048x5.Slices ![0, 0] S2048x1
  broadcasts_S2048x1_S2048x170 : S2048x1.Broadcasts S2048x170
  natLt_1_32 : 1 < 32
  slices_S2048x5_o0_1_S2048x1 : S2048x5.Slices ![0, 1] S2048x1
  slices_S2048x5_o0_2_S2048x1 : S2048x5.Slices ![0, 2] S2048x1
  slices_S2048x5_o0_3_S2048x1 : S2048x5.Slices ![0, 3] S2048x1
  slices_S2048x5_o0_4_S2048x1 : S2048x5.Slices ![0, 4] S2048x1
  concatenates_S2048x170_S2048x170_S2048x170_S2048x170_S2048x170_S10240x170_d0 : Shape.Concatenates [S2048x170, S2048x170, S2048x170, S2048x170, S2048x170] S10240x170 0
  shapeCasts_S50_S1x50 : S50.ShapeCasts S1x50
  broadcasts_S2048x1_S2048x50 : S2048x1.Broadcasts S2048x50
  broadcasts_S1x50_S2048x50 : S1x50.Broadcasts S2048x50
  slices_S10240x50_o0_0_S2048x50 : S10240x50.Slices ![0, 0] S2048x50
  slices_S10240x50_o2048_0_S2048x50 : S10240x50.Slices ![2048, 0] S2048x50
  slices_S10240x50_o4096_0_S2048x50 : S10240x50.Slices ![4096, 0] S2048x50
  slices_S10240x50_o6144_0_S2048x50 : S10240x50.Slices ![6144, 0] S2048x50
  slices_S10240x50_o8192_0_S2048x50 : S10240x50.Slices ![8192, 0] S2048x50
  concatenates_S2048x50_S2048x50_S2048x50_S2048x50_S2048x50_S10240x50_d0 : Shape.Concatenates [S2048x50, S2048x50, S2048x50, S2048x50, S2048x50] S10240x50 0
  shapeCasts_S25_S1x25 : S25.ShapeCasts S1x25
  broadcasts_S1x25_S10240x25 : S1x25.Broadcasts S10240x25
  shapeCasts_S10_S1x10 : S10.ShapeCasts S1x10
  broadcasts_S1x10_S10240x10 : S1x10.Broadcasts S10240x10
  slices_S10240x10_o0_0_S2048x10 : S10240x10.Slices ![0, 0] S2048x10
  inb_S100x128_S10x128_0_0 : ∀ a, (![0, 0] : Fin 2 → Nat) a + S10x128.size a ≤ S100x128.size a
  h_S10x128 : 0 < S10x128.numel
  shapeCasts_S10x128_S10x128 : S10x128.ShapeCasts S10x128
  slices_S10240x10_o2048_0_S2048x10 : S10240x10.Slices ![2048, 0] S2048x10
  inb_S100x128_S10x128_10_0 : ∀ a, (![10, 0] : Fin 2 → Nat) a + S10x128.size a ≤ S100x128.size a
  slices_S10240x10_o4096_0_S2048x10 : S10240x10.Slices ![4096, 0] S2048x10
  inb_S100x128_S10x128_20_0 : ∀ a, (![20, 0] : Fin 2 → Nat) a + S10x128.size a ≤ S100x128.size a
  slices_S10240x10_o6144_0_S2048x10 : S10240x10.Slices ![6144, 0] S2048x10
  inb_S100x128_S10x128_30_0 : ∀ a, (![30, 0] : Fin 2 → Nat) a + S10x128.size a ≤ S100x128.size a
  slices_S10240x10_o8192_0_S2048x10 : S10240x10.Slices ![8192, 0] S2048x10
  inb_S100x128_S10x128_40_0 : ∀ a, (![40, 0] : Fin 2 → Nat) a + S10x128.size a ≤ S100x128.size a
  inb_S100x128_S10x128_50_0 : ∀ a, (![50, 0] : Fin 2 → Nat) a + S10x128.size a ≤ S100x128.size a
  inb_S100x128_S10x128_60_0 : ∀ a, (![60, 0] : Fin 2 → Nat) a + S10x128.size a ≤ S100x128.size a
  inb_S100x128_S10x128_70_0 : ∀ a, (![70, 0] : Fin 2 → Nat) a + S10x128.size a ≤ S100x128.size a
  inb_S100x128_S10x128_80_0 : ∀ a, (![80, 0] : Fin 2 → Nat) a + S10x128.size a ≤ S100x128.size a
  inb_S100x128_S10x128_90_0 : ∀ a, (![90, 0] : Fin 2 → Nat) a + S10x128.size a ≤ S100x128.size a
  inb_S128_S128_0 : ∀ a, (![0] : Fin 1 → Nat) a + S128.size a ≤ S128.size a
  h_S128 : 0 < S128.numel
  shapeCasts_S128_S128 : S128.ShapeCasts S128
  shapeCasts_S128_S1x128 : S128.ShapeCasts S1x128
  broadcasts_S1x128_S2048x128 : S1x128.Broadcasts S2048x128
  slices_S2048x128_o0_0_S2048x2 : S2048x128.Slices ![0, 0] S2048x2
  inb_S2048x2_S2048x2_0_0 : ∀ a, (![0, 0] : Fin 2 → Nat) a + S2048x2.size a ≤ S2048x2.size a
  h_S2048x2 : 0 < S2048x2.numel
  dot_S170x50_S50x50_S170x50_1_0_0_1_n_n_wf : DotDims.WF S170x50 S50x50 S170x50 [1] [0] [0] [1] [] []
  scatter_S100x128_S1_S100x2_01_n_1_0_wf : ScatterDims.WF S100x128 S1 S100x2 [0, 1] [] [1] 0
  scatter_S128_S1_S2_0_n_0_0_wf : ScatterDims.WF S128 S1 S2 [0] [] [0] 0
  dot_S10240x170_S170x50_S10240x50_1_0_0_1_n_n_wf : DotDims.WF S10240x170 S170x50 S10240x50 [1] [0] [0] [1] [] []
  dot_S10240x50_S50x25_S10240x25_1_0_0_1_n_n_wf : DotDims.WF S10240x50 S50x25 S10240x25 [1] [0] [0] [1] [] []
  dot_S10240x25_S25x10_S10240x10_1_0_0_1_n_n_wf : DotDims.WF S10240x25 S25x10 S10240x10 [1] [0] [0] [1] [] []
  dot_S2048x10_S10x128_S2048x128_1_0_0_1_n_n_wf : DotDims.WF S2048x10 S10x128 S2048x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x12.size a ≤ S262144x12.size a
  hwx0_0 : ∀ i : grid0.Coords, EltTy.bits .f32 = 32 ∨ (Rect.block (s := S262144x12) S2048x12.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S170x50.size a ≤ S170x50.size a
  hwx0_1 : ∀ i : grid0.Coords, EltTy.bits .bf16 = 32 ∨ (Rect.block (s := S170x50) S170x50.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S50.size a ≤ S50.size a
  hwx0_2 : ∀ i : grid0.Coords, EltTy.bits .f32 = 32 ∨ (Rect.block (s := S50) S50.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S50.size a ≤ S50.size a
  hwx0_3 : ∀ i : grid0.Coords, EltTy.bits .f32 = 32 ∨ (Rect.block (s := S50) S50.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S50x25.size a ≤ S50x25.size a
  hwx0_4 : ∀ i : grid0.Coords, EltTy.bits .bf16 = 32 ∨ (Rect.block (s := S50x25) S50x25.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S25.size a ≤ S25.size a
  hwx0_5 : ∀ i : grid0.Coords, EltTy.bits .f32 = 32 ∨ (Rect.block (s := S25) S25.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S25x10.size a ≤ S25x10.size a
  hwx0_6 : ∀ i : grid0.Coords, EltTy.bits .bf16 = 32 ∨ (Rect.block (s := S25x10) S25x10.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S10.size a ≤ S10.size a
  hwx0_7 : ∀ i : grid0.Coords, EltTy.bits .f32 = 32 ∨ (Rect.block (s := S10) S10.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S170x50.size a ≤ S170x50.size a
  hwx0_8 : ∀ i : grid0.Coords, EltTy.bits .bf16 = 32 ∨ (Rect.block (s := S170x50) S170x50.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S50.size a ≤ S50.size a
  hwx0_9 : ∀ i : grid0.Coords, EltTy.bits .f32 = 32 ∨ (Rect.block (s := S50) S50.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S50.size a ≤ S50.size a
  hwx0_10 : ∀ i : grid0.Coords, EltTy.bits .f32 = 32 ∨ (Rect.block (s := S50) S50.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S50x25.size a ≤ S50x25.size a
  hwx0_11 : ∀ i : grid0.Coords, EltTy.bits .bf16 = 32 ∨ (Rect.block (s := S50x25) S50x25.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S25.size a ≤ S25.size a
  hwx0_12 : ∀ i : grid0.Coords, EltTy.bits .f32 = 32 ∨ (Rect.block (s := S25) S25.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S25x10.size a ≤ S25x10.size a
  hwx0_13 : ∀ i : grid0.Coords, EltTy.bits .bf16 = 32 ∨ (Rect.block (s := S25x10) S25x10.size (cc0_transform_13 i) (hinb0_13 i)).WholeWords (EltTy.packing .bf16)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S10.size a ≤ S10.size a
  hwx0_14 : ∀ i : grid0.Coords, EltTy.bits .f32 = 32 ∨ (Rect.block (s := S10) S10.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S100x128.size a ≤ S100x128.size a
  hwx0_15 : ∀ i : grid0.Coords, EltTy.bits .bf16 = 32 ∨ (Rect.block (s := S100x128) S100x128.size (cc0_transform_15 i) (hinb0_15 i)).WholeWords (EltTy.packing .bf16)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S128.size a ≤ S128.size a
  hwx0_16 : ∀ i : grid0.Coords, EltTy.bits .f32 = 32 ∨ (Rect.block (s := S128) S128.size (cc0_transform_16 i) (hinb0_16 i)).WholeWords (EltTy.packing .f32)
  hstage0_17 : ∀ j, (stage0_17 j).IsWhole
  nbuf0_17 : grid0.bufCount reads0_17 false = 2
  hreads0_17 : ∀ i i' : grid0.Coords, (∀ a, reads0_17 a = true → i a = i' a) → cc0_transform_17 i = cc0_transform_17 i'
  hinb0_17 : ∀ (i : grid0.Coords) a, (cc0_transform_17 i a + 1) * S2048x2.size a ≤ S262144x2.size a
  hwx0_17 : ∀ i : grid0.Coords, EltTy.bits .f32 = 32 ∨ (Rect.block (s := S262144x2) S2048x2.size (cc0_transform_17 i) (hinb0_17 i)).WholeWords (EltTy.packing .f32)

variable [Facts₀]

def dot_S170x50_S50x50_S170x50_1_0_0_1_n_n : DotDims S170x50 S50x50 S170x50 where
  lhsContracting := [1]
  rhsContracting := [0]
  lhsNonContracting := [0]
  rhsNonContracting := [1]
  lhsBatch := []
  rhsBatch := []
  wf := dot_S170x50_S50x50_S170x50_1_0_0_1_n_n_wf
def scatter_S100x128_S1_S100x2_01_n_1_0 : ScatterDims S100x128 S1 S100x2 where
  updateWindowDims := [0, 1]
  insertedWindowDims := []
  scatterDimsToOperandDims := [1]
  indexVectorDim := 0
  wf := scatter_S100x128_S1_S100x2_01_n_1_0_wf
def scatter_S128_S1_S2_0_n_0_0 : ScatterDims S128 S1 S2 where
  updateWindowDims := [0]
  insertedWindowDims := []
  scatterDimsToOperandDims := [0]
  indexVectorDim := 0
  wf := scatter_S128_S1_S2_0_n_0_0_wf
def dot_S10240x170_S170x50_S10240x50_1_0_0_1_n_n : DotDims S10240x170 S170x50 S10240x50 where
  lhsContracting := [1]
  rhsContracting := [0]
  lhsNonContracting := [0]
  rhsNonContracting := [1]
  lhsBatch := []
  rhsBatch := []
  wf := dot_S10240x170_S170x50_S10240x50_1_0_0_1_n_n_wf
def dot_S10240x50_S50x25_S10240x25_1_0_0_1_n_n : DotDims S10240x50 S50x25 S10240x25 where
  lhsContracting := [1]
  rhsContracting := [0]
  lhsNonContracting := [0]
  rhsNonContracting := [1]
  lhsBatch := []
  rhsBatch := []
  wf := dot_S10240x50_S50x25_S10240x25_1_0_0_1_n_n_wf
def dot_S10240x25_S25x10_S10240x10_1_0_0_1_n_n : DotDims S10240x25 S25x10 S10240x10 where
  lhsContracting := [1]
  rhsContracting := [0]
  lhsNonContracting := [0]
  rhsNonContracting := [1]
  lhsBatch := []
  rhsBatch := []
  wf := dot_S10240x25_S25x10_S10240x10_1_0_0_1_n_n_wf
def dot_S2048x10_S10x128_S2048x128_1_0_0_1_n_n : DotDims S2048x10 S10x128 S2048x128 where
  lhsContracting := [1]
  rhsContracting := [0]
  lhsNonContracting := [0]
  rhsNonContracting := [1]
  lhsBatch := []
  rhsBatch := []
  wf := dot_S2048x10_S10x128_S2048x128_1_0_0_1_n_n_wf

abbrev win0_0 : Pipeline.Window sig grid0 :=
  Pipeline.Window.ofSpec (Memref.whole main_arg0) S2048x12.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v5) S170x50.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v2) S50.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S50.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v7) S50x25.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S25.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_call0_v9) S25x10.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S10.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_call0_v15) S170x50.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_call0_v12) S50.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg9) S50.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_call0_v17) S50x25.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg11) S25.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_call0_v19) S25x10.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg13) S10.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_call0_v24) S100x128.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_call0_v27) S128.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v0) S2048x2.size cc0_transform_17 reads0_17 true false 2 stage0_17 sem0_17
    hrank0 hreads0_17 hinb0_17 nbuf0_17 (Memref.isWhole_whole _) hwx0_17 hstage0_17

abbrev win0 : Fin 18 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | ⟨_ + 18, h⟩ => absurd h (Nat.not_lt.2 (Nat.le_add_left _ _))
abbrev spec0 : Fin 18 → Pipeline.WinSpec sig grid0.rank := fun w => (win0 w).toWinSpec

class Facts : Prop extends Facts₀ where

variable [Facts]
-- ==== ReferenceIdeal.lean ====
abbrev S262144x12 : Shape := ⟨2, ![262144, 12]⟩
abbrev S170x50 : Shape := ⟨2, ![170, 50]⟩
abbrev S50x51 : Shape := ⟨2, ![50, 51]⟩
abbrev S50 : Shape := ⟨1, ![50]⟩
abbrev S25x50 : Shape := ⟨2, ![25, 50]⟩
abbrev S25 : Shape := ⟨1, ![25]⟩
abbrev S10x25 : Shape := ⟨2, ![10, 25]⟩
abbrev S10 : Shape := ⟨1, ![10]⟩
abbrev S2x100 : Shape := ⟨2, ![2, 100]⟩
abbrev S2 : Shape := ⟨1, ![2]⟩
abbrev S262144x1 : Shape := ⟨2, ![262144, 1]⟩
abbrev S262144x10 : Shape := ⟨2, ![262144, 10]⟩
abbrev S_ : Shape := ⟨0, ![]⟩
abbrev S262144x10x1 : Shape := ⟨3, ![262144, 10, 1]⟩
abbrev S262144x10x50 : Shape := ⟨3, ![262144, 10, 50]⟩
abbrev S262144x5x50 : Shape := ⟨3, ![262144, 5, 50]⟩
abbrev S262144x1x1 : Shape := ⟨3, ![262144, 1, 1]⟩
abbrev S262144x5x1 : Shape := ⟨3, ![262144, 5, 1]⟩
abbrev S262144x5x51 : Shape := ⟨3, ![262144, 5, 51]⟩
abbrev S1x1x50 : Shape := ⟨3, ![1, 1, 50]⟩
abbrev S262144x5x25 : Shape := ⟨3, ![262144, 5, 25]⟩
abbrev S1x1x25 : Shape := ⟨3, ![1, 1, 25]⟩
abbrev S262144x5x10 : Shape := ⟨3, ![262144, 5, 10]⟩
abbrev S1x1x10 : Shape := ⟨3, ![1, 1, 10]⟩
abbrev S262144x50 : Shape := ⟨2, ![262144, 50]⟩
abbrev S262144x100 : Shape := ⟨2, ![262144, 100]⟩
abbrev S100x2 : Shape := ⟨2, ![100, 2]⟩
abbrev S262144x2 : Shape := ⟨2, ![262144, 2]⟩
abbrev S1x2 : Shape := ⟨2, ![1, 2]⟩

abbrev nBuf : Space → Nat
  | .hbm => 87
  | .vmem => 0
  | .smem => 0
  | _ => 0

abbrev bufTy : (tb : Table) → Fin (tcTables nBuf tb) → BufTy
  | .hbm, ⟨0, _⟩ => ⟨S262144x12, .f32⟩
  | .hbm, ⟨1, _⟩ => ⟨S170x50, .f32⟩
  | .hbm, ⟨2, _⟩ => ⟨S50x51, .f32⟩
  | .hbm, ⟨3, _⟩ => ⟨S50, .f32⟩
  | .hbm, ⟨4, _⟩ => ⟨S25x50, .f32⟩
  | .hbm, ⟨5, _⟩ => ⟨S25, .f32⟩
  | .hbm, ⟨6, _⟩ => ⟨S10x25, .f32⟩
  | .hbm, ⟨7, _⟩ => ⟨S10, .f32⟩
  | .hbm, ⟨8, _⟩ => ⟨S50x51, .f32⟩
  | .hbm, ⟨9, _⟩ => ⟨S50, .f32⟩
  | .hbm, ⟨10, _⟩ => ⟨S25x50, .f32⟩
  | .hbm, ⟨11, _⟩ => ⟨S25, .f32⟩
  | .hbm, ⟨12, _⟩ => ⟨S10x25, .f32⟩
  | .hbm, ⟨13, _⟩ => ⟨S10, .f32⟩
  | .hbm, ⟨14, _⟩ => ⟨S2x100, .f32⟩
  | .hbm, ⟨15, _⟩ => ⟨S2, .f32⟩
  | .hbm, ⟨16, _⟩ => ⟨S262144x1, .f32⟩
  | .hbm, ⟨17, _⟩ => ⟨S262144x1, .f32⟩
  | .hbm, ⟨18, _⟩ => ⟨S262144x10, .f32⟩
  | .hbm, ⟨19, _⟩ => ⟨S262144x10, .i32⟩
  | .hbm, ⟨20, _⟩ => ⟨S_, .i32⟩
  | .hbm, ⟨21, _⟩ => ⟨S262144x10, .i32⟩
  | .hbm, ⟨22, _⟩ => ⟨S262144x10, .i1⟩
  | .hbm, ⟨23, _⟩ => ⟨S_, .i32⟩
  | .hbm, ⟨24, _⟩ => ⟨S262144x10, .i32⟩
  | .hbm, ⟨25, _⟩ => ⟨S262144x10, .i32⟩
  | .hbm, ⟨26, _⟩ => ⟨S262144x10, .i32⟩
  | .hbm, ⟨27, _⟩ => ⟨S262144x10x1, .i32⟩
  | .hbm, ⟨28, _⟩ => ⟨S262144x10x50, .f32⟩
  | .hbm, ⟨29, _⟩ => ⟨S262144x5x50, .f32⟩
  | .hbm, ⟨30, _⟩ => ⟨S262144x1x1, .f32⟩
  | .hbm, ⟨31, _⟩ => ⟨S262144x5x1, .f32⟩
  | .hbm, ⟨32, _⟩ => ⟨S262144x5x51, .f32⟩
  | .hbm, ⟨33, _⟩ => ⟨S262144x5x50, .f32⟩
  | .hbm, ⟨34, _⟩ => ⟨S1x1x50, .f32⟩
  | .hbm, ⟨35, _⟩ => ⟨S262144x5x50, .f32⟩
  | .hbm, ⟨36, _⟩ => ⟨S262144x5x50, .f32⟩
  | .hbm, ⟨37, _⟩ => ⟨S_, .f32⟩
  | .hbm, ⟨38, _⟩ => ⟨S262144x5x50, .f32⟩
  | .hbm, ⟨39, _⟩ => ⟨S262144x5x50, .f32⟩
  | .hbm, ⟨40, _⟩ => ⟨S262144x5x25, .f32⟩
  | .hbm, ⟨41, _⟩ => ⟨S1x1x25, .f32⟩
  | .hbm, ⟨42, _⟩ => ⟨S262144x5x25, .f32⟩
  | .hbm, ⟨43, _⟩ => ⟨S262144x5x25, .f32⟩
  | .hbm, ⟨44, _⟩ => ⟨S_, .f32⟩
  | .hbm, ⟨45, _⟩ => ⟨S262144x5x25, .f32⟩
  | .hbm, ⟨46, _⟩ => ⟨S262144x5x25, .f32⟩
  | .hbm, ⟨47, _⟩ => ⟨S262144x5x10, .f32⟩
  | .hbm, ⟨48, _⟩ => ⟨S1x1x10, .f32⟩
  | .hbm, ⟨49, _⟩ => ⟨S262144x5x10, .f32⟩
  | .hbm, ⟨50, _⟩ => ⟨S262144x5x10, .f32⟩
  | .hbm, ⟨51, _⟩ => ⟨S_, .f32⟩
  | .hbm, ⟨52, _⟩ => ⟨S262144x5x10, .f32⟩
  | .hbm, ⟨53, _⟩ => ⟨S262144x5x10, .f32⟩
  | .hbm, ⟨54, _⟩ => ⟨S262144x50, .f32⟩
  | .hbm, ⟨55, _⟩ => ⟨S262144x5x50, .f32⟩
  | .hbm, ⟨56, _⟩ => ⟨S262144x1x1, .f32⟩
  | .hbm, ⟨57, _⟩ => ⟨S262144x5x1, .f32⟩
  | .hbm, ⟨58, _⟩ => ⟨S262144x5x51, .f32⟩
  | .hbm, ⟨59, _⟩ => ⟨S262144x5x50, .f32⟩
  | .hbm, ⟨60, _⟩ => ⟨S1x1x50, .f32⟩
  | .hbm, ⟨61, _⟩ => ⟨S262144x5x50, .f32⟩
  | .hbm, ⟨62, _⟩ => ⟨S262144x5x50, .f32⟩
  | .hbm, ⟨63, _⟩ => ⟨S_, .f32⟩
  | .hbm, ⟨64, _⟩ => ⟨S262144x5x50, .f32⟩
  | .hbm, ⟨65, _⟩ => ⟨S262144x5x50, .f32⟩
  | .hbm, ⟨66, _⟩ => ⟨S262144x5x25, .f32⟩
  | .hbm, ⟨67, _⟩ => ⟨S1x1x25, .f32⟩
  | .hbm, ⟨68, _⟩ => ⟨S262144x5x25, .f32⟩
  | .hbm, ⟨69, _⟩ => ⟨S262144x5x25, .f32⟩
  | .hbm, ⟨70, _⟩ => ⟨S_, .f32⟩
  | .hbm, ⟨71, _⟩ => ⟨S262144x5x25, .f32⟩
  | .hbm, ⟨72, _⟩ => ⟨S262144x5x25, .f32⟩
  | .hbm, ⟨73, _⟩ => ⟨S262144x5x10, .f32⟩
  | .hbm, ⟨74, _⟩ => ⟨S1x1x10, .f32⟩
  | .hbm, ⟨75, _⟩ => ⟨S262144x5x10, .f32⟩
  | .hbm, ⟨76, _⟩ => ⟨S262144x5x10, .f32⟩
  | .hbm, ⟨77, _⟩ => ⟨S_, .f32⟩
  | .hbm, ⟨78, _⟩ => ⟨S262144x5x10, .f32⟩
  | .hbm, ⟨79, _⟩ => ⟨S262144x5x10, .f32⟩
  | .hbm, ⟨80, _⟩ => ⟨S262144x50, .f32⟩
  | .hbm, ⟨81, _⟩ => ⟨S262144x100, .f32⟩
  | .hbm, ⟨82, _⟩ => ⟨S100x2, .f32⟩
  | .hbm, ⟨83, _⟩ => ⟨S262144x2, .f32⟩
  | .hbm, ⟨84, _⟩ => ⟨S1x2, .f32⟩
  | .hbm, ⟨85, _⟩ => ⟨S262144x2, .f32⟩
  | .hbm, ⟨86, _⟩ => ⟨S262144x2, .f32⟩
  | _, _ => ⟨S262144x12, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_c : Ref sig .tc := ⟨.hbm, 20, rfl⟩
abbrev main_v4 : Ref sig .tc := ⟨.hbm, 21, rfl⟩
abbrev main_v5 : Ref sig .tc := ⟨.hbm, 22, rfl⟩
abbrev main_c_0 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_call0_cst : Ref sig .tc := ⟨.hbm, 37, rfl⟩
abbrev main_call0_v0 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_call1_cst : Ref sig .tc := ⟨.hbm, 44, rfl⟩
abbrev main_call1_v0 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_call2_cst : Ref sig .tc := ⟨.hbm, 51, rfl⟩
abbrev main_call2_v0 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_call3_cst : Ref sig .tc := ⟨.hbm, 63, rfl⟩
abbrev main_call3_v0 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_call4_cst : Ref sig .tc := ⟨.hbm, 70, rfl⟩
abbrev main_call4_v0 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_call5_cst : Ref sig .tc := ⟨.hbm, 77, rfl⟩
abbrev main_call5_v0 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩

abbrev nD : Nat := 1
abbrev τ : Topo := Topo.v7x

variable {F : FTy → Type} [FloatOps F]

class Facts₀ : Prop where
  slices_S262144x12_S262144x1_0_0 : S262144x12.Slices ![0, 0] S262144x1
  slices_S262144x12_S262144x1_0_1 : S262144x12.Slices ![0, 1] S262144x1
  slices_S262144x12_S262144x10_0_2 : S262144x12.Slices ![0, 2] S262144x10
  bcast_S_S262144x10 : S_.BroadcastsInDim S262144x10 (![] : Fin 0 → Fin S262144x10.rank)
  bcast_S262144x10_S262144x10x1_0_1 : S262144x10.BroadcastsInDim S262144x10x1 (![0, 1] : Fin 2 → Fin S262144x10x1.rank)
  slices_S262144x10x50_S262144x5x50_0_0_0 : S262144x10x50.Slices ![0, 0, 0] S262144x5x50
  bcast_S262144x1_S262144x1x1_0_2 : S262144x1.BroadcastsInDim S262144x1x1 (![0, 2] : Fin 2 → Fin S262144x1x1.rank)
  bcast_S262144x1x1_S262144x5x1_0_1_2 : S262144x1x1.BroadcastsInDim S262144x5x1 (![0, 1, 2] : Fin 3 → Fin S262144x5x1.rank)
  concatenates_S262144x5x50_S262144x5x1_S262144x5x51_d2 : Shape.Concatenates [S262144x5x50, S262144x5x1] S262144x5x51 2
  bcast_S50_S1x1x50_2 : S50.BroadcastsInDim S1x1x50 (![2] : Fin 1 → Fin S1x1x50.rank)
  bcast_S1x1x50_S262144x5x50_0_1_2 : S1x1x50.BroadcastsInDim S262144x5x50 (![0, 1, 2] : Fin 3 → Fin S262144x5x50.rank)
  bcast_S_S262144x5x50 : S_.BroadcastsInDim S262144x5x50 (![] : Fin 0 → Fin S262144x5x50.rank)
  bcast_S25_S1x1x25_2 : S25.BroadcastsInDim S1x1x25 (![2] : Fin 1 → Fin S1x1x25.rank)
  bcast_S1x1x25_S262144x5x25_0_1_2 : S1x1x25.BroadcastsInDim S262144x5x25 (![0, 1, 2] : Fin 3 → Fin S262144x5x25.rank)
  bcast_S_S262144x5x25 : S_.BroadcastsInDim S262144x5x25 (![] : Fin 0 → Fin S262144x5x25.rank)
  bcast_S10_S1x1x10_2 : S10.BroadcastsInDim S1x1x10 (![2] : Fin 1 → Fin S1x1x10.rank)
  bcast_S1x1x10_S262144x5x10_0_1_2 : S1x1x10.BroadcastsInDim S262144x5x10 (![0, 1, 2] : Fin 3 → Fin S262144x5x10.rank)
  bcast_S_S262144x5x10 : S_.BroadcastsInDim S262144x5x10 (![] : Fin 0 → Fin S262144x5x10.rank)
  shapeCasts_S262144x5x10_S262144x50 : S262144x5x10.ShapeCasts S262144x50
  slices_S262144x10x50_S262144x5x50_0_5_0 : S262144x10x50.Slices ![0, 5, 0] S262144x5x50
  concatenates_S262144x50_S262144x50_S262144x100_d1 : Shape.Concatenates [S262144x50, S262144x50] S262144x100 1
  transposes_S2x100_S100x2_1_0 : S2x100.Transposes [1, 0] S100x2
  bcast_S2_S1x2_1 : S2.BroadcastsInDim S1x2 (![1] : Fin 1 → Fin S1x2.rank)
  bcast_S1x2_S262144x2_0_1 : S1x2.BroadcastsInDim S262144x2 (![0, 1] : Fin 2 → Fin S262144x2.rank)
  gather_S170x50_S262144x10x1_S262144x10x50_2_0_n_n_0_2_150_wf : GatherDims.WF S170x50 S262144x10x1 S262144x10x50 [2] [0] [] [0] [] 2 ![1, 50]
  dot_S262144x5x51_S50x51_S262144x5x50_2_1_01_0_n_n_wf : DotDims.WF S262144x5x51 S50x51 S262144x5x50 [2] [1] [0, 1] [0] [] []
  dot_S262144x5x50_S25x50_S262144x5x25_2_1_01_0_n_n_wf : DotDims.WF S262144x5x50 S25x50 S262144x5x25 [2] [1] [0, 1] [0] [] []
  dot_S262144x5x25_S10x25_S262144x5x10_2_1_01_0_n_n_wf : DotDims.WF S262144x5x25 S10x25 S262144x5x10 [2] [1] [0, 1] [0] [] []
  dot_S262144x100_S100x2_S262144x2_1_0_0_1_n_n_wf : DotDims.WF S262144x100 S100x2 S262144x2 [1] [0] [0] [1] [] []

variable [Facts₀]

def gather_S170x50_S262144x10x1_S262144x10x50_2_0_n_n_0_2_150 : GatherDims S170x50 S262144x10x1 S262144x10x50 where
  offsetDims := [2]
  collapsedSliceDims := [0]
  operandBatchingDims := []
  startIndicesBatchingDims := []
  startIndexMap := [0]
  indexVectorDim := 2
  sliceSizes := ![1, 50]
  wf := gather_S170x50_S262144x10x1_S262144x10x50_2_0_n_n_0_2_150_wf
def dot_S262144x5x51_S50x51_S262144x5x50_2_1_01_0_n_n : DotDims S262144x5x51 S50x51 S262144x5x50 where
  lhsContracting := [2]
  rhsContracting := [1]
  lhsNonContracting := [0, 1]
  rhsNonContracting := [0]
  lhsBatch := []
  rhsBatch := []
  wf := dot_S262144x5x51_S50x51_S262144x5x50_2_1_01_0_n_n_wf
def dot_S262144x5x50_S25x50_S262144x5x25_2_1_01_0_n_n : DotDims S262144x5x50 S25x50 S262144x5x25 where
  lhsContracting := [2]
  rhsContracting := [1]
  lhsNonContracting := [0, 1]
  rhsNonContracting := [0]
  lhsBatch := []
  rhsBatch := []
  wf := dot_S262144x5x50_S25x50_S262144x5x25_2_1_01_0_n_n_wf
def dot_S262144x5x25_S10x25_S262144x5x10_2_1_01_0_n_n : DotDims S262144x5x25 S10x25 S262144x5x10 where
  lhsContracting := [2]
  rhsContracting := [1]
  lhsNonContracting := [0, 1]
  rhsNonContracting := [0]
  lhsBatch := []
  rhsBatch := []
  wf := dot_S262144x5x25_S10x25_S262144x5x10_2_1_01_0_n_n_wf
def dot_S262144x100_S100x2_S262144x2_1_0_0_1_n_n : DotDims S262144x100 S100x2 S262144x2 where
  lhsContracting := [1]
  rhsContracting := [0]
  lhsNonContracting := [0]
  rhsNonContracting := [1]
  lhsBatch := []
  rhsBatch := []
  wf := dot_S262144x100_S100x2_S262144x2_1_0_0_1_n_n_wf

class Facts : Prop extends Facts₀ where

variable [Facts]
-- ==== Proof.KLayers.lean ====
/-
  The kernel body's arithmetic, layer by layer, as functions of whole vectors.

  Both teams run the same sequence of vector operations: five one-hot rows per feature row (one per champion) stacked
  channel after channel into a [5·2048, 170] matrix and multiplied into the projected embedding table; the rating's
  share `g · wg + b1` added to each of the five [2048, 50] slices, `relu`, the slices stacked again; two more
  `relu (h · Wᵀ + b)` layers on the stacked rows; and five [2048, 10] · [10, 128] products, one per channel, added one
  after the other into a zero accumulator. The functions below name those stages once; the equations at the end say
  that the body's stored value is their composition (by unfolding: the body's named pieces are these very terms).
-/
import proofs.«419752_j1864015806631_3_alg».proof.Proof.Gen.KernelIdeal.Skeleton

set_option maxRecDepth 65536

noncomputable section

namespace Cert.KernelIdeal.Layers

open Cert.KernelIdeal Cert.KernelIdeal.Gen Idealize.ShloMosaic Idealize.SL.Sem

variable {F : FTy → Type} [FloatOps F]

/-- Champion numbers as table rows: truncated to integers and clipped to `[0, 169]`. -/
def clip (x0 : Vec F S2048x12 .f32) : IVec S2048x10 32 :=
  minsi (broadcast S2048x10 169#32) (maxsi (broadcast S2048x10 0#32) (fptosi 32 (extractStridedSlice S2048x10 ![0, 2] x0 slices_S2048x12_o0_2_S2048x10)))

/-- Channel `c`'s one-hot rows, as a 0/1 integer matrix: row `r` has its one at the column the row's champion names. -/
def hotI (v : IVec S2048x5 32) (c : Nat) (hs : S2048x5.Slices ![0, c] S2048x1) : IVec S2048x170 32 :=
  extui 32 (cmpi .eq (broadcastTo S2048x170 (extractStridedSlice S2048x1 ![0, c] v hs) broadcasts_S2048x1_S2048x170)
    (iota .tc S2048x170 32 [1] iota_S2048x170_d1_w32)) natLt_1_32

/-- The same as floats. -/
def hot (v : IVec S2048x5 32) (c : Nat) (hs : S2048x5.Slices ![0, c] S2048x1) : FVec F S2048x170 .bf16 :=
  truncf .bf16 (sitofp .f32 (hotI v c hs)) bitsLt_bf16_f32

/-- The five channels' one-hot rows stacked, times the projected table: row `2048 c + r` is the projected embedding of
    feature row `r`'s `c`-th champion. -/
def gathered (v : IVec S2048x5 32) (EP : FVec F S170x50 .bf16) : FVec F S10240x50 .f32 :=
  matmul dot_S10240x170_S170x50_S10240x50_1_0_0_1_n_n none
    (concatenate S10240x170 0 [⟨S2048x170, hot v 0 slices_S2048x5_o0_0_S2048x1⟩, ⟨S2048x170, hot v 1 slices_S2048x5_o0_1_S2048x1⟩,
      ⟨S2048x170, hot v 2 slices_S2048x5_o0_2_S2048x1⟩, ⟨S2048x170, hot v 3 slices_S2048x5_o0_3_S2048x1⟩, ⟨S2048x170, hot v 4 slices_S2048x5_o0_4_S2048x1⟩]
      concatenates_S2048x170_S2048x170_S2048x170_S2048x170_S2048x170_S10240x170_d0)
    EP (constant S10240x50 .f32 0x00000000#32)

/-- The rating's share of the first layer, with its bias: `g · wg + b1`, one row per feature row. -/
def ratingShare (g : FVec F S2048x1 .f32) (wg : FVec F S50 .f32) (b1 : Vec F S50 .f32) : FVec F S2048x50 .f32 :=
  addf (mulf (broadcastTo S2048x50 g broadcasts_S2048x1_S2048x50) (broadcastTo S2048x50 (shapeCast S1x50 wg shapeCasts_S50_S1x50) broadcasts_S1x50_S2048x50))
    (broadcastTo S2048x50 (shapeCast S1x50 b1 shapeCasts_S50_S1x50) broadcasts_S1x50_S2048x50)

/-- One channel's first layer: its slice of the gathered rows plus the rating's share, `relu`. -/
def layer1Slice (pre : FVec F S10240x50 .f32) (ga : FVec F S2048x50 .f32) (off : Nat) (hs : S10240x50.Slices ![off, 0] S2048x50) : FVec F S2048x50 .bf16 :=
  truncf .bf16 (maximumf (addf (extractStridedSlice S2048x50 ![off, 0] pre hs) ga) (broadcast S2048x50 (Scalar.ofBits .f32 0x00000000#32))) bitsLt_bf16_f32

/-- The first layer on the stacked rows. -/
def layer1 (pre : FVec F S10240x50 .f32) (ga : FVec F S2048x50 .f32) : FVec F S10240x50 .bf16 :=
  concatenate S10240x50 0 [⟨S2048x50, layer1Slice pre ga 0 slices_S10240x50_o0_0_S2048x50⟩, ⟨S2048x50, layer1Slice pre ga 2048 slices_S10240x50_o2048_0_S2048x50⟩,
    ⟨S2048x50, layer1Slice pre ga 4096 slices_S10240x50_o4096_0_S2048x50⟩, ⟨S2048x50, layer1Slice pre ga 6144 slices_S10240x50_o6144_0_S2048x50⟩,
    ⟨S2048x50, layer1Slice pre ga 8192 slices_S10240x50_o8192_0_S2048x50⟩] concatenates_S2048x50_S2048x50_S2048x50_S2048x50_S2048x50_S10240x50_d0

/-- The second layer on the stacked rows: `relu (h · W2ᵀ + b2)`. -/
def layer2 (h : FVec F S10240x50 .bf16) (W2T : FVec F S50x25 .bf16) (b2 : Vec F S25 .f32) : FVec F S10240x25 .bf16 :=
  truncf .bf16 (maximumf (addf (matmul dot_S10240x50_S50x25_S10240x25_1_0_0_1_n_n none h W2T (constant S10240x25 .f32 0x00000000#32))
    (broadcastTo S10240x25 (shapeCast S1x25 b2 shapeCasts_S25_S1x25) broadcasts_S1x25_S10240x25)) (broadcast S10240x25 (Scalar.ofBits .f32 0x00000000#32))) bitsLt_bf16_f32

/-- The third layer's product, before its bias. -/
def layer3Pre (h : FVec F S10240x25 .bf16) (W3T : FVec F S25x10 .bf16) : FVec F S10240x10 .f32 :=
  matmul dot_S10240x25_S25x10_S10240x10_1_0_0_1_n_n none h W3T (constant S10240x10 .f32 0x00000000#32)

/-- The third layer: bias and `relu`. -/
def layer3 (pre : FVec F S10240x10 .f32) (b3 : Vec F S10 .f32) : FVec F S10240x10 .bf16 :=
  truncf .bf16 (maximumf (addf pre (broadcastTo S10240x10 (shapeCast S1x10 b3 shapeCasts_S10_S1x10) broadcasts_S1x10_S10240x10))
    (broadcast S10240x10 (Scalar.ofBits .f32 0x00000000#32))) bitsLt_bf16_f32

/-- One channel's share of the output: its [2048, 10] slice of the third layer times ten rows of the last linear map. -/
def channelOut (h3 : FVec F S10240x10 .bf16) (off : Nat) (hs : S10240x10.Slices ![off, 0] S2048x10) (w : Vec F S10x128 .bf16) : FVec F S2048x128 .f32 :=
  matmul dot_S2048x10_S10x128_S2048x128_1_0_0_1_n_n none (extractStridedSlice S2048x10 ![off, 0] h3 hs) (shapeCast S10x128 w shapeCasts_S10x128_S10x128)
    (constant S2048x128 .f32 0x00000000#32)

/-- A team's share of the output: its five channels added one after the other into zero. -/
def teamOut (h3 : FVec F S10240x10 .bf16) (w0 w1 w2 w3 w4 : Vec F S10x128 .bf16) : FVec F S2048x128 .f32 :=
  addf (addf (addf (addf (addf (broadcast S2048x128 (Scalar.ofBits .f32 0x00000000#32))
    (channelOut h3 0 slices_S10240x10_o0_0_S2048x10 w0)) (channelOut h3 2048 slices_S10240x10_o2048_0_S2048x10 w1))
    (channelOut h3 4096 slices_S10240x10_o4096_0_S2048x10 w2)) (channelOut h3 6144 slices_S10240x10_o6144_0_S2048x10 w3))
    (channelOut h3 8192 slices_S10240x10_o8192_0_S2048x10 w4)

/-- A team's third layer from a block of features' champion columns `v`, rating column `g` and the team's operands. -/
def teamLayers (g : FVec F S2048x1 .f32) (v : IVec S2048x5 32) (EP : FVec F S170x50 .bf16) (wg : FVec F S50 .f32) (b1 : Vec F S50 .f32)
    (W2T : FVec F S50x25 .bf16) (b2 : Vec F S25 .f32) (W3T : FVec F S25x10 .bf16) (b3 : Vec F S10 .f32) : FVec F S10240x10 .bf16 :=
  layer3 (layer3Pre (layer2 (layer1 (gathered v EP) (ratingShare g wg b1)) W2T b2) W3T) b3

/-- The stored block: both teams' shares, the padded bias, and the first two of the 128 columns. -/
def outBlock (tA tB : FVec F S2048x128 .f32) (bfp : Vec F S128 .f32) : FVec F S2048x2 .f32 :=
  extractStridedSlice S2048x2 ![0, 0] (addf (addf tA tB)
    (broadcastTo S2048x128 (shapeCast S1x128 (shapeCast S128 bfp shapeCasts_S128_S128) shapeCasts_S128_S1x128) broadcasts_S1x128_S2048x128)) slices_S2048x128_o0_0_S2048x2

/-! ## The body's pieces are these stages -/

theorem pay4_eq (x0 : Vec F S2048x12 .f32) : k0_pay4 x0 = clip x0 := rfl

/-- Team one's share as the body computes it, from the loaded blocks. -/
theorem teamA_eq (x0 : Vec F S2048x12 .f32) (x1 : Vec F S170x50 .bf16) (x2 x3 : Vec F S50 .f32) (x4 : Vec F S50x25 .bf16) (x5 : Vec F S25 .f32)
    (x6 : Vec F S25x10 .bf16) (x7 : Vec F S10 .f32) (w0 w1 w2 w3 w4 : Vec F S10x128 .bf16) :
    k0_pay16 x7 (k0_pay15 (k0_pay2 x0) (k0_pay5 x0) (iota .tc S2048x170 32 [1] iota_S2048x170_d1_w32) (k0_pay7 x1) (k0_pay8 x2) x3 (k0_pay9 x4) x5 (k0_pay10 x6)
        (k0_pay11 x0) (k0_pay12 x0) (k0_pay13 x0) (k0_pay14 x0)) w0 w1 w2 w3 w4
      = teamOut (teamLayers (k0_pay2 x0) (k0_pay5 x0) (shapeCast S170x50 x1 shapeCasts_S170x50_S170x50) (shapeCast S50 x2 shapeCasts_S50_S50) x3
          (shapeCast S50x25 x4 shapeCasts_S50x25_S50x25) x5 (shapeCast S25x10 x6 shapeCasts_S25x10_S25x10) x7) w0 w1 w2 w3 w4 := rfl

/-- Team two's third layer as the body computes it. -/
theorem teamB_eq (x0 : Vec F S2048x12 .f32) (x8 : Vec F S170x50 .bf16) (x9 x10 : Vec F S50 .f32) (x11 : Vec F S50x25 .bf16) (x12 : Vec F S25 .f32)
    (x13 : Vec F S25x10 .bf16) (x14 : Vec F S10 .f32) :
    k0_pay26 (k0_pay19 x11) x12 (k0_pay20 x13) x14 (k0_pay21 (k0_pay6 x0) (iota .tc S2048x170 32 [1] iota_S2048x170_d1_w32) (k0_pay17 x8))
        (k0_pay22 (k0_pay3 x0) (k0_pay18 x9) x10)
        (k0_pay23 (k0_pay3 x0) (k0_pay6 x0) (iota .tc S2048x170 32 [1] iota_S2048x170_d1_w32) (k0_pay17 x8) (k0_pay18 x9) x10)
        (k0_pay24 (k0_pay3 x0) (k0_pay6 x0) (iota .tc S2048x170 32 [1] iota_S2048x170_d1_w32) (k0_pay17 x8) (k0_pay18 x9) x10) (k0_pay25 (F := F))
      = teamLayers (k0_pay3 x0) (k0_pay6 x0) (shapeCast S170x50 x8 shapeCasts_S170x50_S170x50) (shapeCast S50 x9 shapeCasts_S50_S50) x10
          (shapeCast S50x25 x11 shapeCasts_S50x25_S50x25) x12 (shapeCast S25x10 x13 shapeCasts_S25x10_S25x10) x14 := rfl

/-- The stored block from team one's share `tA`, team two's third layer `h3` (given three times: whole, its first two
    channels' sum, its third channel's slice, as the body's cut hands them on) and the last operands' loads. -/
theorem pay1_eq (tA : FVec F S2048x128 .f32) (a b c d : _) (e : FVec F S10240x50 .f32) (f : FVec F S2048x50 .f32) (g : FVec F S2048x50 .bf16)
    (h i : FVec F S2048x50 .f32) (w5 w6 w7 w8 w9 : Vec F S10x128 .bf16) (bfp : Vec F S128 .f32) :
    k0_pay1 tA (k0_pay26 a b c d e f g h i) (k0_pay27 a b c d e f g h i w5 w6) (k0_pay28 a b c d e f g h i) w7 w8 w9 bfp
      = outBlock tA (teamOut (k0_pay26 a b c d e f g h i) w5 w6 w7 w8 w9) bfp := rfl

end Cert.KernelIdeal.Layers

end
-- ==== Proof.Spec.lean ====
/-
  The mathematics of the two programs, one output row at a time.

  A row of `features` is twelve numbers: two ratings `x 0`, `x 1` and ten champion numbers `x 2 … x 11`, five for each
  team. A champion number is turned into a table row by truncating it to an integer and clipping to `[0, 169]`
  (`clipIdx`). Each team runs its five champions through the same three-layer perceptron (51 → 50 → 25 → 10, `relu`
  after every layer), the first layer's input being the champion's 50 embedding entries followed by the team's rating;
  the ten 10-vectors are laid end to end (100 numbers) and go through one last linear map to the 2 outputs.

  `refRow` is that computation as the reference arranges it. `kerRow` is the kernel's arrangement, over the operands
  the kernel is launched with: the embedding table already multiplied into the first layer (`EP k o = ∑ d, emb k d · W1 o d`),
  the rating's column `wg o = W1 o 50` apart, the weight matrices transposed, and the last linear map applied channel by
  channel into an accumulator that starts at zero. `kerRow_eq_refRow` says the two are one number; nothing but
  regrouping of finite sums is used (associativity and commutativity of `+`), so no finiteness is needed.
-/
import Idealize.ShloMosaic.PureOps.Ideal
import Mathlib.Algebra.BigOperators.Fin

noncomputable section

namespace Cert.TeamMlp

open Idealize.ShloMosaic

/-- `max x 0`. -/
def relu (x : EReal) : EReal := max x 0

/-- The table row a champion number names: truncated toward zero to a 32-bit integer, read signed, negative numbers to 0,
    numbers past the table to its last row 169. -/
def clipIdx (x : EReal) : Fin 170 := ⟨min (Ideal.fptosi 32 x).toInt.toNat 169, by omega⟩

/-! ## The kernel's arrangement -/

/-- One champion through the kernel's perceptron: `EP i` is the champion's embedding already through the first layer's
    embedding columns, `g * wg o` the rating's share, then layers two and three over transposed weights. -/
def teamK (EP : Fin 170 → Fin 50 → EReal) (wg b1 : Fin 50 → EReal) (W2T : Fin 50 → Fin 25 → EReal) (b2 : Fin 25 → EReal)
    (W3T : Fin 25 → Fin 10 → EReal) (b3 : Fin 10 → EReal) (i : Fin 170) (g : EReal) (q : Fin 10) : EReal :=
  relu ((∑ p : Fin 25, relu ((∑ o : Fin 50, relu (EP i o + (g * wg o + b1 o)) * W2T o p) + b2 p) * W3T p q) + b3 q)

/-- A team's share of output column `n`: five channels' 10-vectors against rows `off + 10 c + j` of the last linear map,
    added one channel after the other into zero. -/
def accK (t : Fin 5 → Fin 10 → EReal) (WfT : Fin 100 → Fin 128 → EReal) (off : Nat) (hoff : off + 50 ≤ 100) (n : Fin 128) : EReal :=
  ((((0 + ∑ j : Fin 10, t 0 j * WfT ⟨off + j.val, by omega⟩ n)
      + ∑ j : Fin 10, t 1 j * WfT ⟨off + 10 + j.val, by omega⟩ n)
      + ∑ j : Fin 10, t 2 j * WfT ⟨off + 20 + j.val, by omega⟩ n)
      + ∑ j : Fin 10, t 3 j * WfT ⟨off + 30 + j.val, by omega⟩ n)
      + ∑ j : Fin 10, t 4 j * WfT ⟨off + 40 + j.val, by omega⟩ n

/-- One output row of the kernel, column `n` of its 128-wide accumulator, from a row `x` of features and the operands
    the kernel is launched with. -/
def kerRow (x : Fin 12 → EReal)
    (EPa : Fin 170 → Fin 50 → EReal) (wga b1a : Fin 50 → EReal) (W2Ta : Fin 50 → Fin 25 → EReal) (b2a : Fin 25 → EReal)
    (W3Ta : Fin 25 → Fin 10 → EReal) (b3a : Fin 10 → EReal)
    (EPb : Fin 170 → Fin 50 → EReal) (wgb b1b : Fin 50 → EReal) (W2Tb : Fin 50 → Fin 25 → EReal) (b2b : Fin 25 → EReal)
    (W3Tb : Fin 25 → Fin 10 → EReal) (b3b : Fin 10 → EReal)
    (WfT : Fin 100 → Fin 128 → EReal) (bfp : Fin 128 → EReal) (n : Fin 128) : EReal :=
  (accK (fun c => teamK EPa wga b1a W2Ta b2a W3Ta b3a (clipIdx (x ⟨2 + c.val, by omega⟩)) (x 0)) WfT 0 (by omega) n
    + accK (fun c => teamK EPb wgb b1b W2Tb b2b W3Tb b3b (clipIdx (x ⟨7 + c.val, by omega⟩)) (x 1)) WfT 50 (by omega) n)
    + bfp n

/-! ## The reference's arrangement -/

/-- The first layer's input: the champion's embedding row, then the rating. -/
def x51 (emb : Fin 170 → Fin 50 → EReal) (i : Fin 170) (g : EReal) (d : Fin 51) : EReal :=
  if h : d.val < 50 then emb i ⟨d.val, h⟩ else g

/-- One champion through the reference's perceptron. -/
def teamR (emb : Fin 170 → Fin 50 → EReal) (W1 : Fin 50 → Fin 51 → EReal) (b1 : Fin 50 → EReal) (W2 : Fin 25 → Fin 50 → EReal)
    (b2 : Fin 25 → EReal) (W3 : Fin 10 → Fin 25 → EReal) (b3 : Fin 10 → EReal) (i : Fin 170) (g : EReal) (q : Fin 10) : EReal :=
  relu ((∑ p : Fin 25, relu ((∑ o : Fin 50, relu ((∑ d : Fin 51, x51 emb i g d * W1 o d) + b1 o) * W2 p o) + b2 p) * W3 q p) + b3 q)

/-- The hundred numbers the last linear map reads: team one's five 10-vectors, then team two's. -/
def catR (x : Fin 12 → EReal) (emb : Fin 170 → Fin 50 → EReal)
    (W1a : Fin 50 → Fin 51 → EReal) (b1a : Fin 50 → EReal) (W2a : Fin 25 → Fin 50 → EReal) (b2a : Fin 25 → EReal)
    (W3a : Fin 10 → Fin 25 → EReal) (b3a : Fin 10 → EReal)
    (W1b : Fin 50 → Fin 51 → EReal) (b1b : Fin 50 → EReal) (W2b : Fin 25 → Fin 50 → EReal) (b2b : Fin 25 → EReal)
    (W3b : Fin 10 → Fin 25 → EReal) (b3b : Fin 10 → EReal) (k : Fin 100) : EReal :=
  if h : k.val < 50 then
    teamR emb W1a b1a W2a b2a W3a b3a (clipIdx (x ⟨2 + k.val / 10, by omega⟩)) (x 0) ⟨k.val % 10, Nat.mod_lt _ (by omega)⟩
  else
    teamR emb W1b b1b W2b b2b W3b b3b (clipIdx (x ⟨7 + (k.val - 50) / 10, by omega⟩)) (x 1) ⟨(k.val - 50) % 10, Nat.mod_lt _ (by omega)⟩

/-- One output row of the reference, column `n`. -/
def refRow (x : Fin 12 → EReal) (emb : Fin 170 → Fin 50 → EReal)
    (W1a : Fin 50 → Fin 51 → EReal) (b1a : Fin 50 → EReal) (W2a : Fin 25 → Fin 50 → EReal) (b2a : Fin 25 → EReal)
    (W3a : Fin 10 → Fin 25 → EReal) (b3a : Fin 10 → EReal)
    (W1b : Fin 50 → Fin 51 → EReal) (b1b : Fin 50 → EReal) (W2b : Fin 25 → Fin 50 → EReal) (b2b : Fin 25 → EReal)
    (W3b : Fin 10 → Fin 25 → EReal) (b3b : Fin 10 → EReal)
    (Wf : Fin 2 → Fin 100 → EReal) (bf : Fin 2 → EReal) (n : Fin 2) : EReal :=
  (∑ k : Fin 100, catR x emb W1a b1a W2a b2a W3a b3a W1b b1b W2b b2b W3b b3b k * Wf n k) + bf n

/-! ## The operands the kernel is launched with, from the arguments -/

/-- The embedding table through the first layer's embedding columns. -/
def embProj (emb : Fin 170 → Fin 50 → EReal) (W1 : Fin 50 → Fin 51 → EReal) (k : Fin 170) (o : Fin 50) : EReal :=
  ∑ d : Fin 50, emb k d * W1 o ⟨d.val, by omega⟩

/-- The last linear map transposed and padded with zero columns to width 128. -/
def wfPad (Wf : Fin 2 → Fin 100 → EReal) (k : Fin 100) (n : Fin 128) : EReal :=
  if h : n.val < 2 then Wf ⟨n.val, h⟩ k else 0

/-- Its bias padded with zeros to width 128. -/
def bfPad (bf : Fin 2 → EReal) (n : Fin 128) : EReal :=
  if h : n.val < 2 then bf ⟨n.val, h⟩ else 0

end Cert.TeamMlp

end
-- ==== Proof.KIndexRows.lean ====
/-
  The kernel's champion columns as table rows, and the one-hot product that fetches the projected table's rows.

  `clip` truncates and clips each of a feature row's ten champion numbers: its word is the number `clipIdx` of that
  entry. A one-hot row times the projected table is the table's row the one names, so the stacked product `gathered`
  at row `2048 c + r` is the table row of feature row `r`'s `c`-th champion.
-/
import proofs.«419752_j1864015806631_3_alg».proof.Proof.KLayers
import proofs.«419752_j1864015806631_3_alg».proof.Proof.Spec
import Idealize.ShloMosaic.Lib.ValueIdx
import Idealize.ShloMosaic.Lib.Pipeline.Value
import Idealize.ShloMosaic.PureOps.Ideal.Laws
import Idealize.ShloMosaic.Lib.WordArith

noncomputable section

namespace Cert.KernelIdeal.Layers

open Cert.KernelIdeal Cert.KernelIdeal.Gen Idealize.ShloMosaic Idealize.ShloMosaic.ValueIdx Idealize.SL.Sem Cert.TeamMlp

/-- The champion columns of the features: column `2 + s`. -/
private theorem champ_slice (x0 : Vec Ideal S2048x12 .f32) (r : Fin 2048) (s : Fin 10) :
    extractStridedSlice S2048x10 ![0, 2] x0 slices_S2048x12_o0_2_S2048x10 (ix2 r s) = x0 (ix2 r ⟨2 + s.val, by omega⟩) :=
  extractStridedSlice_apply ![0, 2] x0 slices_S2048x12_o0_2_S2048x10 (ix2 r s) (ix2 r ⟨2 + s.val, by omega⟩) (fun a => match a with
    | ⟨0, _⟩ => by show r.val = 0 + r.val; omega
    | ⟨1, _⟩ => by show 2 + s.val = 2 + s.val; rfl)

/-- Clipping a word to `[0, 169]` by signed maximum and minimum: its natural value is the signed reading cut at both ends. -/
private theorem clip_word (y : BitVec 32) :
    IntOp.minsi 169#32 (IntOp.maxsi 0#32 y) = BitVec.ofNat 32 (min y.toInt.toNat 169) := by
  apply BitVec.eq_of_toNat_eq
  have hm : (IntOp.maxsi 0#32 y).toNat = y.toInt.toNat := WordArith.toNat_maxsi_zero y
  have hlt : (IntOp.maxsi 0#32 y).toNat < 2 ^ 31 := by
    have := WordArith.two_mul_toNat_maxsi_zero_lt y
    show (Scalar.maxsi 0#32 y).toNat < 2 ^ 31
    omega
  rw [WordArith.toNat_minsi_of_lt 169#32 _ (by decide) hlt, hm, BitVec.toNat_ofNat, BitVec.toNat_ofNat]
  omega

/-- The clipped champion number at feature row `r`, champion `s`, as a 32-bit word. -/
theorem clip_apply (x0 : Vec Ideal S2048x12 .f32) (r : Fin 2048) (s : Fin 10) :
    clip (F := Ideal) x0 (ix2 r s) = BitVec.ofNat 32 (clipIdx (x0 (ix2 r ⟨2 + s.val, by omega⟩))).val := by
  show IntOp.minsi 169#32 (IntOp.maxsi 0#32 (Ideal.fptosi 32
    (extractStridedSlice S2048x10 ![0, 2] x0 slices_S2048x12_o0_2_S2048x10 (ix2 r s)))) = _
  rw [champ_slice, clip_word]
  rfl

/-- Team one's champion columns. -/
theorem pay5_apply (x0 : Vec Ideal S2048x12 .f32) (r : Fin 2048) (c : Fin 5) :
    k0_pay5 (F := Ideal) x0 (ix2 r c) = BitVec.ofNat 32 (clipIdx (x0 (ix2 r ⟨2 + c.val, by omega⟩))).val := by
  have e : k0_pay5 (F := Ideal) x0 (ix2 r c) = clip (F := Ideal) x0 (ix2 r ⟨c.val, by omega⟩) := by
    unfold k0_pay5
    rw [pay4_eq]
    generalize clip (F := Ideal) x0 = y
    exact extractStridedSlice_apply ![0, 0] y slices_S2048x10_o0_0_S2048x5 (ix2 r c) (ix2 r ⟨c.val, by omega⟩) (fun a => match a with
      | ⟨0, _⟩ => by show r.val = 0 + r.val; omega
      | ⟨1, _⟩ => by show c.val = 0 + c.val; omega)
  rw [e, clip_apply]

/-- Team two's champion columns. -/
theorem pay6_apply (x0 : Vec Ideal S2048x12 .f32) (r : Fin 2048) (c : Fin 5) :
    k0_pay6 (F := Ideal) x0 (ix2 r c) = BitVec.ofNat 32 (clipIdx (x0 (ix2 r ⟨7 + c.val, by omega⟩))).val := by
  have e : k0_pay6 (F := Ideal) x0 (ix2 r c) = clip (F := Ideal) x0 (ix2 r ⟨5 + c.val, by omega⟩) := by
    unfold k0_pay6
    rw [pay4_eq]
    generalize clip (F := Ideal) x0 = y
    exact extractStridedSlice_apply ![0, 5] y slices_S2048x10_o0_5_S2048x5 (ix2 r c) (ix2 r ⟨5 + c.val, by omega⟩) (fun a => match a with
      | ⟨0, _⟩ => by show r.val = 0 + r.val; omega
      | ⟨1, _⟩ => by show 5 + c.val = 5 + c.val; rfl)
  rw [e, clip_apply]
  have h : (⟨2 + (⟨5 + c.val, by omega⟩ : Fin 10).val, by show 2 + (5 + c.val) < 12; omega⟩ : Fin 12) = ⟨7 + c.val, by omega⟩ :=
    Fin.ext (by show 2 + (5 + c.val) = 7 + c.val; omega)
  rw [h]

/-- The rating columns. -/
theorem pay2_apply (x0 : Vec Ideal S2048x12 .f32) (r : Fin 2048) : k0_pay2 (F := Ideal) x0 (ix2 r 0) = x0 (ix2 r 0) := by
  unfold k0_pay2
  exact extractStridedSlice_apply ![0, 0] x0 slices_S2048x12_o0_0_S2048x1 (ix2 r 0) (ix2 r 0) (fun a => match a with
    | ⟨0, _⟩ => by show r.val = 0 + r.val; omega
    | ⟨1, _⟩ => by show 0 = 0 + 0; rfl)

theorem pay3_apply (x0 : Vec Ideal S2048x12 .f32) (r : Fin 2048) : k0_pay3 (F := Ideal) x0 (ix2 r 0) = x0 (ix2 r 1) := by
  unfold k0_pay3
  exact extractStridedSlice_apply ![0, 1] x0 slices_S2048x12_o0_1_S2048x1 (ix2 r 0) (ix2 r 1) (fun a => match a with
    | ⟨0, _⟩ => by show r.val = 0 + r.val; omega
    | ⟨1, _⟩ => by show 1 = 1 + 0; rfl)

/-! ## One-hot rows and the product that fetches a table row -/

/-- Two table-row numbers compared as 32-bit words, the bit widened and read as a float: `1` where they agree, `0` elsewhere. -/
private theorem hot_word (a b : Fin 170) :
    ((((IntOp.cmpi .eq (BitVec.ofNat 32 a.val) (BitVec.ofNat 32 b.val)).setWidth 32).toInt : ℝ) : EReal) = if a = b then 1 else 0 := by
  have hne : a ≠ b → BitVec.ofNat 32 a.val ≠ BitVec.ofNat 32 b.val := by
    intro h e
    have e' := congrArg BitVec.toNat e
    rw [BitVec.toNat_ofNat, BitVec.toNat_ofNat, Nat.mod_eq_of_lt (by have := a.isLt; omega), Nat.mod_eq_of_lt (by have := b.isLt; omega)] at e'
    exact h (Fin.ext e')
  show (((((BitVec.ofBool (BitVec.ofNat 32 a.val == BitVec.ofNat 32 b.val)).setWidth 32).toInt : ℝ) : EReal)) = _
  by_cases h : a = b
  · subst h
    rw [if_pos rfl, beq_self_eq_true]
    have e1 : ((BitVec.ofBool true).setWidth 32).toInt = 1 := by decide
    rw [e1]; simp
  · rw [if_neg h, beq_eq_false_iff_ne.mpr (hne h)]
    have e0 : ((BitVec.ofBool false).setWidth 32).toInt = 0 := by decide
    rw [e0]; simp

/-- Channel `c`'s one-hot row of feature row `r`: its one is at the column the word `v (r, c)` names. -/
private theorem hot_apply (v : IVec S2048x5 32) (i : Fin 2048 → Fin 5 → Fin 170) (hv : ∀ r c, v (ix2 r c) = BitVec.ofNat 32 (i r c).val)
    (c : Nat) (hc : c < 5) (hs : S2048x5.Slices ![0, c] S2048x1) (r : Fin 2048) (k : Fin 170) :
    hot (F := Ideal) v c hs (ix2 r k) = if i r ⟨c, hc⟩ = k then 1 else 0 := by
  have e1 : broadcastTo S2048x170 (extractStridedSlice S2048x1 ![0, c] v hs) broadcasts_S2048x1_S2048x170 (ix2 r k)
      = extractStridedSlice S2048x1 ![0, c] v hs (ix2 r 0) := by
    generalize extractStridedSlice S2048x1 ![0, c] v hs = y
    exact broadcastTo_apply y broadcasts_S2048x1_S2048x170 (ix2 r k) (ix2 r 0) (fun a => match a with
      | ⟨0, _⟩ => by show r.val = if (2048 : Nat) = 1 then 0 else r.val; rw [if_neg (by decide)]
      | ⟨1, _⟩ => by show 0 = if (1 : Nat) = 1 then 0 else k.val; rw [if_pos rfl])
  have e2 : extractStridedSlice S2048x1 ![0, c] v hs (ix2 r 0) = v (ix2 r ⟨c, hc⟩) :=
    extractStridedSlice_apply ![0, c] v hs (ix2 r 0) (ix2 r ⟨c, hc⟩) (fun a => match a with
      | ⟨0, _⟩ => by show r.val = 0 + r.val; omega
      | ⟨1, _⟩ => by show c = c + 0; rfl)
  have e3 : iota .tc S2048x170 32 [1] iota_S2048x170_d1_w32 (ix2 r k) = BitVec.ofNat 32 k.val :=
    iota_single_apply .tc S2048x170 32 1 iota_S2048x170_d1_w32 (ix2 r k)
  show ((((IntOp.cmpi .eq (broadcastTo S2048x170 (extractStridedSlice S2048x1 ![0, c] v hs) broadcasts_S2048x1_S2048x170 (ix2 r k))
      (iota .tc S2048x170 32 [1] iota_S2048x170_d1_w32 (ix2 r k))).setWidth 32).toInt : ℝ) : EReal) = _
  rw [e1, e2, e3, hv]
  exact hot_word _ _

/-- Five [2048, 170] pieces stacked along the rows: row `2048 c + r` is piece `c`'s row `r`. -/
private theorem stack_apply {α : Type} (p0 p1 p2 p3 p4 : S2048x170.Idx → α) (c : Fin 5) (r : Fin 2048) (k : Fin 170) :
    concatenate S10240x170 0 [⟨S2048x170, p0⟩, ⟨S2048x170, p1⟩, ⟨S2048x170, p2⟩, ⟨S2048x170, p3⟩, ⟨S2048x170, p4⟩] concatenates_S2048x170_S2048x170_S2048x170_S2048x170_S2048x170_S10240x170_d0 (ix2 ⟨2048 * c.val + r.val, by omega⟩ k)
      = ![p0, p1, p2, p3, p4] c (ix2 r k) := by
  have hi : ∀ (R : Fin 10240) (b : Fin S2048x170.rank), b.cast (rfl : S2048x170.rank = S10240x170.rank) ≠ (0 : Fin S10240x170.rank) →
      ((ix2 r k : S2048x170.Idx) b).val = ((ix2 R k : S10240x170.Idx) (b.cast rfl)).val := fun R b hb => match b, hb with
    | ⟨0, _⟩, hb => absurd rfl hb
    | ⟨1, _⟩, _ => rfl
  match c with
  | ⟨0, _⟩ => exact concatenate_apply_piece 0 [⟨S2048x170, p0⟩, ⟨S2048x170, p1⟩, ⟨S2048x170, p2⟩, ⟨S2048x170, p3⟩, ⟨S2048x170, p4⟩] concatenates_S2048x170_S2048x170_S2048x170_S2048x170_S2048x170_S10240x170_d0 (ix2 ⟨2048 * 0 + r.val, by omega⟩ k) 0 (by show (0 : Nat) < 5; decide) S2048x170 p0 rfl rfl (2048 * 0) rfl (ix2 r k) (hi _) rfl
  | ⟨1, _⟩ => exact concatenate_apply_piece 0 [⟨S2048x170, p0⟩, ⟨S2048x170, p1⟩, ⟨S2048x170, p2⟩, ⟨S2048x170, p3⟩, ⟨S2048x170, p4⟩] concatenates_S2048x170_S2048x170_S2048x170_S2048x170_S2048x170_S10240x170_d0 (ix2 ⟨2048 * 1 + r.val, by omega⟩ k) 1 (by show (1 : Nat) < 5; decide) S2048x170 p1 rfl rfl (2048 * 1) rfl (ix2 r k) (hi _) rfl
  | ⟨2, _⟩ => exact concatenate_apply_piece 0 [⟨S2048x170, p0⟩, ⟨S2048x170, p1⟩, ⟨S2048x170, p2⟩, ⟨S2048x170, p3⟩, ⟨S2048x170, p4⟩] concatenates_S2048x170_S2048x170_S2048x170_S2048x170_S2048x170_S10240x170_d0 (ix2 ⟨2048 * 2 + r.val, by omega⟩ k) 2 (by show (2 : Nat) < 5; decide) S2048x170 p2 rfl rfl (2048 * 2) rfl (ix2 r k) (hi _) rfl
  | ⟨3, _⟩ => exact concatenate_apply_piece 0 [⟨S2048x170, p0⟩, ⟨S2048x170, p1⟩, ⟨S2048x170, p2⟩, ⟨S2048x170, p3⟩, ⟨S2048x170, p4⟩] concatenates_S2048x170_S2048x170_S2048x170_S2048x170_S2048x170_S10240x170_d0 (ix2 ⟨2048 * 3 + r.val, by omega⟩ k) 3 (by show (3 : Nat) < 5; decide) S2048x170 p3 rfl rfl (2048 * 3) rfl (ix2 r k) (hi _) rfl
  | ⟨4, _⟩ => exact concatenate_apply_piece 0 [⟨S2048x170, p0⟩, ⟨S2048x170, p1⟩, ⟨S2048x170, p2⟩, ⟨S2048x170, p3⟩, ⟨S2048x170, p4⟩] concatenates_S2048x170_S2048x170_S2048x170_S2048x170_S2048x170_S10240x170_d0 (ix2 ⟨2048 * 4 + r.val, by omega⟩ k) 4 (by show (4 : Nat) < 5; decide) S2048x170 p4 rfl rfl (2048 * 4) rfl (ix2 r k) (hi _) rfl

/-- The product's left index on the row axis is the output's row. -/
private theorem lhs_gathered_0 (j : S10240x50.Idx) (q : dot_S10240x170_S170x50_S10240x50_1_0_0_1_n_n.contr.Idx) :
    (dot_S10240x170_S170x50_S10240x50_1_0_0_1_n_n.lhsIdx j q 0).val = (j 0).val := by
  unfold DotDims.lhsIdx
  rw [dif_neg (show ¬(0 : Fin S10240x170.rank) ∈ dot_S10240x170_S170x50_S10240x50_1_0_0_1_n_n.lhsBatch by decide), dif_pos (show (0 : Fin S10240x170.rank) ∈ dot_S10240x170_S170x50_S10240x50_1_0_0_1_n_n.lhsNonContracting by decide)]
  rfl
/-- On the column axis it is the contraction's position. -/
private theorem lhs_gathered_1 (j : S10240x50.Idx) (q : dot_S10240x170_S170x50_S10240x50_1_0_0_1_n_n.contr.Idx) :
    (dot_S10240x170_S170x50_S10240x50_1_0_0_1_n_n.lhsIdx j q 1).val = (q ⟨0, by decide⟩).val :=
  dot_S10240x170_S170x50_S10240x50_1_0_0_1_n_n.lhsIdx_val_of_single rfl j q
/-- The right index on the row axis is the contraction's position. -/
private theorem rhs_gathered_0 (j : S10240x50.Idx) (q : dot_S10240x170_S170x50_S10240x50_1_0_0_1_n_n.contr.Idx) :
    (dot_S10240x170_S170x50_S10240x50_1_0_0_1_n_n.rhsIdx j q 0).val = (q ⟨0, by decide⟩).val :=
  dot_S10240x170_S170x50_S10240x50_1_0_0_1_n_n.rhsIdx_val_of_single rfl j q
/-- On the column axis it is the output's column. -/
private theorem rhs_gathered_1 (j : S10240x50.Idx) (q : dot_S10240x170_S170x50_S10240x50_1_0_0_1_n_n.contr.Idx) :
    (dot_S10240x170_S170x50_S10240x50_1_0_0_1_n_n.rhsIdx j q 1).val = (j 1).val := by
  unfold DotDims.rhsIdx
  rw [dif_neg (show ¬(1 : Fin S170x50.rank) ∈ dot_S10240x170_S170x50_S10240x50_1_0_0_1_n_n.rhsBatch by decide), dif_pos (show (1 : Fin S170x50.rank) ∈ dot_S10240x170_S170x50_S10240x50_1_0_0_1_n_n.rhsNonContracting by decide)]
  rfl

/-- A row that is `1` at column `t` and `0` elsewhere, times the table, is the table's row `t`. -/
private theorem onehot_matmul (L : FVec Ideal S10240x170 .bf16) (EP : FVec Ideal S170x50 .bf16) (R : Fin 10240) (o : Fin 50) (t : Fin 170)
    (hL : ∀ k : Fin 170, L (ix2 R k) = if t = k then 1 else 0) :
    matmul dot_S10240x170_S170x50_S10240x50_1_0_0_1_n_n none L EP (constant S10240x50 .f32 0x00000000#32) (ix2 R o) = EP (ix2 t o) := by
  refine (Ideal.matmul_constant_zero_apply dot_S10240x170_S170x50_S10240x50_1_0_0_1_n_n none L EP (ix2 R o)).trans ?_
  rw [← Equiv.sum_comp (contrEquiv1 dot_S10240x170_S170x50_S10240x50_1_0_0_1_n_n 170 rfl rfl).symm]
  have key : ∀ k : Fin 170,
      L (dot_S10240x170_S170x50_S10240x50_1_0_0_1_n_n.lhsIdx (ix2 R o) ((contrEquiv1 dot_S10240x170_S170x50_S10240x50_1_0_0_1_n_n 170 rfl rfl).symm k))
        * EP (dot_S10240x170_S170x50_S10240x50_1_0_0_1_n_n.rhsIdx (ix2 R o) ((contrEquiv1 dot_S10240x170_S170x50_S10240x50_1_0_0_1_n_n 170 rfl rfl).symm k))
      = if t = k then EP (ix2 k o) else 0 := by
    intro k
    have hk := contrEquiv1_symm_val dot_S10240x170_S170x50_S10240x50_1_0_0_1_n_n 170 rfl rfl k
    have el : dot_S10240x170_S170x50_S10240x50_1_0_0_1_n_n.lhsIdx (ix2 R o) ((contrEquiv1 dot_S10240x170_S170x50_S10240x50_1_0_0_1_n_n 170 rfl rfl).symm k) = ix2 R k := funext fun a => Fin.ext (by
      match a with
      | ⟨0, _⟩ => exact lhs_gathered_0 _ _
      | ⟨1, _⟩ => exact (lhs_gathered_1 _ _).trans hk)
    have er : dot_S10240x170_S170x50_S10240x50_1_0_0_1_n_n.rhsIdx (ix2 R o) ((contrEquiv1 dot_S10240x170_S170x50_S10240x50_1_0_0_1_n_n 170 rfl rfl).symm k) = ix2 k o := funext fun a => Fin.ext (by
      match a with
      | ⟨0, _⟩ => exact (rhs_gathered_0 _ _).trans hk
      | ⟨1, _⟩ => exact rhs_gathered_1 _ _)
    rw [el, er, hL k]
    by_cases h : t = k
    · rw [if_pos h, if_pos h, one_mul]
    · rw [if_neg h, if_neg h, zero_mul]
  rw [Finset.sum_congr rfl (fun k _ => key k), Finset.sum_ite_eq, if_pos (Finset.mem_univ t)]

/-- The five channels' one-hot rows, channel `c`'s at a feature row. -/
private theorem hots_apply (v : IVec S2048x5 32) (i : Fin 2048 → Fin 5 → Fin 170) (hv : ∀ r c, v (ix2 r c) = BitVec.ofNat 32 (i r c).val)
    (c : Fin 5) (r : Fin 2048) (k : Fin 170) :
    ![hot (F := Ideal) v 0 slices_S2048x5_o0_0_S2048x1, hot v 1 slices_S2048x5_o0_1_S2048x1, hot v 2 slices_S2048x5_o0_2_S2048x1,
      hot v 3 slices_S2048x5_o0_3_S2048x1, hot v 4 slices_S2048x5_o0_4_S2048x1] c (ix2 r k) = if i r c = k then 1 else 0 := by
  match c with
  | ⟨0, _⟩ => exact hot_apply v i hv 0 (by decide) slices_S2048x5_o0_0_S2048x1 r k
  | ⟨1, _⟩ => exact hot_apply v i hv 1 (by decide) slices_S2048x5_o0_1_S2048x1 r k
  | ⟨2, _⟩ => exact hot_apply v i hv 2 (by decide) slices_S2048x5_o0_2_S2048x1 r k
  | ⟨3, _⟩ => exact hot_apply v i hv 3 (by decide) slices_S2048x5_o0_3_S2048x1 r k
  | ⟨4, _⟩ => exact hot_apply v i hv 4 (by decide) slices_S2048x5_o0_4_S2048x1 r k

/-- The stacked one-hot product at row `2048 c + r`: the table's row `i r c`, where `i` names the rows the words `v` hold. -/
theorem gathered_apply (v : IVec S2048x5 32) (EP : FVec Ideal S170x50 .bf16) (i : Fin 2048 → Fin 5 → Fin 170)
    (hv : ∀ r c, v (ix2 r c) = BitVec.ofNat 32 (i r c).val) (c : Fin 5) (r : Fin 2048) (o : Fin 50) :
    gathered (F := Ideal) v EP (ix2 ⟨2048 * c.val + r.val, by omega⟩ o) = EP (ix2 (i r c) o) := by
  unfold gathered
  exact onehot_matmul _ EP ⟨2048 * c.val + r.val, by omega⟩ o (i r c) (fun k => (stack_apply _ _ _ _ _ c r k).trans (hots_apply v i hv c r k))

end Cert.KernelIdeal.Layers

end
-- ==== Proof.KMlp.lean ====
/-
  A team's three layers on the stacked rows, read at row `2048 c + r`: the perceptron `teamK` of the row's `c`-th
  champion and the row's rating.
-/
import proofs.«419752_j1864015806631_3_alg».proof.Proof.KIndexRows
import Idealize.ShloMosaic.Lib.ValueLayout
import Idealize.ShloMosaic.PureOps.Ideal.Laws

set_option maxRecDepth 65536

noncomputable section

namespace Cert.KernelIdeal.Layers

open Cert.KernelIdeal Cert.KernelIdeal.Gen Idealize.ShloMosaic Idealize.ShloMosaic.ValueIdx Idealize.SL.Sem Cert.TeamMlp

/-! ## The rating's share -/

/-- A [2048, 1] column broadcast over 50 columns reads, at `(r, o)`, the column at `r`. -/
private theorem bcastCol_apply {α : Type} (x : S2048x1.Idx → α) (r : Fin 2048) (o : Fin 50) :
    broadcastTo S2048x50 x broadcasts_S2048x1_S2048x50 (ix2 r o) = x (ix2 r 0) := by
  refine broadcastTo_apply x _ (ix2 r o) (ix2 r 0) fun ax => ?_
  match ax with
  | ⟨0, _⟩ => show r.val = if (2048 : Nat) = 1 then 0 else r.val; rw [if_neg (by decide)]
  | ⟨1, _⟩ => show 0 = if (1 : Nat) = 1 then 0 else o.val; rw [if_pos rfl]

/-- `g · wg + b1` at row `r`, column `o`. -/
private theorem ratingShare_apply (g : FVec Ideal S2048x1 .f32) (wg : FVec Ideal S50 .f32) (b1 : Vec Ideal S50 .f32)
    (r : Fin 2048) (o : Fin 50) :
    ratingShare (F := Ideal) g wg b1 (ix2 r o) = g (ix2 r 0) * wg (ix1 o) + b1 (ix1 o) := by
  unfold ratingShare
  rw [addf_apply, mulf_apply, bcastCol_apply, broadcastTo_1b_ab_apply, broadcastTo_1b_ab_apply, shapeCast_a_1a_apply,
    shapeCast_a_1a_apply]

/-! ## The first layer -/

/-- One channel's slice at `(r, o)`: the stacked row `off + r` plus the rating's share, `relu`. -/
private theorem layer1Slice_apply (pre : FVec Ideal S10240x50 .f32) (ga : FVec Ideal S2048x50 .f32) (off : Nat)
    (hs : S10240x50.Slices ![off, 0] S2048x50) (r : Fin 2048) (o : Fin 50) (R : Fin 10240) (hR : R.val = off + r.val) :
    layer1Slice (F := Ideal) pre ga off hs (ix2 r o) = relu (pre (ix2 R o) + ga (ix2 r o)) := by
  unfold layer1Slice
  rw [truncf_apply, maximumf_apply, addf_apply, broadcast_apply, slice2_axis0_apply off pre hs r o R hR]
  show max _ (Ideal.ofBits .f32 0x00000000#32) = _
  rw [Ideal.ofBits_zero_f32]
  rfl

/-- The five slices stacked: row `2048 c + r` is channel `c`'s slice at row `r`. -/
private theorem layer1_apply (pre : FVec Ideal S10240x50 .f32) (ga : FVec Ideal S2048x50 .f32) (c : Fin 5) (r : Fin 2048) (o : Fin 50) :
    layer1 (F := Ideal) pre ga (ix2 ⟨2048 * c.val + r.val, by omega⟩ o)
      = relu (pre (ix2 ⟨2048 * c.val + r.val, by omega⟩ o) + ga (ix2 r o)) := by
  unfold layer1
  match c with
  | ⟨0, _⟩ =>
    refine (concatenate_apply_piece (0 : Fin S10240x50.rank) _ _ _ 0 (by show (0 : Nat) < 5; omega) S2048x50 _ rfl rfl 0 rfl (ix2 r o)
      (fun b hb => match b with | ⟨0, _⟩ => absurd rfl hb | ⟨1, _⟩ => rfl) (by show 0 + r.val = 2048 * 0 + r.val; omega)).trans ?_
    exact layer1Slice_apply pre ga 0 _ r o _ (by show 2048 * 0 + r.val = 0 + r.val; omega)
  | ⟨1, _⟩ =>
    refine (concatenate_apply_piece (0 : Fin S10240x50.rank) _ _ _ 1 (by show (1 : Nat) < 5; omega) S2048x50 _ rfl rfl 2048 rfl (ix2 r o)
      (fun b hb => match b with | ⟨0, _⟩ => absurd rfl hb | ⟨1, _⟩ => rfl) (by show 2048 + r.val = 2048 * 1 + r.val; omega)).trans ?_
    exact layer1Slice_apply pre ga 2048 _ r o _ (by show 2048 * 1 + r.val = 2048 + r.val; omega)
  | ⟨2, _⟩ =>
    refine (concatenate_apply_piece (0 : Fin S10240x50.rank) _ _ _ 2 (by show (2 : Nat) < 5; omega) S2048x50 _ rfl rfl 4096 rfl (ix2 r o)
      (fun b hb => match b with | ⟨0, _⟩ => absurd rfl hb | ⟨1, _⟩ => rfl) (by show 4096 + r.val = 2048 * 2 + r.val; omega)).trans ?_
    exact layer1Slice_apply pre ga 4096 _ r o _ (by show 2048 * 2 + r.val = 4096 + r.val; omega)
  | ⟨3, _⟩ =>
    refine (concatenate_apply_piece (0 : Fin S10240x50.rank) _ _ _ 3 (by show (3 : Nat) < 5; omega) S2048x50 _ rfl rfl 6144 rfl (ix2 r o)
      (fun b hb => match b with | ⟨0, _⟩ => absurd rfl hb | ⟨1, _⟩ => rfl) (by show 6144 + r.val = 2048 * 3 + r.val; omega)).trans ?_
    exact layer1Slice_apply pre ga 6144 _ r o _ (by show 2048 * 3 + r.val = 6144 + r.val; omega)
  | ⟨4, _⟩ =>
    refine (concatenate_apply_piece (0 : Fin S10240x50.rank) _ _ _ 4 (by show (4 : Nat) < 5; omega) S2048x50 _ rfl rfl 8192 rfl (ix2 r o)
      (fun b hb => match b with | ⟨0, _⟩ => absurd rfl hb | ⟨1, _⟩ => rfl) (by show 8192 + r.val = 2048 * 4 + r.val; omega)).trans ?_
    exact layer1Slice_apply pre ga 8192 _ r o _ (by show 2048 * 4 + r.val = 8192 + r.val; omega)

/-! ## The second and third layers -/

private theorem lhs2_0 (i : S10240x25.Idx) (q : dot_S10240x50_S50x25_S10240x25_1_0_0_1_n_n.contr.Idx) :
    (dot_S10240x50_S50x25_S10240x25_1_0_0_1_n_n.lhsIdx i q 0).val = (i 0).val := by
  unfold DotDims.lhsIdx
  rw [dif_neg (show ¬(0 : Fin S10240x50.rank) ∈ dot_S10240x50_S50x25_S10240x25_1_0_0_1_n_n.lhsBatch by decide), dif_pos (show (0 : Fin S10240x50.rank) ∈ dot_S10240x50_S50x25_S10240x25_1_0_0_1_n_n.lhsNonContracting by decide)]
  rfl
private theorem lhs2_1 (i : S10240x25.Idx) (q : dot_S10240x50_S50x25_S10240x25_1_0_0_1_n_n.contr.Idx) :
    (dot_S10240x50_S50x25_S10240x25_1_0_0_1_n_n.lhsIdx i q 1).val = (q ⟨0, by decide⟩).val :=
  dot_S10240x50_S50x25_S10240x25_1_0_0_1_n_n.lhsIdx_val_of_single rfl i q
private theorem rhs2_0 (i : S10240x25.Idx) (q : dot_S10240x50_S50x25_S10240x25_1_0_0_1_n_n.contr.Idx) :
    (dot_S10240x50_S50x25_S10240x25_1_0_0_1_n_n.rhsIdx i q 0).val = (q ⟨0, by decide⟩).val :=
  dot_S10240x50_S50x25_S10240x25_1_0_0_1_n_n.rhsIdx_val_of_single rfl i q
private theorem rhs2_1 (i : S10240x25.Idx) (q : dot_S10240x50_S50x25_S10240x25_1_0_0_1_n_n.contr.Idx) :
    (dot_S10240x50_S50x25_S10240x25_1_0_0_1_n_n.rhsIdx i q 1).val = (i 1).val := by
  unfold DotDims.rhsIdx
  rw [dif_neg (show ¬(1 : Fin S50x25.rank) ∈ dot_S10240x50_S50x25_S10240x25_1_0_0_1_n_n.rhsBatch by decide), dif_pos (show (1 : Fin S50x25.rank) ∈ dot_S10240x50_S50x25_S10240x25_1_0_0_1_n_n.rhsNonContracting by decide)]
  rfl

/-- The product into a zero accumulator at `(R, p)`: row `R` of the left operand against column `p` of the right. -/
private theorem matmul2_apply (h : FVec Ideal S10240x50 .bf16) (W : FVec Ideal S50x25 .bf16) (R : Fin 10240) (p : Fin 25) :
    matmul dot_S10240x50_S50x25_S10240x25_1_0_0_1_n_n none h W (constant S10240x25 .f32 0x00000000#32) (ix2 R p)
      = ∑ o : Fin 50, h (ix2 R o) * W (ix2 o p) := by
  refine (Ideal.matmul_constant_zero_apply dot_S10240x50_S50x25_S10240x25_1_0_0_1_n_n none h W (ix2 R p)).trans ?_
  rw [← Equiv.sum_comp (contrEquiv1 dot_S10240x50_S50x25_S10240x25_1_0_0_1_n_n 50 rfl rfl).symm]
  refine Finset.sum_congr rfl fun k _ => ?_
  have hk := contrEquiv1_symm_val dot_S10240x50_S50x25_S10240x25_1_0_0_1_n_n 50 rfl rfl k
  have el : dot_S10240x50_S50x25_S10240x25_1_0_0_1_n_n.lhsIdx (ix2 R p) ((contrEquiv1 dot_S10240x50_S50x25_S10240x25_1_0_0_1_n_n 50 rfl rfl).symm k) = ix2 R k := funext fun a => Fin.ext (by
    match a with
    | ⟨0, _⟩ => exact lhs2_0 _ _
    | ⟨1, _⟩ => exact (lhs2_1 _ _).trans hk)
  have er : dot_S10240x50_S50x25_S10240x25_1_0_0_1_n_n.rhsIdx (ix2 R p) ((contrEquiv1 dot_S10240x50_S50x25_S10240x25_1_0_0_1_n_n 50 rfl rfl).symm k) = ix2 k p := funext fun a => Fin.ext (by
    match a with
    | ⟨0, _⟩ => exact (rhs2_0 _ _).trans hk
    | ⟨1, _⟩ => exact rhs2_1 _ _)
  rw [el, er]

private theorem lhs3_0 (i : S10240x10.Idx) (q : dot_S10240x25_S25x10_S10240x10_1_0_0_1_n_n.contr.Idx) :
    (dot_S10240x25_S25x10_S10240x10_1_0_0_1_n_n.lhsIdx i q 0).val = (i 0).val := by
  unfold DotDims.lhsIdx
  rw [dif_neg (show ¬(0 : Fin S10240x25.rank) ∈ dot_S10240x25_S25x10_S10240x10_1_0_0_1_n_n.lhsBatch by decide), dif_pos (show (0 : Fin S10240x25.rank) ∈ dot_S10240x25_S25x10_S10240x10_1_0_0_1_n_n.lhsNonContracting by decide)]
  rfl
private theorem lhs3_1 (i : S10240x10.Idx) (q : dot_S10240x25_S25x10_S10240x10_1_0_0_1_n_n.contr.Idx) :
    (dot_S10240x25_S25x10_S10240x10_1_0_0_1_n_n.lhsIdx i q 1).val = (q ⟨0, by decide⟩).val :=
  dot_S10240x25_S25x10_S10240x10_1_0_0_1_n_n.lhsIdx_val_of_single rfl i q
private theorem rhs3_0 (i : S10240x10.Idx) (q : dot_S10240x25_S25x10_S10240x10_1_0_0_1_n_n.contr.Idx) :
    (dot_S10240x25_S25x10_S10240x10_1_0_0_1_n_n.rhsIdx i q 0).val = (q ⟨0, by decide⟩).val :=
  dot_S10240x25_S25x10_S10240x10_1_0_0_1_n_n.rhsIdx_val_of_single rfl i q
private theorem rhs3_1 (i : S10240x10.Idx) (q : dot_S10240x25_S25x10_S10240x10_1_0_0_1_n_n.contr.Idx) :
    (dot_S10240x25_S25x10_S10240x10_1_0_0_1_n_n.rhsIdx i q 1).val = (i 1).val := by
  unfold DotDims.rhsIdx
  rw [dif_neg (show ¬(1 : Fin S25x10.rank) ∈ dot_S10240x25_S25x10_S10240x10_1_0_0_1_n_n.rhsBatch by decide), dif_pos (show (1 : Fin S25x10.rank) ∈ dot_S10240x25_S25x10_S10240x10_1_0_0_1_n_n.rhsNonContracting by decide)]
  rfl

/-- The product into a zero accumulator at `(R, p)`: row `R` of the left operand against column `p` of the right. -/
private theorem matmul3_apply (h : FVec Ideal S10240x25 .bf16) (W : FVec Ideal S25x10 .bf16) (R : Fin 10240) (p : Fin 10) :
    matmul dot_S10240x25_S25x10_S10240x10_1_0_0_1_n_n none h W (constant S10240x10 .f32 0x00000000#32) (ix2 R p)
      = ∑ o : Fin 25, h (ix2 R o) * W (ix2 o p) := by
  refine (Ideal.matmul_constant_zero_apply dot_S10240x25_S25x10_S10240x10_1_0_0_1_n_n none h W (ix2 R p)).trans ?_
  rw [← Equiv.sum_comp (contrEquiv1 dot_S10240x25_S25x10_S10240x10_1_0_0_1_n_n 25 rfl rfl).symm]
  refine Finset.sum_congr rfl fun k _ => ?_
  have hk := contrEquiv1_symm_val dot_S10240x25_S25x10_S10240x10_1_0_0_1_n_n 25 rfl rfl k
  have el : dot_S10240x25_S25x10_S10240x10_1_0_0_1_n_n.lhsIdx (ix2 R p) ((contrEquiv1 dot_S10240x25_S25x10_S10240x10_1_0_0_1_n_n 25 rfl rfl).symm k) = ix2 R k := funext fun a => Fin.ext (by
    match a with
    | ⟨0, _⟩ => exact lhs3_0 _ _
    | ⟨1, _⟩ => exact (lhs3_1 _ _).trans hk)
  have er : dot_S10240x25_S25x10_S10240x10_1_0_0_1_n_n.rhsIdx (ix2 R p) ((contrEquiv1 dot_S10240x25_S25x10_S10240x10_1_0_0_1_n_n 25 rfl rfl).symm k) = ix2 k p := funext fun a => Fin.ext (by
    match a with
    | ⟨0, _⟩ => exact (rhs3_0 _ _).trans hk
    | ⟨1, _⟩ => exact rhs3_1 _ _)
  rw [el, er]

/-- `relu (h · W2ᵀ + b2)` at stacked row `R`, column `p`. -/
private theorem layer2_apply (h : FVec Ideal S10240x50 .bf16) (W2T : FVec Ideal S50x25 .bf16) (b2 : Vec Ideal S25 .f32) (R : Fin 10240) (p : Fin 25) :
    layer2 (F := Ideal) h W2T b2 (ix2 R p) = relu ((∑ o : Fin 50, h (ix2 R o) * W2T (ix2 o p)) + b2 (ix1 p)) := by
  unfold layer2
  rw [truncf_apply, maximumf_apply, addf_apply, broadcast_apply, matmul2_apply, broadcastTo_1b_ab_apply, shapeCast_a_1a_apply]
  show max _ (Ideal.ofBits .f32 0x00000000#32) = _
  rw [Ideal.ofBits_zero_f32]
  rfl

/-- The third layer's product at stacked row `R`, column `q`. -/
private theorem layer3Pre_apply (h : FVec Ideal S10240x25 .bf16) (W3T : FVec Ideal S25x10 .bf16) (R : Fin 10240) (q : Fin 10) :
    layer3Pre (F := Ideal) h W3T (ix2 R q) = ∑ p : Fin 25, h (ix2 R p) * W3T (ix2 p q) := by
  unfold layer3Pre
  exact matmul3_apply h W3T R q

/-- Bias and `relu` at stacked row `R`, column `q`. -/
private theorem layer3_apply (pre : FVec Ideal S10240x10 .f32) (b3 : Vec Ideal S10 .f32) (R : Fin 10240) (q : Fin 10) :
    layer3 (F := Ideal) pre b3 (ix2 R q) = relu (pre (ix2 R q) + b3 (ix1 q)) := by
  unfold layer3
  rw [truncf_apply, maximumf_apply, addf_apply, broadcast_apply, broadcastTo_1b_ab_apply, shapeCast_a_1a_apply]
  show max _ (Ideal.ofBits .f32 0x00000000#32) = _
  rw [Ideal.ofBits_zero_f32]
  rfl

/-! ## The three layers composed -/

/-- The third layer at stacked row `2048 c + r`, column `q`. -/
theorem teamLayers_apply (g : FVec Ideal S2048x1 .f32) (v : IVec S2048x5 32) (EP : FVec Ideal S170x50 .bf16) (wg : FVec Ideal S50 .f32) (b1 : Vec Ideal S50 .f32)
    (W2T : FVec Ideal S50x25 .bf16) (b2 : Vec Ideal S25 .f32) (W3T : FVec Ideal S25x10 .bf16) (b3 : Vec Ideal S10 .f32)
    (i : Fin 2048 → Fin 5 → Fin 170) (hv : ∀ r c, v (ix2 r c) = BitVec.ofNat 32 (i r c).val) (c : Fin 5) (r : Fin 2048) (q : Fin 10) :
    teamLayers (F := Ideal) g v EP wg b1 W2T b2 W3T b3 (ix2 ⟨2048 * c.val + r.val, by omega⟩ q)
      = teamK (fun k o => EP (ix2 k o)) (fun o => wg (ix1 o)) (fun o => b1 (ix1 o)) (fun o p => W2T (ix2 o p)) (fun p => b2 (ix1 p))
          (fun p q => W3T (ix2 p q)) (fun q => b3 (ix1 q)) (i r c) (g (ix2 r 0)) q := by
  unfold teamLayers teamK
  rw [layer3_apply, layer3Pre_apply]
  refine congrArg relu (congrArg (· + b3 (ix1 q)) (Finset.sum_congr rfl fun p _ => ?_))
  rw [layer2_apply]
  refine congrArg (· * W3T (ix2 p q)) (congrArg relu (congrArg (· + b2 (ix1 p)) (Finset.sum_congr rfl fun o _ => ?_)))
  rw [layer1_apply, gathered_apply v EP i hv c r o, ratingShare_apply]

end Cert.KernelIdeal.Layers

end
-- ==== Proof.KAcc.lean ====
/-
  The last linear map: a team's five channel products read at an output row and column, the stored block, and a load of
  ten rows of the padded map.
-/
import proofs.«419752_j1864015806631_3_alg».proof.Proof.KLayers
import proofs.«419752_j1864015806631_3_alg».proof.Proof.Spec
import proofs.«419752_j1864015806631_3_alg».proof.Proof.Gen.KernelIdeal.Frame
import Idealize.ShloMosaic.Lib.ValueIdx
import Idealize.ShloMosaic.Lib.Pipeline.Value
import Idealize.ShloMosaic.PureOps.Ideal.Laws

noncomputable section

namespace Cert.KernelIdeal.Layers

open Cert.KernelIdeal Cert.KernelIdeal.Gen Idealize.ShloMosaic Idealize.ShloMosaic.ValueIdx Idealize.SL.Sem Cert.TeamMlp

/-- The product's left operand index keeps the output row on its first axis. -/
private theorem dotLhs_0 (i : S2048x128.Idx) (q : dot_S2048x10_S10x128_S2048x128_1_0_0_1_n_n.contr.Idx) :
    (dot_S2048x10_S10x128_S2048x128_1_0_0_1_n_n.lhsIdx i q 0).val = (i 0).val := by
  unfold DotDims.lhsIdx
  rw [dif_neg (show ¬(0 : Fin S2048x10.rank) ∈ dot_S2048x10_S10x128_S2048x128_1_0_0_1_n_n.lhsBatch by decide), dif_pos (show (0 : Fin S2048x10.rank) ∈ dot_S2048x10_S10x128_S2048x128_1_0_0_1_n_n.lhsNonContracting by decide)]
  rfl

/-- Its second axis is the contraction position. -/
private theorem dotLhs_1 (i : S2048x128.Idx) (q : dot_S2048x10_S10x128_S2048x128_1_0_0_1_n_n.contr.Idx) :
    (dot_S2048x10_S10x128_S2048x128_1_0_0_1_n_n.lhsIdx i q 1).val = (q ⟨0, by decide⟩).val :=
  dot_S2048x10_S10x128_S2048x128_1_0_0_1_n_n.lhsIdx_val_of_single rfl i q

/-- The right operand index has the contraction position on its first axis. -/
private theorem dotRhs_0 (i : S2048x128.Idx) (q : dot_S2048x10_S10x128_S2048x128_1_0_0_1_n_n.contr.Idx) :
    (dot_S2048x10_S10x128_S2048x128_1_0_0_1_n_n.rhsIdx i q 0).val = (q ⟨0, by decide⟩).val :=
  dot_S2048x10_S10x128_S2048x128_1_0_0_1_n_n.rhsIdx_val_of_single rfl i q

/-- Its second axis is the output column. -/
private theorem dotRhs_1 (i : S2048x128.Idx) (q : dot_S2048x10_S10x128_S2048x128_1_0_0_1_n_n.contr.Idx) :
    (dot_S2048x10_S10x128_S2048x128_1_0_0_1_n_n.rhsIdx i q 1).val = (i 1).val := by
  unfold DotDims.rhsIdx
  rw [dif_neg (show ¬(1 : Fin S10x128.rank) ∈ dot_S2048x10_S10x128_S2048x128_1_0_0_1_n_n.rhsBatch by decide), dif_pos (show (1 : Fin S10x128.rank) ∈ dot_S2048x10_S10x128_S2048x128_1_0_0_1_n_n.rhsNonContracting by decide)]
  rfl

/-- One channel's product at row `r`, column `n`: the ten entries of row `off + r` of the third layer against column
    `n` of the ten rows. -/
private theorem channelOut_apply (h3 : FVec Ideal S10240x10 .bf16) (off : Nat) (hs : S10240x10.Slices ![off, 0] S2048x10) (hoff : off + 2048 ≤ 10240)
    (w : Vec Ideal S10x128 .bf16) (r : Fin 2048) (n : Fin 128) :
    channelOut (F := Ideal) h3 off hs w (ix2 r n) = ∑ j : Fin 10, h3 (ix2 ⟨off + r.val, by omega⟩ j) * w (ix2 j n) := by
  unfold channelOut
  rw [shapeCast_self]
  simp only [matmul]
  rw [Ideal.matmul_constant_zero_apply, ← Equiv.sum_comp (contrEquiv1 dot_S2048x10_S10x128_S2048x128_1_0_0_1_n_n 10 rfl rfl).symm]
  refine Finset.sum_congr rfl fun k _ => ?_
  have hk := contrEquiv1_symm_val dot_S2048x10_S10x128_S2048x128_1_0_0_1_n_n 10 rfl rfl k
  have er : dot_S2048x10_S10x128_S2048x128_1_0_0_1_n_n.rhsIdx (ix2 r n) ((contrEquiv1 dot_S2048x10_S10x128_S2048x128_1_0_0_1_n_n 10 rfl rfl).symm k) = ix2 k n :=
    funext fun a => Fin.ext (by
      match a with
      | ⟨0, _⟩ => exact (dotRhs_0 _ _).trans hk
      | ⟨1, _⟩ => exact dotRhs_1 _ _)
  rw [er]
  refine congrArg (· * w (ix2 k n)) ?_
  refine extractStridedSlice_apply ![off, 0] h3 hs _ _ (fun a => ?_)
  match a with
  | ⟨0, _⟩ =>
    show off + r.val = off + (dot_S2048x10_S10x128_S2048x128_1_0_0_1_n_n.lhsIdx (ix2 r n) ((contrEquiv1 dot_S2048x10_S10x128_S2048x128_1_0_0_1_n_n 10 rfl rfl).symm k) 0).val
    rw [dotLhs_0]
  | ⟨1, _⟩ =>
    show k.val = 0 + (dot_S2048x10_S10x128_S2048x128_1_0_0_1_n_n.lhsIdx (ix2 r n) ((contrEquiv1 dot_S2048x10_S10x128_S2048x128_1_0_0_1_n_n 10 rfl rfl).symm k) 1).val
    rw [dotLhs_1, hk, Nat.zero_add]

/-- A team's share at row `r`, column `n`: channel `c`'s ten third-layer entries against the ten rows of its operand, the
    channels added in order into zero. -/
theorem teamOut_apply (h3 : FVec Ideal S10240x10 .bf16) (w0 w1 w2 w3 w4 : Vec Ideal S10x128 .bf16) (r : Fin 2048) (n : Fin 128) :
    teamOut (F := Ideal) h3 w0 w1 w2 w3 w4 (ix2 r n)
      = ((((0 + ∑ j : Fin 10, h3 (ix2 ⟨2048 * 0 + r.val, by omega⟩ j) * w0 (ix2 j n))
          + ∑ j : Fin 10, h3 (ix2 ⟨2048 * 1 + r.val, by omega⟩ j) * w1 (ix2 j n))
          + ∑ j : Fin 10, h3 (ix2 ⟨2048 * 2 + r.val, by omega⟩ j) * w2 (ix2 j n))
          + ∑ j : Fin 10, h3 (ix2 ⟨2048 * 3 + r.val, by omega⟩ j) * w3 (ix2 j n))
          + ∑ j : Fin 10, h3 (ix2 ⟨2048 * 4 + r.val, by omega⟩ j) * w4 (ix2 j n) := by
  have e0 := channelOut_apply h3 0 slices_S10240x10_o0_0_S2048x10 (by omega) w0 r n
  have e1 := channelOut_apply h3 2048 slices_S10240x10_o2048_0_S2048x10 (by omega) w1 r n
  have e2 := channelOut_apply h3 4096 slices_S10240x10_o4096_0_S2048x10 (by omega) w2 r n
  have e3 := channelOut_apply h3 6144 slices_S10240x10_o6144_0_S2048x10 (by omega) w3 r n
  have e4 := channelOut_apply h3 8192 slices_S10240x10_o8192_0_S2048x10 (by omega) w4 r n
  show ((((Ideal.ofBits .f32 0x00000000#32 + channelOut (F := Ideal) h3 0 slices_S10240x10_o0_0_S2048x10 w0 (ix2 r n))
          + channelOut (F := Ideal) h3 2048 slices_S10240x10_o2048_0_S2048x10 w1 (ix2 r n))
          + channelOut (F := Ideal) h3 4096 slices_S10240x10_o4096_0_S2048x10 w2 (ix2 r n))
          + channelOut (F := Ideal) h3 6144 slices_S10240x10_o6144_0_S2048x10 w3 (ix2 r n))
          + channelOut (F := Ideal) h3 8192 slices_S10240x10_o8192_0_S2048x10 w4 (ix2 r n) = _
  rw [e0, e1, e2, e3, e4, Ideal.ofBits_zero_f32]

/-- The stored block at row `r`, column `n`. -/
theorem outBlock_apply (tA tB : FVec Ideal S2048x128 .f32) (bfp : Vec Ideal S128 .f32) (r : Fin 2048) (n : Fin 2) :
    outBlock (F := Ideal) tA tB bfp (ix2 r n) = (tA (ix2 r ⟨n.val, by omega⟩) + tB (ix2 r ⟨n.val, by omega⟩)) + bfp (ix1 ⟨n.val, by omega⟩) := by
  unfold outBlock
  rw [shapeCast_self]
  refine (extractStridedSlice_apply ![0, 0] _ slices_S2048x128_o0_0_S2048x2 (ix2 r n) (ix2 r ⟨n.val, by omega⟩) (fun a => ?_)).trans ?_
  · match a with
    | ⟨0, _⟩ => show r.val = 0 + r.val; omega
    | ⟨1, _⟩ => show n.val = 0 + n.val; omega
  · rw [addf_apply, addf_apply]
    refine congrArg (tA (ix2 r ⟨n.val, by omega⟩) + tB (ix2 r ⟨n.val, by omega⟩) + ·) ?_
    refine (broadcastTo_apply _ broadcasts_S1x128_S2048x128 (ix2 r ⟨n.val, by omega⟩) (ix2 (0 : Fin 1) (⟨n.val, by omega⟩ : Fin 128)) (fun a => ?_)).trans ?_
    · match a with
      | ⟨0, _⟩ => show 0 = if (1 : Nat) = 1 then 0 else r.val; rw [if_pos rfl]
      | ⟨1, _⟩ => show n.val = if (128 : Nat) = 1 then 0 else n.val; rw [if_neg (by decide)]
    · refine shapeCast_apply bfp shapeCasts_S128_S1x128 _ (ix1 ⟨n.val, by omega⟩) ?_
      rw [Shape.rowMajor_val_one, Shape.rowMajor_val_two]
      show n.val = 0 * 128 + n.val
      omega

/-- A load of ten rows of the padded map starting at row `off`. -/
theorem ld_rows (x15 : Vec Ideal S100x128 .bf16) (off : Nat) (hoff : off + 10 ≤ 100) (inb : ∀ a, (![off, 0] : Fin 2 → Nat) a + S10x128.size a ≤ S100x128.size a)
    (j : Fin 10) (n : Fin 128) :
    View.ld x15 (Rect.unit (s := S100x128) ![off, 0] S10x128.size inb) (ix2 j n) = x15 (ix2 ⟨off + j.val, by omega⟩ n) := by
  show x15 ((Rect.unit (s := S100x128) ![off, 0] S10x128.size inb).idx (ix2 j n)) = _
  refine congrArg x15 (Shape.idx_ext₂ ?_ ?_)
  · show off + 1 * j.val = off + j.val
    omega
  · show 0 + 1 * n.val = n.val
    omega

end Cert.KernelIdeal.Layers

end
-- ==== Proof.KBody.lean ====
/-
  What the kernel body leaves in its output block, one entry at a time: entry `(r, n)` is the kernel's row function
  `kerRow` of row `r` of the features block and the sixteen operand blocks.
-/
import proofs.«419752_j1864015806631_3_alg».proof.Proof.KMlp
import proofs.«419752_j1864015806631_3_alg».proof.Proof.KAcc

noncomputable section

namespace Cert.KernelIdeal.Layers

open Cert.KernelIdeal Cert.KernelIdeal.Gen Idealize.ShloMosaic Idealize.ShloMosaic.ValueIdx Idealize.SL.Sem Cert.TeamMlp

/-- The zero offsets of a rank-two rectangle, as a constant function. -/
private theorem zeros2 : (![0, 0] : Fin 2 → Nat) = fun _ => 0 := funext fun a => by fin_cases a <;> rfl

/-- The zero offset of a rank-one rectangle, as a constant function. -/
private theorem zeros1 : (![0] : Fin 1 → Nat) = fun _ => 0 := funext fun a => by fin_cases a; rfl

/-- A team's share of output column `n` at row `r`: channel `c`'s perceptron output `teamK … (i r c)` against the ten
    rows of that channel's operand block, the channels added in order into zero. -/
private theorem teamShare_apply (g : FVec Ideal S2048x1 .f32) (v : IVec S2048x5 32) (EP : FVec Ideal S170x50 .bf16) (wg : FVec Ideal S50 .f32)
    (b1 : Vec Ideal S50 .f32) (W2T : FVec Ideal S50x25 .bf16) (b2 : Vec Ideal S25 .f32) (W3T : FVec Ideal S25x10 .bf16) (b3 : Vec Ideal S10 .f32)
    (i : Fin 2048 → Fin 5 → Fin 170) (hv : ∀ r c, v (ix2 r c) = BitVec.ofNat 32 (i r c).val)
    (w0 w1 w2 w3 w4 : Vec Ideal S10x128 .bf16) (r : Fin 2048) (n : Fin 128) :
    teamOut (F := Ideal) (teamLayers (F := Ideal) g v EP wg b1 W2T b2 W3T b3) w0 w1 w2 w3 w4 (ix2 r n)
      = ((((0 + ∑ j : Fin 10, teamK (fun k o => EP (ix2 k o)) (fun o => wg (ix1 o)) (fun o => b1 (ix1 o)) (fun o p => W2T (ix2 o p)) (fun p => b2 (ix1 p))
              (fun p q => W3T (ix2 p q)) (fun q => b3 (ix1 q)) (i r 0) (g (ix2 r 0)) j * w0 (ix2 j n))
          + ∑ j : Fin 10, teamK (fun k o => EP (ix2 k o)) (fun o => wg (ix1 o)) (fun o => b1 (ix1 o)) (fun o p => W2T (ix2 o p)) (fun p => b2 (ix1 p))
              (fun p q => W3T (ix2 p q)) (fun q => b3 (ix1 q)) (i r 1) (g (ix2 r 0)) j * w1 (ix2 j n))
          + ∑ j : Fin 10, teamK (fun k o => EP (ix2 k o)) (fun o => wg (ix1 o)) (fun o => b1 (ix1 o)) (fun o p => W2T (ix2 o p)) (fun p => b2 (ix1 p))
              (fun p q => W3T (ix2 p q)) (fun q => b3 (ix1 q)) (i r 2) (g (ix2 r 0)) j * w2 (ix2 j n))
          + ∑ j : Fin 10, teamK (fun k o => EP (ix2 k o)) (fun o => wg (ix1 o)) (fun o => b1 (ix1 o)) (fun o p => W2T (ix2 o p)) (fun p => b2 (ix1 p))
              (fun p q => W3T (ix2 p q)) (fun q => b3 (ix1 q)) (i r 3) (g (ix2 r 0)) j * w3 (ix2 j n))
          + ∑ j : Fin 10, teamK (fun k o => EP (ix2 k o)) (fun o => wg (ix1 o)) (fun o => b1 (ix1 o)) (fun o p => W2T (ix2 o p)) (fun p => b2 (ix1 p))
              (fun p q => W3T (ix2 p q)) (fun q => b3 (ix1 q)) (i r 4) (g (ix2 r 0)) j * w4 (ix2 j n) := by
  have e : ∀ (c : Fin 5) (q : Fin 10),
      teamLayers (F := Ideal) g v EP wg b1 W2T b2 W3T b3 (ix2 ⟨2048 * c.val + r.val, by omega⟩ q)
        = teamK (fun k o => EP (ix2 k o)) (fun o => wg (ix1 o)) (fun o => b1 (ix1 o)) (fun o p => W2T (ix2 o p)) (fun p => b2 (ix1 p))
            (fun p q => W3T (ix2 p q)) (fun q => b3 (ix1 q)) (i r c) (g (ix2 r 0)) q :=
    fun c q => teamLayers_apply g v EP wg b1 W2T b2 W3T b3 i hv c r q
  have e0 : ∀ q : Fin 10, teamLayers (F := Ideal) g v EP wg b1 W2T b2 W3T b3 (ix2 ⟨2048 * 0 + r.val, by omega⟩ q) = _ := fun q => e 0 q
  have e1 : ∀ q : Fin 10, teamLayers (F := Ideal) g v EP wg b1 W2T b2 W3T b3 (ix2 ⟨2048 * 1 + r.val, by omega⟩ q) = _ := fun q => e 1 q
  have e2 : ∀ q : Fin 10, teamLayers (F := Ideal) g v EP wg b1 W2T b2 W3T b3 (ix2 ⟨2048 * 2 + r.val, by omega⟩ q) = _ := fun q => e 2 q
  have e3 : ∀ q : Fin 10, teamLayers (F := Ideal) g v EP wg b1 W2T b2 W3T b3 (ix2 ⟨2048 * 3 + r.val, by omega⟩ q) = _ := fun q => e 3 q
  have e4 : ∀ q : Fin 10, teamLayers (F := Ideal) g v EP wg b1 W2T b2 W3T b3 (ix2 ⟨2048 * 4 + r.val, by omega⟩ q) = _ := fun q => e 4 q
  rw [teamOut_apply]
  simp only [e0, e1, e2, e3, e4]

/-- The output block's entry `(r, n)`. -/
theorem body_row (x0 : Vec Ideal S2048x12 .f32) (x1 : Vec Ideal S170x50 .bf16) (x2 x3 : Vec Ideal S50 .f32) (x4 : Vec Ideal S50x25 .bf16) (x5 : Vec Ideal S25 .f32)
    (x6 : Vec Ideal S25x10 .bf16) (x7 : Vec Ideal S10 .f32) (x8 : Vec Ideal S170x50 .bf16) (x9 x10 : Vec Ideal S50 .f32) (x11 : Vec Ideal S50x25 .bf16)
    (x12 : Vec Ideal S25 .f32) (x13 : Vec Ideal S25x10 .bf16) (x14 : Vec Ideal S10 .f32) (x15 : Vec Ideal S100x128 .bf16) (x16 : Vec Ideal S128 .f32)
    (r : Fin 2048) (n : Fin 2) :
    out0_17 (F := Ideal) x0 x1 x2 x3 x4 x5 x6 x7 x8 x9 x10 x11 x12 x13 x14 x15 x16 (ix2 r n)
      = kerRow (fun j => x0 (ix2 r j))
          (fun k o => x1 (ix2 k o)) (fun o => x2 (ix1 o)) (fun o => x3 (ix1 o)) (fun o p => x4 (ix2 o p)) (fun p => x5 (ix1 p)) (fun p q => x6 (ix2 p q)) (fun q => x7 (ix1 q))
          (fun k o => x8 (ix2 k o)) (fun o => x9 (ix1 o)) (fun o => x10 (ix1 o)) (fun o p => x11 (ix2 o p)) (fun p => x12 (ix1 p)) (fun p q => x13 (ix2 p q)) (fun q => x14 (ix1 q))
          (fun k n => x15 (ix2 k n)) (fun n => x16 (ix1 n)) ⟨n.val, by omega⟩ := by
  unfold out0_17
  rw [View.canon_unit_zero zeros2]
  simp only [View.ld_unit_zero (S := S2048x12) zeros2, View.ld_unit_zero (S := S170x50) zeros2, View.ld_unit_zero (S := S50) zeros1,
    View.ld_unit_zero (S := S50x25) zeros2, View.ld_unit_zero (S := S25) zeros1, View.ld_unit_zero (S := S25x10) zeros2,
    View.ld_unit_zero (S := S10) zeros1, View.ld_unit_zero (S := S128) zeros1]
  rw [pay1_eq, teamA_eq, teamB_eq]
  simp only [shapeCast_self]
  rw [outBlock_apply,
    teamShare_apply (k0_pay2 x0) (k0_pay5 x0) x1 x2 x3 x4 x5 x6 x7 (fun r c => clipIdx (x0 (ix2 r ⟨2 + c.val, by omega⟩))) (pay5_apply x0),
    teamShare_apply (k0_pay3 x0) (k0_pay6 x0) x8 x9 x10 x11 x12 x13 x14 (fun r c => clipIdx (x0 (ix2 r ⟨7 + c.val, by omega⟩))) (pay6_apply x0)]
  simp only [ld_rows x15 0 (by omega) inb_S100x128_S10x128_0_0, ld_rows x15 10 (by omega) inb_S100x128_S10x128_10_0,
    ld_rows x15 20 (by omega) inb_S100x128_S10x128_20_0, ld_rows x15 30 (by omega) inb_S100x128_S10x128_30_0,
    ld_rows x15 40 (by omega) inb_S100x128_S10x128_40_0, ld_rows x15 50 (by omega) inb_S100x128_S10x128_50_0,
    ld_rows x15 60 (by omega) inb_S100x128_S10x128_60_0, ld_rows x15 70 (by omega) inb_S100x128_S10x128_70_0,
    ld_rows x15 80 (by omega) inb_S100x128_S10x128_80_0, ld_rows x15 90 (by omega) inb_S100x128_S10x128_90_0,
    pay2_apply, pay3_apply]
  unfold kerRow accK
  rfl

end Cert.KernelIdeal.Layers

end
-- ==== Proof.KHost.lean ====
/-
  The operands the kernel is launched with, as the wrapper's host operations compute them from the arguments:
  the embedding table through the first layer's embedding columns, that layer's rating column, the transposed weight
  matrices, and the last linear map and its bias padded with zeros to width 128.
-/
import proofs.«419752_j1864015806631_3_alg».proof.Proof.Gen.KernelIdeal.Frame
import proofs.«419752_j1864015806631_3_alg».proof.Proof.Spec
import Idealize.ShloMosaic.Lib.ValueIdx
import Idealize.ShloMosaic.Lib.Pipeline.Value
import Idealize.ShloMosaic.Lib.StableHlo.Run
import Idealize.ShloMosaic.PureOps.Ideal.Laws

noncomputable section

namespace Cert.KernelIdeal.HostSide

open Cert.KernelIdeal Cert.KernelIdeal.Gen Idealize.ShloMosaic Idealize.ShloMosaic.ValueIdx Idealize.SL.Sem Cert.TeamMlp Idealize.ShloMosaic.TcCoe

variable (m : (ℓ : Loc nD τ sig) → Buf (Elt Ideal) ℓ)

/-! ## Transposed weights: a narrowing of a transpose reads the operand at the swapped coordinates -/

private theorem tr_25x50 (x : S25x50.Idx → EReal) (o : Fin 50) (p : Fin 25) :
    truncf (F := Ideal) .bf16 (transpose S50x25 [1, 0] x transposes_S25x50_S50x25_1_0) bitsLt_bf16_f32 (ix2 o p) = x (ix2 p o) :=
  (truncf_apply (φ := .f32) (ψ := .bf16) _ bitsLt_bf16_f32 (ix2 o p)).trans
    (transpose_apply [1, 0] x transposes_S25x50_S50x25_1_0 (ix2 o p) (ix2 p o) (fun b => match b with | ⟨0, _⟩ => rfl | ⟨1, _⟩ => rfl))

private theorem tr_10x25 (x : S10x25.Idx → EReal) (p : Fin 25) (q : Fin 10) :
    truncf (F := Ideal) .bf16 (transpose S25x10 [1, 0] x transposes_S10x25_S25x10_1_0) bitsLt_bf16_f32 (ix2 p q) = x (ix2 q p) :=
  (truncf_apply (φ := .f32) (ψ := .bf16) _ bitsLt_bf16_f32 (ix2 p q)).trans
    (transpose_apply [1, 0] x transposes_S10x25_S25x10_1_0 (ix2 p q) (ix2 q p) (fun b => match b with | ⟨0, _⟩ => rfl | ⟨1, _⟩ => rfl))

/-! ## The rating column: column 50 of the first layer, as a vector -/

private theorem col50 (w : S50x51.Idx → EReal) (o : Fin 50) :
    shapeCast S50 (extractStridedSlice S50x1 ![0, 50] w slices_S50x51_S50x1_0_50) shapeCasts_S50x1_S50 (ix1 o)
      = w (ix2 o ⟨50, by omega⟩) := by
  refine (shapeCast_apply _ shapeCasts_S50x1_S50 (ix1 o) (ix2 o ⟨0, by omega⟩) ?_).trans ?_
  · rw [Shape.rowMajor_val_two, Shape.rowMajor_val_one]
    show o.val * 1 + 0 = o.val
    omega
  · exact extractStridedSlice_apply ![0, 50] w slices_S50x51_S50x1_0_50 (ix2 o ⟨0, by omega⟩) (ix2 o ⟨50, by omega⟩)
      (fun a => match a with
        | ⟨0, _⟩ => by show o.val = 0 + o.val; omega
        | ⟨1, _⟩ => by show 50 = 50 + 0; rfl)

/-! ## The projected table: the product of the table with the transposed embedding columns -/

private theorem lhs_proj_0 (i : S170x50.Idx) (q : dot_S170x50_S50x50_S170x50_1_0_0_1_n_n.contr.Idx) :
    (dot_S170x50_S50x50_S170x50_1_0_0_1_n_n.lhsIdx i q 0).val = (i 0).val := by
  unfold DotDims.lhsIdx
  rw [dif_neg (show ¬(0 : Fin S170x50.rank) ∈ dot_S170x50_S50x50_S170x50_1_0_0_1_n_n.lhsBatch by decide), dif_pos (show (0 : Fin S170x50.rank) ∈ dot_S170x50_S50x50_S170x50_1_0_0_1_n_n.lhsNonContracting by decide)]
  rfl
private theorem lhs_proj_1 (i : S170x50.Idx) (q : dot_S170x50_S50x50_S170x50_1_0_0_1_n_n.contr.Idx) :
    (dot_S170x50_S50x50_S170x50_1_0_0_1_n_n.lhsIdx i q 1).val = (q ⟨0, by decide⟩).val :=
  dot_S170x50_S50x50_S170x50_1_0_0_1_n_n.lhsIdx_val_of_single rfl i q
private theorem rhs_proj_0 (i : S170x50.Idx) (q : dot_S170x50_S50x50_S170x50_1_0_0_1_n_n.contr.Idx) :
    (dot_S170x50_S50x50_S170x50_1_0_0_1_n_n.rhsIdx i q 0).val = (q ⟨0, by decide⟩).val :=
  dot_S170x50_S50x50_S170x50_1_0_0_1_n_n.rhsIdx_val_of_single rfl i q
private theorem rhs_proj_1 (i : S170x50.Idx) (q : dot_S170x50_S50x50_S170x50_1_0_0_1_n_n.contr.Idx) :
    (dot_S170x50_S50x50_S170x50_1_0_0_1_n_n.rhsIdx i q 1).val = (i 1).val := by
  unfold DotDims.rhsIdx
  rw [dif_neg (show ¬(1 : Fin S50x50.rank) ∈ dot_S170x50_S50x50_S170x50_1_0_0_1_n_n.rhsBatch by decide), dif_pos (show (1 : Fin S50x50.rank) ∈ dot_S170x50_S50x50_S170x50_1_0_0_1_n_n.rhsNonContracting by decide)]
  rfl

/-- The product at (k, o): the sum over the fifty shared coordinates. -/
private theorem proj_dot (x : FVec Ideal S170x50 .f32) (y : FVec Ideal S50x50 .f32) (k : Fin 170) (o : Fin 50) :
    Host.dotGeneral (F := Ideal) dot_S170x50_S50x50_S170x50_1_0_0_1_n_n none x y (ix2 k o)
      = ∑ d : Fin 50, x (ix2 k d) * y (ix2 d o) := by
  simp only [Host.dotGeneral]
  rw [Ideal.dotGeneral_apply, ← Equiv.sum_comp (ValueIdx.contrEquiv1 dot_S170x50_S50x50_S170x50_1_0_0_1_n_n 50 rfl rfl).symm]
  refine Finset.sum_congr rfl fun d _ => ?_
  have hd := ValueIdx.contrEquiv1_symm_val dot_S170x50_S50x50_S170x50_1_0_0_1_n_n 50 rfl rfl d
  have el : dot_S170x50_S50x50_S170x50_1_0_0_1_n_n.lhsIdx (ix2 k o) ((ValueIdx.contrEquiv1 dot_S170x50_S50x50_S170x50_1_0_0_1_n_n 50 rfl rfl).symm d) = ix2 k d := funext fun a => Fin.ext (by
    match a with
    | ⟨0, _⟩ => exact lhs_proj_0 _ _
    | ⟨1, _⟩ => exact (lhs_proj_1 _ _).trans hd)
  have er : dot_S170x50_S50x50_S170x50_1_0_0_1_n_n.rhsIdx (ix2 k o) ((ValueIdx.contrEquiv1 dot_S170x50_S50x50_S170x50_1_0_0_1_n_n 50 rfl rfl).symm d) = ix2 d o := funext fun a => Fin.ext (by
    match a with
    | ⟨0, _⟩ => exact (rhs_proj_0 _ _).trans hd
    | ⟨1, _⟩ => exact rhs_proj_1 _ _)
  rw [el, er]

/-- The transposed embedding columns at (d, o): the first layer's entry (o, d). -/
private theorem embCols (w : FVec Ideal S50x51 .f32) (d o : Fin 50) :
    transpose S50x50 [1, 0] (extractStridedSlice S50x50 ![0, 0] w slices_S50x51_S50x50_0_0) transposes_S50x50_S50x50_1_0 (ix2 d o)
      = w (ix2 o ⟨d.val, by omega⟩) := by
  refine (transpose_apply [1, 0] _ transposes_S50x50_S50x50_1_0 (ix2 d o) (ix2 o d) (fun b => match b with | ⟨0, _⟩ => rfl | ⟨1, _⟩ => rfl)).trans ?_
  exact extractStridedSlice_apply ![0, 0] w slices_S50x51_S50x50_0_0 (ix2 o d) (ix2 o ⟨d.val, by omega⟩)
    (fun a => match a with
      | ⟨0, _⟩ => by show o.val = 0 + o.val; omega
      | ⟨1, _⟩ => by show d.val = 0 + d.val; omega)

private theorem proj_apply (x : FVec Ideal S170x50 .f32) (w : FVec Ideal S50x51 .f32) (k : Fin 170) (o : Fin 50) :
    truncf (F := Ideal) .bf16 (Host.dotGeneral (F := Ideal) (φ₁ := .f32) (φ₂ := .f32) dot_S170x50_S50x50_S170x50_1_0_0_1_n_n none x
        (transpose S50x50 [1, 0] (extractStridedSlice S50x50 ![0, 0] w slices_S50x51_S50x50_0_0) transposes_S50x50_S50x50_1_0)) bitsLt_bf16_f32 (ix2 k o)
      = embProj (fun k d => x (ix2 k d)) (fun o d => w (ix2 o d)) k o := by
  refine (truncf_apply (φ := .f32) (ψ := .bf16) _ bitsLt_bf16_f32 (ix2 k o)).trans ?_
  refine (proj_dot x _ k o).trans ?_
  unfold embProj
  exact Finset.sum_congr rfl fun d _ => congrArg (x (ix2 k d) * ·) (embCols w d o)

/-! ## A scatter whose body returns the update, read at an index

  The scatter is a left fold of point writes over the update's elements. Read at an index that no element's result
  index names, it is the operand there; read at an index that exactly one element names, it is that element. -/

/-- A left fold of steps that leave alone every index they do not name, read at an index none of them names:
    the starting value there. -/
private theorem foldl_write_miss {ι α : Type} {N : Nat} (g : Fin N → Option ι) (step : (ι → α) → Fin N → ι → α)
    (hne : ∀ r n j, g n ≠ some j → step r n j = r j) (i' : ι) :
    ∀ (l : List (Fin N)) (x : ι → α), (∀ n ∈ l, g n ≠ some i') → l.foldl step x i' = x i'
  | [], x, _ => rfl
  | a :: t, x, h => by
    rw [List.foldl_cons, foldl_write_miss g step hne i' t _ (fun n hn => h n (List.mem_cons_of_mem _ hn))]
    exact hne x a i' (h a List.mem_cons_self)

/-- The same fold read at an index exactly one step names: what that step writes. -/
private theorem foldl_write_hit {ι α : Type} {N : Nat} (g : Fin N → Option ι) (v : Fin N → α) (step : (ι → α) → Fin N → ι → α)
    (hat : ∀ r n i, g n = some i → step r n i = v n)
    (hne : ∀ r n j, g n ≠ some j → step r n j = r j) (i' : ι) (n₀ : Fin N) (h₀ : g n₀ = some i') :
    ∀ (l : List (Fin N)) (x : ι → α), n₀ ∈ l → (∀ n ∈ l, g n = some i' → n = n₀) → l.foldl step x i' = v n₀
  | [], x, hm, _ => absurd hm List.not_mem_nil
  | a :: t, x, hm, hu => by
    rw [List.foldl_cons]
    by_cases ht : n₀ ∈ t
    · exact foldl_write_hit g v step hat hne i' n₀ h₀ t _ ht (fun n hn => hu n (List.mem_cons_of_mem _ hn))
    · have ha : a = n₀ := by
        rcases List.mem_cons.1 hm with h | h
        · exact h.symm
        · exact absurd h ht
      subst ha
      rw [foldl_write_miss g step hne i' t _ (fun n hn hgn => ht ((hu n (List.mem_cons_of_mem _ hn) hgn) ▸ hn))]
      exact hat x a i' h₀

private theorem scatter_miss {s si u : Shape} {w : Nat} {α : Type} (d : ScatterDims s si u) (x : s.Idx → α) (idx : IVec si w)
    (upd : u.Idx → α) (i' : s.Idx) (h : ∀ j : u.Idx, d.resultIdx? j idx ≠ some i') :
    Host.scatter d (fun _ b => b) x idx upd i' = x i' := by
  unfold Host.scatter
  refine foldl_write_miss (fun n => d.resultIdx? (u.rowMajor.symm n) idx) _ ?_ i' _ x (fun n _ => h _)
  intro r n j hj
  have hj' : d.resultIdx? (u.rowMajor.symm n) idx ≠ some j := hj
  beta_reduce
  cases hg : d.resultIdx? (u.rowMajor.symm n) idx with
  | none => rfl
  | some i =>
    dsimp only
    rw [if_neg]
    intro hh
    exact hj' (by rw [hg, hh])

private theorem scatter_hit {s si u : Shape} {w : Nat} {α : Type} (d : ScatterDims s si u) (x : s.Idx → α) (idx : IVec si w)
    (upd : u.Idx → α) (i' : s.Idx) (j₀ : u.Idx) (h₀ : d.resultIdx? j₀ idx = some i')
    (hu : ∀ j : u.Idx, d.resultIdx? j idx = some i' → j = j₀) :
    Host.scatter d (fun _ b => b) x idx upd i' = upd j₀ := by
  unfold Host.scatter
  refine (foldl_write_hit (fun n => d.resultIdx? (u.rowMajor.symm n) idx) (fun n => upd (u.rowMajor.symm n)) _ ?hat ?hne i' (u.rowMajor j₀)
    (by show d.resultIdx? (u.rowMajor.symm (u.rowMajor j₀)) idx = some i'; rw [Equiv.symm_apply_apply]; exact h₀)
    (List.finRange u.numel) x (List.mem_finRange _)
    (fun n _ hn => by have hj := hu _ hn; rw [← hj, Equiv.apply_symm_apply])).trans ?fin
  case fin =>
    show upd (u.rowMajor.symm (u.rowMajor j₀)) = upd j₀
    rw [Equiv.symm_apply_apply]
  case hat =>
    intro r n i hi
    have hi' : d.resultIdx? (u.rowMajor.symm n) idx = some i := hi
    beta_reduce
    rw [hi']
    dsimp only
    rw [if_pos rfl]
  case hne =>
    intro r n j hj
    have hj' : d.resultIdx? (u.rowMajor.symm n) idx ≠ some j := hj
    beta_reduce
    cases hg : d.resultIdx? (u.rowMajor.symm n) idx with
    | none => rfl
    | some i =>
      dsimp only
      rw [if_neg]
      intro hh
      exact hj' (by rw [hg, hh])

/-! ## The padded last linear map: the transposed map written at column offset 0 into a zero array -/

private theorem padW_start (j : S100x2.Idx) (idx : IVec S1 32) (hidx : ∀ q, idx q = 0#32) (a : Fin S100x128.rank) :
    scatter_S100x128_S1_S100x2_01_n_1_0.start j idx a = 0 := by
  unfold ScatterDims.start
  split
  · rw [hidx]; rfl
  · rfl
private theorem padW_window_0 (j : S100x2.Idx) : scatter_S100x128_S1_S100x2_01_n_1_0.window j 0 = (j 0).val := by
  unfold ScatterDims.window
  rw [dif_pos (show (0 : Fin S100x128.rank) ∈ scatter_S100x128_S1_S100x2_01_n_1_0.sKept by decide)]
  rfl
private theorem padW_window_1 (j : S100x2.Idx) : scatter_S100x128_S1_S100x2_01_n_1_0.window j 1 = (j 1).val := by
  unfold ScatterDims.window
  rw [dif_pos (show (1 : Fin S100x128.rank) ∈ scatter_S100x128_S1_S100x2_01_n_1_0.sKept by decide)]
  rfl
private theorem padW_pos_0 (j : S100x2.Idx) (idx : IVec S1 32) (hidx : ∀ q, idx q = 0#32) :
    scatter_S100x128_S1_S100x2_01_n_1_0.start j idx 0 + (scatter_S100x128_S1_S100x2_01_n_1_0.window j 0 : Int) = ((j 0).val : Int) := by
  rw [padW_start j idx hidx, padW_window_0, zero_add]
private theorem padW_pos_1 (j : S100x2.Idx) (idx : IVec S1 32) (hidx : ∀ q, idx q = 0#32) :
    scatter_S100x128_S1_S100x2_01_n_1_0.start j idx 1 + (scatter_S100x128_S1_S100x2_01_n_1_0.window j 1 : Int) = ((j 1).val : Int) := by
  rw [padW_start j idx hidx, padW_window_1, zero_add]

/-- With the start index zero, update element (k, n) lands at (k, n). -/
private theorem padW_result (j : S100x2.Idx) (idx : IVec S1 32) (hidx : ∀ q, idx q = 0#32) :
    scatter_S100x128_S1_S100x2_01_n_1_0.resultIdx? j idx = some (ix2 (j 0) ⟨(j 1).val, Nat.lt_of_lt_of_le (idx2_lt1 j) (by decide)⟩) := by
  have h0 := idx2_lt0 j
  have h1 := idx2_lt1 j
  unfold ScatterDims.resultIdx?
  split
  · refine congrArg some (funext fun a => Fin.ext ?_)
    match a with
    | ⟨0, _⟩ =>
      show (scatter_S100x128_S1_S100x2_01_n_1_0.start j idx 0 + (scatter_S100x128_S1_S100x2_01_n_1_0.window j 0 : Int)).toNat = (j 0).val
      rw [padW_pos_0 j idx hidx]; rfl
    | ⟨1, _⟩ =>
      show (scatter_S100x128_S1_S100x2_01_n_1_0.start j idx 1 + (scatter_S100x128_S1_S100x2_01_n_1_0.window j 1 : Int)).toNat = (j 1).val
      rw [padW_pos_1 j idx hidx]; rfl
  · rename_i hneg
    refine absurd (fun a => ?_) hneg
    match a with
    | ⟨0, _⟩ =>
      show 0 ≤ scatter_S100x128_S1_S100x2_01_n_1_0.start j idx 0 + (scatter_S100x128_S1_S100x2_01_n_1_0.window j 0 : Int) ∧ scatter_S100x128_S1_S100x2_01_n_1_0.start j idx 0 + (scatter_S100x128_S1_S100x2_01_n_1_0.window j 0 : Int) < ((100 : Nat) : Int)
      rw [padW_pos_0 j idx hidx]; omega
    | ⟨1, _⟩ =>
      show 0 ≤ scatter_S100x128_S1_S100x2_01_n_1_0.start j idx 1 + (scatter_S100x128_S1_S100x2_01_n_1_0.window j 1 : Int) ∧ scatter_S100x128_S1_S100x2_01_n_1_0.start j idx 1 + (scatter_S100x128_S1_S100x2_01_n_1_0.window j 1 : Int) < ((128 : Nat) : Int)
      rw [padW_pos_1 j idx hidx]; omega

private theorem tr_2x100 (x : FVec Ideal S2x100 .f32) (k : Fin 100) (n : Fin 2) :
    truncf (F := Ideal) .bf16 (transpose S100x2 [1, 0] x transposes_S2x100_S100x2_1_0) bitsLt_bf16_f32 (ix2 k n) = x (ix2 n k) :=
  (truncf_apply (φ := .f32) (ψ := .bf16) _ bitsLt_bf16_f32 (ix2 k n)).trans
    (transpose_apply [1, 0] x transposes_S2x100_S100x2_1_0 (ix2 k n) (ix2 n k) (fun b => match b with | ⟨0, _⟩ => rfl | ⟨1, _⟩ => rfl))

private theorem padW_apply (x : FVec Ideal S2x100 .f32) (k : Fin 100) (n : Fin 128) :
    Host.scatter scatter_S100x128_S1_S100x2_01_n_1_0 (fun _ b => b)
        (broadcastInDim S100x128 ![] bcast_S_S100x128 (constant (F := Ideal) S_ .bf16 0x0000#16))
        (broadcastInDim S1 ![] bcast_S_S1 (constantI S_ 32 0#32))
        (truncf (F := Ideal) .bf16 (transpose S100x2 [1, 0] x transposes_S2x100_S100x2_1_0) bitsLt_bf16_f32) (ix2 k n)
      = wfPad (fun n k => x (ix2 n k)) k n := by
  have hidx : ∀ q, (broadcastInDim S1 ![] bcast_S_S1 (constantI S_ 32 0#32) : IVec S1 32) q = 0#32 := fun _ => rfl
  unfold wfPad
  by_cases h : n.val < 2
  · rw [dif_pos h]
    refine (scatter_hit _ _ _ _ (ix2 k n) (ix2 k ⟨n.val, h⟩) ?_ ?_).trans ?_
    · rw [padW_result _ _ hidx]; rfl
    · intro j hj
      rw [padW_result _ _ hidx] at hj
      have hj' := Option.some.inj hj
      have e0 : j 0 = k := congrFun hj' 0
      have e1 : (j 1).val = n.val := congrArg Fin.val (congrFun hj' 1)
      funext a
      match a with
      | ⟨0, _⟩ => exact e0
      | ⟨1, _⟩ => exact Fin.ext e1
    · exact tr_2x100 x k ⟨n.val, h⟩
  · rw [dif_neg h]
    refine (scatter_miss _ _ _ _ (ix2 k n) ?_).trans ?_
    · intro j hj
      rw [padW_result _ _ hidx] at hj
      have e1 : (j 1).val = n.val := congrArg Fin.val (congrFun (Option.some.inj hj) 1)
      have h1 := idx2_lt1 j
      omega
    · show Ideal.ofBits .bf16 0x0000#16 = 0
      simp [Ideal.ofBits, Ideal.ieee]

/-! ## The padded bias: the bias written at offset 0 into a zero vector -/

private theorem padB_start (j : S2.Idx) (idx : IVec S1 32) (hidx : ∀ q, idx q = 0#32) (a : Fin S128.rank) :
    scatter_S128_S1_S2_0_n_0_0.start j idx a = 0 := by
  unfold ScatterDims.start
  split
  · rw [hidx]; rfl
  · rfl
private theorem padB_window_0 (j : S2.Idx) : scatter_S128_S1_S2_0_n_0_0.window j 0 = (j 0).val := by
  unfold ScatterDims.window
  rw [dif_pos (show (0 : Fin S128.rank) ∈ scatter_S128_S1_S2_0_n_0_0.sKept by decide)]
  rfl
private theorem padB_pos_0 (j : S2.Idx) (idx : IVec S1 32) (hidx : ∀ q, idx q = 0#32) :
    scatter_S128_S1_S2_0_n_0_0.start j idx 0 + (scatter_S128_S1_S2_0_n_0_0.window j 0 : Int) = ((j 0).val : Int) := by
  rw [padB_start j idx hidx, padB_window_0, zero_add]

/-- With the start index zero, update element n lands at n. -/
private theorem padB_result (j : S2.Idx) (idx : IVec S1 32) (hidx : ∀ q, idx q = 0#32) :
    scatter_S128_S1_S2_0_n_0_0.resultIdx? j idx = some (ix1 ⟨(j 0).val, Nat.lt_of_lt_of_le (j 0).isLt (by decide)⟩) := by
  have h0 : (j 0).val < 2 := (j 0).isLt
  unfold ScatterDims.resultIdx?
  split
  · refine congrArg some (funext fun a => Fin.ext ?_)
    match a with
    | ⟨0, _⟩ =>
      show (scatter_S128_S1_S2_0_n_0_0.start j idx 0 + (scatter_S128_S1_S2_0_n_0_0.window j 0 : Int)).toNat = (j 0).val
      rw [padB_pos_0 j idx hidx]; rfl
  · rename_i hneg
    refine absurd (fun a => ?_) hneg
    match a with
    | ⟨0, _⟩ =>
      show 0 ≤ scatter_S128_S1_S2_0_n_0_0.start j idx 0 + (scatter_S128_S1_S2_0_n_0_0.window j 0 : Int) ∧ scatter_S128_S1_S2_0_n_0_0.start j idx 0 + (scatter_S128_S1_S2_0_n_0_0.window j 0 : Int) < ((128 : Nat) : Int)
      rw [padB_pos_0 j idx hidx]; omega

private theorem padB_apply (x : FVec Ideal S2 .f32) (n : Fin 128) :
    Host.scatter scatter_S128_S1_S2_0_n_0_0 (fun _ b => b)
        (broadcastInDim S128 ![] bcast_S_S128 (constant (F := Ideal) S_ .f32 0x00000000#32))
        (broadcastInDim S1 ![] bcast_S_S1 (constantI S_ 32 0#32))
        x (ix1 n)
      = bfPad (fun n => x (ix1 n)) n := by
  have hidx : ∀ q, (broadcastInDim S1 ![] bcast_S_S1 (constantI S_ 32 0#32) : IVec S1 32) q = 0#32 := fun _ => rfl
  unfold bfPad
  by_cases h : n.val < 2
  · rw [dif_pos h]
    refine scatter_hit _ _ _ _ (ix1 n) (ix1 ⟨n.val, h⟩) ?_ ?_
    · rw [padB_result _ _ hidx]
    · intro j hj
      rw [padB_result _ _ hidx] at hj
      have e0 : (j 0).val = n.val := congrArg Fin.val (congrFun (Option.some.inj hj) 0)
      funext a
      match a with
      | ⟨0, _⟩ => exact Fin.ext e0
  · rw [dif_neg h]
    refine (scatter_miss _ _ _ _ (ix1 n) ?_).trans ?_
    · intro j hj
      rw [padB_result _ _ hidx] at hj
      have e0 : (j 0).val = n.val := congrArg Fin.val (congrFun (Option.some.inj hj) 0)
      have h0 : (j 0).val < 2 := (j 0).isLt
      omega
    · show Ideal.ofBits .f32 0x00000000#32 = 0
      exact Ideal.ofBits_zero_f32

/-- Team one's projected table. -/
theorem V_EPa (c : Dev nD) (k : Fin 170) (o : Fin 50) :
    (V m c main_call0_v5 : S170x50.Idx → EReal) (ix2 k o)
      = embProj (fun k d => (m ((c : Thread nD τ).loc main_arg1) : S170x50.Idx → EReal) (ix2 k d))
          (fun o d => (m ((c : Thread nD τ).loc main_arg2) : S50x51.Idx → EReal) (ix2 o d)) k o := by
  have e : @Eq (S170x50.Idx → EReal) (V m c main_call0_v5)
      (truncf (F := Ideal) .bf16 (Host.dotGeneral (F := Ideal) (φ₁ := .f32) (φ₂ := .f32) dot_S170x50_S50x50_S170x50_1_0_0_1_n_n none
        (m ((c : Thread nD τ).loc main_arg1) : S170x50.Idx → EReal)
        (transpose S50x50 [1, 0] (extractStridedSlice S50x50 ![0, 0] (m ((c : Thread nD τ).loc main_arg2) : S50x51.Idx → EReal) slices_S50x51_S50x50_0_0) transposes_S50x50_S50x50_1_0)) bitsLt_bf16_f32) := by
    dsimp only [Gen.V, Gen.hostOps0]; after_results; rfl
  rw [e]
  exact proj_apply _ _ k o

/-- Team one's rating column of the first layer. -/
theorem V_wga (c : Dev nD) (o : Fin 50) :
    (V m c main_call0_v2 : S50.Idx → EReal) (ix1 o) = (m ((c : Thread nD τ).loc main_arg2) : S50x51.Idx → EReal) (ix2 o ⟨50, by omega⟩) := by
  have e : @Eq (S50.Idx → EReal) (V m c main_call0_v2)
      (shapeCast S50 (extractStridedSlice S50x1 ![0, 50] (m ((c : Thread nD τ).loc main_arg2) : S50x51.Idx → EReal) slices_S50x51_S50x1_0_50) shapeCasts_S50x1_S50) := by
    dsimp only [Gen.V, Gen.hostOps0]; after_results; rfl
  rw [e]
  exact col50 _ o

/-- Team one's second layer, transposed. -/
theorem V_W2Ta (c : Dev nD) (o : Fin 50) (p : Fin 25) :
    (V m c main_call0_v7 : S50x25.Idx → EReal) (ix2 o p) = (m ((c : Thread nD τ).loc main_arg4) : S25x50.Idx → EReal) (ix2 p o) := by
  have e : @Eq (S50x25.Idx → EReal) (V m c main_call0_v7)
      (truncf (F := Ideal) .bf16 (transpose S50x25 [1, 0] (m ((c : Thread nD τ).loc main_arg4) : S25x50.Idx → EReal) transposes_S25x50_S50x25_1_0) bitsLt_bf16_f32) := by
    dsimp only [Gen.V, Gen.hostOps0]; after_results; rfl
  rw [e]
  exact tr_25x50 _ o p

/-- Team one's third layer, transposed. -/
theorem V_W3Ta (c : Dev nD) (p : Fin 25) (q : Fin 10) :
    (V m c main_call0_v9 : S25x10.Idx → EReal) (ix2 p q) = (m ((c : Thread nD τ).loc main_arg6) : S10x25.Idx → EReal) (ix2 q p) := by
  have e : @Eq (S25x10.Idx → EReal) (V m c main_call0_v9)
      (truncf (F := Ideal) .bf16 (transpose S25x10 [1, 0] (m ((c : Thread nD τ).loc main_arg6) : S10x25.Idx → EReal) transposes_S10x25_S25x10_1_0) bitsLt_bf16_f32) := by
    dsimp only [Gen.V, Gen.hostOps0]; after_results; rfl
  rw [e]
  exact tr_10x25 _ p q

/-- Team two's projected table. -/
theorem V_EPb (c : Dev nD) (k : Fin 170) (o : Fin 50) :
    (V m c main_call0_v15 : S170x50.Idx → EReal) (ix2 k o)
      = embProj (fun k d => (m ((c : Thread nD τ).loc main_arg1) : S170x50.Idx → EReal) (ix2 k d))
          (fun o d => (m ((c : Thread nD τ).loc main_arg8) : S50x51.Idx → EReal) (ix2 o d)) k o := by
  have e : @Eq (S170x50.Idx → EReal) (V m c main_call0_v15)
      (truncf (F := Ideal) .bf16 (Host.dotGeneral (F := Ideal) (φ₁ := .f32) (φ₂ := .f32) dot_S170x50_S50x50_S170x50_1_0_0_1_n_n none
        (m ((c : Thread nD τ).loc main_arg1) : S170x50.Idx → EReal)
        (transpose S50x50 [1, 0] (extractStridedSlice S50x50 ![0, 0] (m ((c : Thread nD τ).loc main_arg8) : S50x51.Idx → EReal) slices_S50x51_S50x50_0_0) transposes_S50x50_S50x50_1_0)) bitsLt_bf16_f32) := by
    dsimp only [Gen.V, Gen.hostOps0]; after_results; rfl
  rw [e]
  exact proj_apply _ _ k o

/-- Team two's rating column of the first layer. -/
theorem V_wgb (c : Dev nD) (o : Fin 50) :
    (V m c main_call0_v12 : S50.Idx → EReal) (ix1 o) = (m ((c : Thread nD τ).loc main_arg8) : S50x51.Idx → EReal) (ix2 o ⟨50, by omega⟩) := by
  have e : @Eq (S50.Idx → EReal) (V m c main_call0_v12)
      (shapeCast S50 (extractStridedSlice S50x1 ![0, 50] (m ((c : Thread nD τ).loc main_arg8) : S50x51.Idx → EReal) slices_S50x51_S50x1_0_50) shapeCasts_S50x1_S50) := by
    dsimp only [Gen.V, Gen.hostOps0]; after_results; rfl
  rw [e]
  exact col50 _ o

/-- Team two's second layer, transposed. -/
theorem V_W2Tb (c : Dev nD) (o : Fin 50) (p : Fin 25) :
    (V m c main_call0_v17 : S50x25.Idx → EReal) (ix2 o p) = (m ((c : Thread nD τ).loc main_arg10) : S25x50.Idx → EReal) (ix2 p o) := by
  have e : @Eq (S50x25.Idx → EReal) (V m c main_call0_v17)
      (truncf (F := Ideal) .bf16 (transpose S50x25 [1, 0] (m ((c : Thread nD τ).loc main_arg10) : S25x50.Idx → EReal) transposes_S25x50_S50x25_1_0) bitsLt_bf16_f32) := by
    dsimp only [Gen.V, Gen.hostOps0]; after_results; rfl
  rw [e]
  exact tr_25x50 _ o p

/-- Team two's third layer, transposed. -/
theorem V_W3Tb (c : Dev nD) (p : Fin 25) (q : Fin 10) :
    (V m c main_call0_v19 : S25x10.Idx → EReal) (ix2 p q) = (m ((c : Thread nD τ).loc main_arg12) : S10x25.Idx → EReal) (ix2 q p) := by
  have e : @Eq (S25x10.Idx → EReal) (V m c main_call0_v19)
      (truncf (F := Ideal) .bf16 (transpose S25x10 [1, 0] (m ((c : Thread nD τ).loc main_arg12) : S10x25.Idx → EReal) transposes_S10x25_S25x10_1_0) bitsLt_bf16_f32) := by
    dsimp only [Gen.V, Gen.hostOps0]; after_results; rfl
  rw [e]
  exact tr_10x25 _ p q

attribute [local irreducible] Host.scatter

/-- The last linear map, transposed and padded with zero columns. -/
theorem V_WfT (c : Dev nD) (k : Fin 100) (n : Fin 128) :
    (V m c main_call0_v24 : S100x128.Idx → EReal) (ix2 k n)
      = wfPad (fun n k => (m ((c : Thread nD τ).loc main_arg14) : S2x100.Idx → EReal) (ix2 n k)) k n := by
  have e : @Eq (S100x128.Idx → EReal) (V m c main_call0_v24)
      (Host.scatter scatter_S100x128_S1_S100x2_01_n_1_0 (fun _ b => b)
        (broadcastInDim S100x128 ![] bcast_S_S100x128 (constant (F := Ideal) S_ .bf16 0x0000#16))
        (broadcastInDim S1 ![] bcast_S_S1 (constantI S_ 32 0#32))
        (truncf (F := Ideal) .bf16 (transpose S100x2 [1, 0] (m ((c : Thread nD τ).loc main_arg14) : S2x100.Idx → EReal) transposes_S2x100_S100x2_1_0) bitsLt_bf16_f32)) := by
    dsimp only [Gen.V, Gen.hostOps0]; after_results; rfl
  rw [e]
  exact padW_apply _ k n

/-- Its bias, padded with zeros. -/
theorem V_bfp (c : Dev nD) (n : Fin 128) :
    (V m c main_call0_v27 : S128.Idx → EReal) (ix1 n) = bfPad (fun n => (m ((c : Thread nD τ).loc main_arg15) : S2.Idx → EReal) (ix1 n)) n := by
  have e : @Eq (S128.Idx → EReal) (V m c main_call0_v27)
      (Host.scatter scatter_S128_S1_S2_0_n_0_0 (fun _ b => b)
        (broadcastInDim S128 ![] bcast_S_S128 (constant (F := Ideal) S_ .f32 0x00000000#32))
        (broadcastInDim S1 ![] bcast_S_S1 (constantI S_ 32 0#32))
        (m ((c : Thread nD τ).loc main_arg15) : S2.Idx → EReal)) := by
    dsimp only [Gen.V, Gen.hostOps0]; after_results; rfl
  rw [e]
  exact padB_apply _ n

end Cert.KernelIdeal.HostSide

end
-- ==== Proof.Law.lean ====
/-
  The two arrangements of one output row are one number.
-/
import proofs.«419752_j1864015806631_3_alg».proof.Proof.Spec

noncomputable section

namespace Cert.TeamMlp

open Idealize.ShloMosaic

/-- The first layer: the 51-term sum over the embedding row followed by the rating is the 50-term sum over the embedding
    row plus the rating's own term. -/
private theorem layer1_eq (emb : Fin 170 → Fin 50 → EReal) (W1 : Fin 50 → Fin 51 → EReal) (b1 : Fin 50 → EReal)
    (i : Fin 170) (g : EReal) (o : Fin 50) :
    embProj emb W1 i o + (g * W1 o ⟨50, by omega⟩ + b1 o) = (∑ d : Fin 51, x51 emb i g d * W1 o d) + b1 o := by
  have e1 : (∑ d : Fin 50, x51 emb i g d.castSucc * W1 o d.castSucc) = embProj emb W1 i o := by
    unfold embProj
    refine Finset.sum_congr rfl (fun d _ => ?_)
    have hx : x51 emb i g d.castSucc = emb i d := by
      unfold x51
      rw [dif_pos (show d.castSucc.val < 50 from d.isLt)]
      rfl
    rw [hx]
    rfl
  have e2 : x51 emb i g (Fin.last 50) = g := by
    unfold x51
    rw [dif_neg (show ¬ (Fin.last 50).val < 50 by simp)]
  rw [Fin.sum_univ_castSucc, e1, e2, add_assoc]
  rfl

/-- One champion through the kernel's perceptron, over the operands computed from the reference's weights, is the
    reference's perceptron. -/
private theorem team_eq (emb : Fin 170 → Fin 50 → EReal) (W1 : Fin 50 → Fin 51 → EReal) (b1 : Fin 50 → EReal)
    (W2 : Fin 25 → Fin 50 → EReal) (b2 : Fin 25 → EReal) (W3 : Fin 10 → Fin 25 → EReal) (b3 : Fin 10 → EReal)
    (i : Fin 170) (g : EReal) (q : Fin 10) :
    teamK (embProj emb W1) (fun o => W1 o ⟨50, by omega⟩) b1 (fun o p => W2 p o) b2 (fun p q => W3 q p) b3 i g q
      = teamR emb W1 b1 W2 b2 W3 b3 i g q := by
  unfold teamK teamR
  simp only [layer1_eq]

/-- A sum of ten terms written out. -/
private theorem sum10 (S : Fin 10 → EReal) :
    ∑ c, S c = S 0 + S 1 + S 2 + S 3 + S 4 + S 5 + S 6 + S 7 + S 8 + S 9 := by
  rw [Fin.sum_univ_castSucc, Fin.sum_univ_castSucc, Fin.sum_univ_eight]
  rfl

/-- A sum over a hundred indices as ten blocks of ten. -/
private theorem sum_blocks (f : Fin 100 → EReal) :
    ∑ k, f k = ∑ c : Fin 10, ∑ j : Fin 10, f ⟨10 * c.val + j.val, by omega⟩ := by
  have h := (finProdFinEquiv : Fin 10 × Fin 10 ≃ Fin 100).sum_comp f
  rw [← h, Fintype.sum_prod_type]
  refine Finset.sum_congr rfl (fun c _ => Finset.sum_congr rfl (fun j _ => ?_))
  congr 1
  apply Fin.ext
  show j.val + 10 * c.val = 10 * c.val + j.val
  omega

/-- The padded last linear map read at one of its two real columns. -/
private theorem wfPad_apply (Wf : Fin 2 → Fin 100 → EReal) (k : Fin 100) (n : Fin 2) :
    wfPad Wf k ⟨n.val, by omega⟩ = Wf n k := by
  unfold wfPad
  rw [dif_pos (show (⟨n.val, by omega⟩ : Fin 128).val < 2 from n.isLt)]

/-- The padded bias read at one of its two real columns. -/
private theorem bfPad_apply (bf : Fin 2 → EReal) (n : Fin 2) :
    bfPad bf ⟨n.val, by omega⟩ = bf n := by
  unfold bfPad
  rw [dif_pos (show (⟨n.val, by omega⟩ : Fin 128).val < 2 from n.isLt)]

/-- Entry `10 c + j` of the first half of the concatenation is team one's channel `c`, column `j`. -/
private theorem catR_lo (x : Fin 12 → EReal) (emb : Fin 170 → Fin 50 → EReal)
    (W1a : Fin 50 → Fin 51 → EReal) (b1a : Fin 50 → EReal) (W2a : Fin 25 → Fin 50 → EReal) (b2a : Fin 25 → EReal)
    (W3a : Fin 10 → Fin 25 → EReal) (b3a : Fin 10 → EReal)
    (W1b : Fin 50 → Fin 51 → EReal) (b1b : Fin 50 → EReal) (W2b : Fin 25 → Fin 50 → EReal) (b2b : Fin 25 → EReal)
    (W3b : Fin 10 → Fin 25 → EReal) (b3b : Fin 10 → EReal)
    (c : Fin 5) (j : Fin 10) (k : Fin 100) (hk : k.val = 10 * c.val + j.val) :
    catR x emb W1a b1a W2a b2a W3a b3a W1b b1b W2b b2b W3b b3b k
      = teamR emb W1a b1a W2a b2a W3a b3a (clipIdx (x ⟨2 + c.val, by omega⟩)) (x 0) j := by
  have hlt : k.val < 50 := by omega
  have e1 : (⟨2 + k.val / 10, by omega⟩ : Fin 12) = ⟨2 + c.val, by omega⟩ := Fin.ext (by show 2 + k.val / 10 = 2 + c.val; omega)
  have e2 : (⟨k.val % 10, Nat.mod_lt _ (by omega)⟩ : Fin 10) = j := Fin.ext (by show k.val % 10 = j.val; omega)
  unfold catR
  rw [dif_pos hlt, e1, e2]

/-- Entry `50 + 10 c + j` of the concatenation is team two's channel `c`, column `j`. -/
private theorem catR_hi (x : Fin 12 → EReal) (emb : Fin 170 → Fin 50 → EReal)
    (W1a : Fin 50 → Fin 51 → EReal) (b1a : Fin 50 → EReal) (W2a : Fin 25 → Fin 50 → EReal) (b2a : Fin 25 → EReal)
    (W3a : Fin 10 → Fin 25 → EReal) (b3a : Fin 10 → EReal)
    (W1b : Fin 50 → Fin 51 → EReal) (b1b : Fin 50 → EReal) (W2b : Fin 25 → Fin 50 → EReal) (b2b : Fin 25 → EReal)
    (W3b : Fin 10 → Fin 25 → EReal) (b3b : Fin 10 → EReal)
    (c : Fin 5) (j : Fin 10) (k : Fin 100) (hk : k.val = 50 + 10 * c.val + j.val) :
    catR x emb W1a b1a W2a b2a W3a b3a W1b b1b W2b b2b W3b b3b k
      = teamR emb W1b b1b W2b b2b W3b b3b (clipIdx (x ⟨7 + c.val, by omega⟩)) (x 1) j := by
  have hlt : ¬ k.val < 50 := by omega
  have e1 : (⟨7 + (k.val - 50) / 10, by omega⟩ : Fin 12) = ⟨7 + c.val, by omega⟩ :=
    Fin.ext (by show 7 + (k.val - 50) / 10 = 7 + c.val; omega)
  have e2 : (⟨(k.val - 50) % 10, Nat.mod_lt _ (by omega)⟩ : Fin 10) = j :=
    Fin.ext (by show (k.val - 50) % 10 = j.val; omega)
  unfold catR
  rw [dif_neg hlt, e1, e2]

/-- A sum over a hundred indices in the kernel's order: two accumulators of five blocks of ten, each started at zero. -/
private theorem sum100 (f : Fin 100 → EReal) :
    ∑ k, f k =
      (((((0 + ∑ j : Fin 10, f ⟨0 + j.val, by omega⟩)
        + ∑ j : Fin 10, f ⟨0 + 10 + j.val, by omega⟩)
        + ∑ j : Fin 10, f ⟨0 + 20 + j.val, by omega⟩)
        + ∑ j : Fin 10, f ⟨0 + 30 + j.val, by omega⟩)
        + ∑ j : Fin 10, f ⟨0 + 40 + j.val, by omega⟩)
      + (((((0 + ∑ j : Fin 10, f ⟨50 + j.val, by omega⟩)
        + ∑ j : Fin 10, f ⟨50 + 10 + j.val, by omega⟩)
        + ∑ j : Fin 10, f ⟨50 + 20 + j.val, by omega⟩)
        + ∑ j : Fin 10, f ⟨50 + 30 + j.val, by omega⟩)
        + ∑ j : Fin 10, f ⟨50 + 40 + j.val, by omega⟩) := by
  have hb : ∀ (c : Fin 10) (a : Nat) (ha : a = 10 * c.val),
      (∑ j : Fin 10, f ⟨10 * c.val + j.val, by omega⟩) = ∑ j : Fin 10, f ⟨a + j.val, by omega⟩ := by
    intro c a ha
    subst ha
    rfl
  rw [sum_blocks, sum10]
  rw [hb 0 0 rfl, hb 1 (0 + 10) rfl, hb 2 (0 + 20) rfl, hb 3 (0 + 30) rfl, hb 4 (0 + 40) rfl,
    hb 5 50 rfl, hb 6 (50 + 10) rfl, hb 7 (50 + 20) rfl, hb 8 (50 + 30) rfl, hb 9 (50 + 40) rfl]
  simp only [zero_add, add_assoc]

/-- One block of ten of team one's share: the kernel's terms are the reference's. -/
private theorem blockA (x : Fin 12 → EReal) (emb : Fin 170 → Fin 50 → EReal)
    (W1a : Fin 50 → Fin 51 → EReal) (b1a : Fin 50 → EReal) (W2a : Fin 25 → Fin 50 → EReal) (b2a : Fin 25 → EReal)
    (W3a : Fin 10 → Fin 25 → EReal) (b3a : Fin 10 → EReal)
    (W1b : Fin 50 → Fin 51 → EReal) (b1b : Fin 50 → EReal) (W2b : Fin 25 → Fin 50 → EReal) (b2b : Fin 25 → EReal)
    (W3b : Fin 10 → Fin 25 → EReal) (b3b : Fin 10 → EReal)
    (Wf : Fin 2 → Fin 100 → EReal) (n : Fin 2) (c : Fin 5) (a : Nat) (ha : a = 10 * c.val) :
    (∑ j : Fin 10,
        teamK (embProj emb W1a) (fun o => W1a o ⟨50, by omega⟩) b1a (fun o p => W2a p o) b2a (fun p q => W3a q p) b3a
            (clipIdx (x ⟨2 + c.val, by omega⟩)) (x 0) j
          * wfPad Wf ⟨a + j.val, by omega⟩ ⟨n.val, by omega⟩)
      = ∑ j : Fin 10,
          catR x emb W1a b1a W2a b2a W3a b3a W1b b1b W2b b2b W3b b3b ⟨a + j.val, by omega⟩ * Wf n ⟨a + j.val, by omega⟩ := by
  refine Finset.sum_congr rfl (fun j _ => ?_)
  rw [team_eq, wfPad_apply,
    catR_lo x emb W1a b1a W2a b2a W3a b3a W1b b1b W2b b2b W3b b3b c j ⟨a + j.val, by omega⟩
      (by show a + j.val = 10 * c.val + j.val; omega)]

/-- One block of ten of team two's share. -/
private theorem blockB (x : Fin 12 → EReal) (emb : Fin 170 → Fin 50 → EReal)
    (W1a : Fin 50 → Fin 51 → EReal) (b1a : Fin 50 → EReal) (W2a : Fin 25 → Fin 50 → EReal) (b2a : Fin 25 → EReal)
    (W3a : Fin 10 → Fin 25 → EReal) (b3a : Fin 10 → EReal)
    (W1b : Fin 50 → Fin 51 → EReal) (b1b : Fin 50 → EReal) (W2b : Fin 25 → Fin 50 → EReal) (b2b : Fin 25 → EReal)
    (W3b : Fin 10 → Fin 25 → EReal) (b3b : Fin 10 → EReal)
    (Wf : Fin 2 → Fin 100 → EReal) (n : Fin 2) (c : Fin 5) (a : Nat) (ha : a = 50 + 10 * c.val) :
    (∑ j : Fin 10,
        teamK (embProj emb W1b) (fun o => W1b o ⟨50, by omega⟩) b1b (fun o p => W2b p o) b2b (fun p q => W3b q p) b3b
            (clipIdx (x ⟨7 + c.val, by omega⟩)) (x 1) j
          * wfPad Wf ⟨a + j.val, by omega⟩ ⟨n.val, by omega⟩)
      = ∑ j : Fin 10,
          catR x emb W1a b1a W2a b2a W3a b3a W1b b1b W2b b2b W3b b3b ⟨a + j.val, by omega⟩ * Wf n ⟨a + j.val, by omega⟩ := by
  refine Finset.sum_congr rfl (fun j _ => ?_)
  rw [team_eq, wfPad_apply,
    catR_hi x emb W1a b1a W2a b2a W3a b3a W1b b1b W2b b2b W3b b3b c j ⟨a + j.val, by omega⟩
      (by show a + j.val = 50 + 10 * c.val + j.val; omega)]

/-- Five blocks added one after the other into zero agree when the blocks agree. -/
private theorem acc5_congr {a b c d e a' b' c' d' e' : EReal} (ha : a = a') (hb : b = b') (hc : c = c') (hd : d = d')
    (he : e = e') : ((((0 + a) + b) + c) + d) + e = ((((0 + a') + b') + c') + d') + e' := by
  rw [ha, hb, hc, hd, he]

/-- The kernel's row over the operands its wrapper computes from the arguments is the reference's row. -/
theorem kerRow_eq_refRow (x : Fin 12 → EReal) (emb : Fin 170 → Fin 50 → EReal)
    (W1a : Fin 50 → Fin 51 → EReal) (b1a : Fin 50 → EReal) (W2a : Fin 25 → Fin 50 → EReal) (b2a : Fin 25 → EReal)
    (W3a : Fin 10 → Fin 25 → EReal) (b3a : Fin 10 → EReal)
    (W1b : Fin 50 → Fin 51 → EReal) (b1b : Fin 50 → EReal) (W2b : Fin 25 → Fin 50 → EReal) (b2b : Fin 25 → EReal)
    (W3b : Fin 10 → Fin 25 → EReal) (b3b : Fin 10 → EReal)
    (Wf : Fin 2 → Fin 100 → EReal) (bf : Fin 2 → EReal) (n : Fin 2) :
    kerRow x (embProj emb W1a) (fun o => W1a o ⟨50, by omega⟩) b1a (fun o p => W2a p o) b2a (fun p q => W3a q p) b3a
        (embProj emb W1b) (fun o => W1b o ⟨50, by omega⟩) b1b (fun o p => W2b p o) b2b (fun p q => W3b q p) b3b
        (wfPad Wf) (bfPad bf) ⟨n.val, by omega⟩
      = refRow x emb W1a b1a W2a b2a W3a b3a W1b b1b W2b b2b W3b b3b Wf bf n := by
  unfold kerRow refRow accK
  rw [bfPad_apply, sum100]
  refine congrArg (fun s => s + bf n) ?_
  refine congrArg₂ (fun s t => s + t) ?_ ?_
  · exact acc5_congr
      (blockA x emb W1a b1a W2a b2a W3a b3a W1b b1b W2b b2b W3b b3b Wf n 0 0 rfl)
      (blockA x emb W1a b1a W2a b2a W3a b3a W1b b1b W2b b2b W3b b3b Wf n 1 (0 + 10) rfl)
      (blockA x emb W1a b1a W2a b2a W3a b3a W1b b1b W2b b2b W3b b3b Wf n 2 (0 + 20) rfl)
      (blockA x emb W1a b1a W2a b2a W3a b3a W1b b1b W2b b2b W3b b3b Wf n 3 (0 + 30) rfl)
      (blockA x emb W1a b1a W2a b2a W3a b3a W1b b1b W2b b2b W3b b3b Wf n 4 (0 + 40) rfl)
  · exact acc5_congr
      (blockB x emb W1a b1a W2a b2a W3a b3a W1b b1b W2b b2b W3b b3b Wf n 0 50 rfl)
      (blockB x emb W1a b1a W2a b2a W3a b3a W1b b1b W2b b2b W3b b3b Wf n 1 (50 + 10) rfl)
      (blockB x emb W1a b1a W2a b2a W3a b3a W1b b1b W2b b2b W3b b3b Wf n 2 (50 + 20) rfl)
      (blockB x emb W1a b1a W2a b2a W3a b3a W1b b1b W2b b2b W3b b3b Wf n 3 (50 + 30) rfl)
      (blockB x emb W1a b1a W2a b2a W3a b3a W1b b1b W2b b2b W3b b3b Wf n 4 (50 + 40) rfl)

end Cert.TeamMlp

end
-- ==== Proof.Whole.lean ====
/-
  The whole result array: row `b`, column `n` of the result is the reference's row function `refRow` of row `b` of
  `features` and the other arguments, all read by coordinates.
-/
import Idealize.ShloMosaic.Lib.ValueIdx
import proofs.«419752_j1864015806631_3_alg».proof.Proof.Spec

noncomputable section

namespace Cert.TeamMlp

open Idealize.ShloMosaic Idealize.ShloMosaic.ValueIdx

/-- A rank-two array of extended reals. -/
abbrev A2 (a b : Nat) : Type := (⟨2, ![a, b]⟩ : Shape).Idx → EReal
/-- A rank-one array of extended reals. -/
abbrev A1 (a : Nat) : Type := (⟨1, ![a]⟩ : Shape).Idx → EReal

/-- The result array as one function of the sixteen argument arrays. -/
def G (f : A2 262144 12) (emb : A2 170 50) (W1a : A2 50 51) (b1a : A1 50) (W2a : A2 25 50) (b2a : A1 25) (W3a : A2 10 25) (b3a : A1 10)
    (W1b : A2 50 51) (b1b : A1 50) (W2b : A2 25 50) (b2b : A1 25) (W3b : A2 10 25) (b3b : A1 10) (Wf : A2 2 100) (bf : A1 2) : A2 262144 2 :=
  fun i => refRow (fun j => f (ix2 (i 0) j)) (fun k d => emb (ix2 k d))
    (fun o d => W1a (ix2 o d)) (fun o => b1a (ix1 o)) (fun p o => W2a (ix2 p o)) (fun p => b2a (ix1 p)) (fun q p => W3a (ix2 q p)) (fun q => b3a (ix1 q))
    (fun o d => W1b (ix2 o d)) (fun o => b1b (ix1 o)) (fun p o => W2b (ix2 p o)) (fun p => b2b (ix1 p)) (fun q p => W3b (ix2 q p)) (fun q => b3b (ix1 q))
    (fun n k => Wf (ix2 n k)) (fun n => bf (ix1 n)) (i 1)

end Cert.TeamMlp

end
-- ==== Proof.KBlocks.lean ====
/-
  From what each grid point writes back to the whole result array.

  The grid has 128 points; point `t` reads rows `2048 t … 2048 t + 2047` of `features` and every other operand whole, and
  writes rows `2048 t … 2048 t + 2047` of the result. So entry `(r, n)` of the block point `t` writes is the kernel's row
  function of row `2048 t + r` of `features` and the launch operands, which by the law between the two arrangements is the
  reference's row function, that is, entry `(2048 t + r, n)` of `G`. The 128 blocks tile the result (row `i` lies in the
  block of point `i / 2048`), hence the array ends holding `G`.
-/
import proofs.«419752_j1864015806631_3_alg».proof.Proof.Gen.KernelIdeal.Value
import proofs.«419752_j1864015806631_3_alg».proof.Proof.KBody
import proofs.«419752_j1864015806631_3_alg».proof.Proof.KHost
import proofs.«419752_j1864015806631_3_alg».proof.Proof.Law
import proofs.«419752_j1864015806631_3_alg».proof.Proof.Whole

noncomputable section

namespace Cert.KernelIdeal.Blocks

open Cert.KernelIdeal Cert.KernelIdeal.Gen Cert.KernelIdeal.Value Cert.KernelIdeal.Layers Cert.KernelIdeal.HostSide
open Idealize.ShloMosaic Idealize.ShloMosaic.TcCoe Idealize.ShloMosaic.ValueIdx Idealize.SL.Sem Cert.TeamMlp
open Idealize.ShloMosaic.Pipeline (Dat)

variable (m : (ℓ : Loc nD τ sig) → Buf (Elt Ideal) ℓ) (ρ : Dev nD → PrngReg)

/-- The array the kernel should leave: `G` of the argument arrays as launched. -/
def Gm (c : Dev nD) : S262144x2.Idx → EReal :=
  G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))

theorem lt128 (t : Fin cfg0.N) : t.val < 128 := by
  have h : t.val < grid0.N := t.isLt
  rwa [N_0] at h

/-- The printed index maps over the grid: the features window and the result window move one block of rows per point,
    every other window stays at block zero. -/
theorem idx_facts : ∀ t : Fin cfg0.N,
    win0_0.index t (0 : Fin 2) = t.val
    ∧ win0_0.index t (1 : Fin 2) = 0
    ∧ win0_17.index t (0 : Fin 2) = t.val
    ∧ win0_17.index t (1 : Fin 2) = 0
    ∧ win0_1.index t (0 : Fin 2) = 0
    ∧ win0_1.index t (1 : Fin 2) = 0
    ∧ win0_2.index t (0 : Fin 1) = 0
    ∧ win0_3.index t (0 : Fin 1) = 0
    ∧ win0_4.index t (0 : Fin 2) = 0
    ∧ win0_4.index t (1 : Fin 2) = 0
    ∧ win0_5.index t (0 : Fin 1) = 0
    ∧ win0_6.index t (0 : Fin 2) = 0
    ∧ win0_6.index t (1 : Fin 2) = 0
    ∧ win0_7.index t (0 : Fin 1) = 0
    ∧ win0_8.index t (0 : Fin 2) = 0
    ∧ win0_8.index t (1 : Fin 2) = 0
    ∧ win0_9.index t (0 : Fin 1) = 0
    ∧ win0_10.index t (0 : Fin 1) = 0
    ∧ win0_11.index t (0 : Fin 2) = 0
    ∧ win0_11.index t (1 : Fin 2) = 0
    ∧ win0_12.index t (0 : Fin 1) = 0
    ∧ win0_13.index t (0 : Fin 2) = 0
    ∧ win0_13.index t (1 : Fin 2) = 0
    ∧ win0_14.index t (0 : Fin 1) = 0
    ∧ win0_15.index t (0 : Fin 2) = 0
    ∧ win0_15.index t (1 : Fin 2) = 0
    ∧ win0_16.index t (0 : Fin 1) = 0 :=
  (by decide +kernel : ∀ t : Fin grid0.N, _)

/-- Row `r` of the features block at point `t` is row `2048 t + r` of `features`. -/
theorem blk0 (c : Dev nD) (t : Fin cfg0.N) (r : Fin 2048) (j : Fin 12) :
    iblk m c 0 t (ix2 r j) = (m ((c : Thread nD τ).loc main_arg0) : S262144x12.Idx → EReal) (ix2 ⟨2048 * t.val + r.val, by have := lt128 t; omega⟩ j) := by
  show V m c main_arg0 (((cfg0.win 0).blk t).view.emb (ix2 r j)) = _
  rw [V_main_arg0]
  refine congrArg _ ?_
  have h := idx_facts t
  funext x; apply Fin.ext
  match x with
  | ⟨0, _⟩ => show win0_0.index t (0 : Fin 2) * 2048 + 1 * r.val = 2048 * t.val + r.val; omega
  | ⟨1, _⟩ => show win0_0.index t (1 : Fin 2) * 12 + 1 * j.val = j.val; omega

/-! Every other window's block is its whole array. -/

theorem blk1 (c : Dev nD) (t : Fin cfg0.N) (a : Fin 170) (b : Fin 50) :
    iblk m c 1 t (ix2 a b) = (V m c main_call0_v5 : S170x50.Idx → EReal) (ix2 a b) := by
  show V m c main_call0_v5 (((cfg0.win 1).blk t).view.emb (ix2 a b)) = _
  refine congrArg _ ?_
  have h := idx_facts t
  funext x; apply Fin.ext
  match x with
  | ⟨0, _⟩ => show win0_1.index t (0 : Fin 2) * 170 + 1 * a.val = a.val; omega
  | ⟨1, _⟩ => show win0_1.index t (1 : Fin 2) * 50 + 1 * b.val = b.val; omega

theorem blk2 (c : Dev nD) (t : Fin cfg0.N) (a : Fin 50) :
    iblk m c 2 t (ix1 a) = (V m c main_call0_v2 : S50.Idx → EReal) (ix1 a) := by
  show V m c main_call0_v2 (((cfg0.win 2).blk t).view.emb (ix1 a)) = _
  refine congrArg _ ?_
  have h := idx_facts t
  funext x; apply Fin.ext
  match x with
  | ⟨0, _⟩ => show win0_2.index t (0 : Fin 1) * 50 + 1 * a.val = a.val; omega

theorem blk3 (c : Dev nD) (t : Fin cfg0.N) (a : Fin 50) :
    iblk m c 3 t (ix1 a) = (V m c main_arg3 : S50.Idx → EReal) (ix1 a) := by
  show V m c main_arg3 (((cfg0.win 3).blk t).view.emb (ix1 a)) = _
  refine congrArg _ ?_
  have h := idx_facts t
  funext x; apply Fin.ext
  match x with
  | ⟨0, _⟩ => show win0_3.index t (0 : Fin 1) * 50 + 1 * a.val = a.val; omega

theorem blk4 (c : Dev nD) (t : Fin cfg0.N) (a : Fin 50) (b : Fin 25) :
    iblk m c 4 t (ix2 a b) = (V m c main_call0_v7 : S50x25.Idx → EReal) (ix2 a b) := by
  show V m c main_call0_v7 (((cfg0.win 4).blk t).view.emb (ix2 a b)) = _
  refine congrArg _ ?_
  have h := idx_facts t
  funext x; apply Fin.ext
  match x with
  | ⟨0, _⟩ => show win0_4.index t (0 : Fin 2) * 50 + 1 * a.val = a.val; omega
  | ⟨1, _⟩ => show win0_4.index t (1 : Fin 2) * 25 + 1 * b.val = b.val; omega

theorem blk5 (c : Dev nD) (t : Fin cfg0.N) (a : Fin 25) :
    iblk m c 5 t (ix1 a) = (V m c main_arg5 : S25.Idx → EReal) (ix1 a) := by
  show V m c main_arg5 (((cfg0.win 5).blk t).view.emb (ix1 a)) = _
  refine congrArg _ ?_
  have h := idx_facts t
  funext x; apply Fin.ext
  match x with
  | ⟨0, _⟩ => show win0_5.index t (0 : Fin 1) * 25 + 1 * a.val = a.val; omega

theorem blk6 (c : Dev nD) (t : Fin cfg0.N) (a : Fin 25) (b : Fin 10) :
    iblk m c 6 t (ix2 a b) = (V m c main_call0_v9 : S25x10.Idx → EReal) (ix2 a b) := by
  show V m c main_call0_v9 (((cfg0.win 6).blk t).view.emb (ix2 a b)) = _
  refine congrArg _ ?_
  have h := idx_facts t
  funext x; apply Fin.ext
  match x with
  | ⟨0, _⟩ => show win0_6.index t (0 : Fin 2) * 25 + 1 * a.val = a.val; omega
  | ⟨1, _⟩ => show win0_6.index t (1 : Fin 2) * 10 + 1 * b.val = b.val; omega

theorem blk7 (c : Dev nD) (t : Fin cfg0.N) (a : Fin 10) :
    iblk m c 7 t (ix1 a) = (V m c main_arg7 : S10.Idx → EReal) (ix1 a) := by
  show V m c main_arg7 (((cfg0.win 7).blk t).view.emb (ix1 a)) = _
  refine congrArg _ ?_
  have h := idx_facts t
  funext x; apply Fin.ext
  match x with
  | ⟨0, _⟩ => show win0_7.index t (0 : Fin 1) * 10 + 1 * a.val = a.val; omega

theorem blk8 (c : Dev nD) (t : Fin cfg0.N) (a : Fin 170) (b : Fin 50) :
    iblk m c 8 t (ix2 a b) = (V m c main_call0_v15 : S170x50.Idx → EReal) (ix2 a b) := by
  show V m c main_call0_v15 (((cfg0.win 8).blk t).view.emb (ix2 a b)) = _
  refine congrArg _ ?_
  have h := idx_facts t
  funext x; apply Fin.ext
  match x with
  | ⟨0, _⟩ => show win0_8.index t (0 : Fin 2) * 170 + 1 * a.val = a.val; omega
  | ⟨1, _⟩ => show win0_8.index t (1 : Fin 2) * 50 + 1 * b.val = b.val; omega

theorem blk9 (c : Dev nD) (t : Fin cfg0.N) (a : Fin 50) :
    iblk m c 9 t (ix1 a) = (V m c main_call0_v12 : S50.Idx → EReal) (ix1 a) := by
  show V m c main_call0_v12 (((cfg0.win 9).blk t).view.emb (ix1 a)) = _
  refine congrArg _ ?_
  have h := idx_facts t
  funext x; apply Fin.ext
  match x with
  | ⟨0, _⟩ => show win0_9.index t (0 : Fin 1) * 50 + 1 * a.val = a.val; omega

theorem blk10 (c : Dev nD) (t : Fin cfg0.N) (a : Fin 50) :
    iblk m c 10 t (ix1 a) = (V m c main_arg9 : S50.Idx → EReal) (ix1 a) := by
  show V m c main_arg9 (((cfg0.win 10).blk t).view.emb (ix1 a)) = _
  refine congrArg _ ?_
  have h := idx_facts t
  funext x; apply Fin.ext
  match x with
  | ⟨0, _⟩ => show win0_10.index t (0 : Fin 1) * 50 + 1 * a.val = a.val; omega

theorem blk11 (c : Dev nD) (t : Fin cfg0.N) (a : Fin 50) (b : Fin 25) :
    iblk m c 11 t (ix2 a b) = (V m c main_call0_v17 : S50x25.Idx → EReal) (ix2 a b) := by
  show V m c main_call0_v17 (((cfg0.win 11).blk t).view.emb (ix2 a b)) = _
  refine congrArg _ ?_
  have h := idx_facts t
  funext x; apply Fin.ext
  match x with
  | ⟨0, _⟩ => show win0_11.index t (0 : Fin 2) * 50 + 1 * a.val = a.val; omega
  | ⟨1, _⟩ => show win0_11.index t (1 : Fin 2) * 25 + 1 * b.val = b.val; omega

theorem blk12 (c : Dev nD) (t : Fin cfg0.N) (a : Fin 25) :
    iblk m c 12 t (ix1 a) = (V m c main_arg11 : S25.Idx → EReal) (ix1 a) := by
  show V m c main_arg11 (((cfg0.win 12).blk t).view.emb (ix1 a)) = _
  refine congrArg _ ?_
  have h := idx_facts t
  funext x; apply Fin.ext
  match x with
  | ⟨0, _⟩ => show win0_12.index t (0 : Fin 1) * 25 + 1 * a.val = a.val; omega

theorem blk13 (c : Dev nD) (t : Fin cfg0.N) (a : Fin 25) (b : Fin 10) :
    iblk m c 13 t (ix2 a b) = (V m c main_call0_v19 : S25x10.Idx → EReal) (ix2 a b) := by
  show V m c main_call0_v19 (((cfg0.win 13).blk t).view.emb (ix2 a b)) = _
  refine congrArg _ ?_
  have h := idx_facts t
  funext x; apply Fin.ext
  match x with
  | ⟨0, _⟩ => show win0_13.index t (0 : Fin 2) * 25 + 1 * a.val = a.val; omega
  | ⟨1, _⟩ => show win0_13.index t (1 : Fin 2) * 10 + 1 * b.val = b.val; omega

theorem blk14 (c : Dev nD) (t : Fin cfg0.N) (a : Fin 10) :
    iblk m c 14 t (ix1 a) = (V m c main_arg13 : S10.Idx → EReal) (ix1 a) := by
  show V m c main_arg13 (((cfg0.win 14).blk t).view.emb (ix1 a)) = _
  refine congrArg _ ?_
  have h := idx_facts t
  funext x; apply Fin.ext
  match x with
  | ⟨0, _⟩ => show win0_14.index t (0 : Fin 1) * 10 + 1 * a.val = a.val; omega

theorem blk15 (c : Dev nD) (t : Fin cfg0.N) (a : Fin 100) (b : Fin 128) :
    iblk m c 15 t (ix2 a b) = (V m c main_call0_v24 : S100x128.Idx → EReal) (ix2 a b) := by
  show V m c main_call0_v24 (((cfg0.win 15).blk t).view.emb (ix2 a b)) = _
  refine congrArg _ ?_
  have h := idx_facts t
  funext x; apply Fin.ext
  match x with
  | ⟨0, _⟩ => show win0_15.index t (0 : Fin 2) * 100 + 1 * a.val = a.val; omega
  | ⟨1, _⟩ => show win0_15.index t (1 : Fin 2) * 128 + 1 * b.val = b.val; omega

theorem blk16 (c : Dev nD) (t : Fin cfg0.N) (a : Fin 128) :
    iblk m c 16 t (ix1 a) = (V m c main_call0_v27 : S128.Idx → EReal) (ix1 a) := by
  show V m c main_call0_v27 (((cfg0.win 16).blk t).view.emb (ix1 a)) = _
  refine congrArg _ ?_
  have h := idx_facts t
  funext x; apply Fin.ext
  match x with
  | ⟨0, _⟩ => show win0_16.index t (0 : Fin 1) * 128 + 1 * a.val = a.val; omega

/-- Entry `(r, n)` of the block point `t` writes is entry `(2048 t + r, n)` of `G`. -/
theorem block_eq (c : Dev nD) (t : Fin cfg0.N) (r : Fin 2048) (n : Fin 2) :
    out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (ix2 r n)
      = Gm m c (ix2 ⟨2048 * t.val + r.val, by have := lt128 t; omega⟩ n) := by
  rw [body_row]
  simp only [blk0 m c t r, blk1 m c t, blk2 m c t, blk3 m c t, blk4 m c t, blk5 m c t, blk6 m c t, blk7 m c t, blk8 m c t, blk9 m c t, blk10 m c t, blk11 m c t, blk12 m c t, blk13 m c t, blk14 m c t, blk15 m c t, blk16 m c t,
    V_EPa m c, V_wga m c, V_W2Ta m c, V_W3Ta m c, V_EPb m c, V_wgb m c, V_W2Tb m c, V_W3Tb m c, V_WfT m c, V_bfp m c,
    V_main_arg3 m c, V_main_arg5 m c, V_main_arg7 m c, V_main_arg9 m c, V_main_arg11 m c, V_main_arg13 m c]
  exact kerRow_eq_refRow _ _ _ _ _ _ _ _ _ _ _ _ _ _ _ _ n

/-- The block point `t` writes, entry by entry, is `G` read through the result window's block at `t`. -/
theorem block_read (c : Dev nD) (t : Fin cfg0.N) (y : S2048x2.Idx) :
    out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) y = Gm m c (((cfg0.win 17).blk t).view.emb y) := by
  obtain ⟨r, n, rfl⟩ : ∃ (r : Fin 2048) (n : Fin 2), y = ix2 r n := ⟨y 0, y 1, eq_ix2 y⟩
  have h := idx_facts t
  have he : ((cfg0.win 17).blk t).view.emb (ix2 r n) = (ix2 ⟨2048 * t.val + r.val, by have := lt128 t; omega⟩ n : S262144x2.Idx) := by
    funext x; apply Fin.ext
    match x with
    | ⟨0, _⟩ => show win0_17.index t (0 : Fin 2) * 2048 + 1 * r.val = 2048 * t.val + r.val; omega
    | ⟨1, _⟩ => show win0_17.index t (1 : Fin 2) * 2 + 1 * n.val = n.val; omega
  rw [he]
  exact block_eq m c t r n

/-- WHAT POINT `t` WRITES BACK is block `t` of `G`. -/
theorem flushed_eq (c : Dev nD) (t : Fin cfg0.N) :
    (dats m 0 c).flushed 17 t = ((cfg0.win 17).blk t).view.read (Elt Ideal) (Gm m c) := by
  rw [flushed17]
  funext y
  exact block_read m c t y

/-- An index of the result is in point `t`'s block iff its row is one of the block's 2048 rows. -/
theorem mem_blk (t : Fin cfg0.N) (i : S262144x2.Idx) :
    i ∈ ((cfg0.win 17).blk t).view.set ↔ ∀ a : Fin 2, win0_17.index t a * S2048x2.size a ≤ (i a).val ∧ (i a).val < win0_17.index t a * S2048x2.size a + S2048x2.size a := by
  show i ∈ ((View.whole main_v0).slice (win0_17.rect t)).set ↔ _
  rw [View.set_slice_whole, Rect.mem_set_unit]
  exact Iff.rfl

/-- Every index of the result lies in the block of the point its row names. -/
theorem cover (i : S262144x2.Idx) : ∃ t : Fin cfg0.N, (cfg0.win 17).flush t = true ∧ i ∈ ((cfg0.win 17).blk t).view.set := by
  have hi0 : (i 0).val < 262144 := (i 0).isLt
  have hi1 : (i 1).val < 2 := (i 1).isLt
  have hlt : (i 0).val / 2048 < grid0.N := by rw [N_0]; omega
  refine ⟨⟨(i 0).val / 2048, hlt⟩, flush0_17 _, ?_⟩
  rw [mem_blk]
  have h := idx_facts ⟨(i 0).val / 2048, hlt⟩
  have e0 : win0_17.index ⟨(i 0).val / 2048, hlt⟩ (0 : Fin 2) = (i 0).val / 2048 := h.2.2.1
  have e1 : win0_17.index ⟨(i 0).val / 2048, hlt⟩ (1 : Fin 2) = 0 := h.2.2.2.1
  intro a
  match a with
  | ⟨0, _⟩ => show win0_17.index _ (0 : Fin 2) * 2048 ≤ (i 0).val ∧ (i 0).val < win0_17.index _ (0 : Fin 2) * 2048 + 2048; omega
  | ⟨1, _⟩ => show win0_17.index _ (1 : Fin 2) * 2 ≤ (i 1).val ∧ (i 1).val < win0_17.index _ (1 : Fin 2) * 2 + 2; omega

/-- THE ARRAY after the run is `G` of the arguments. -/
theorem final (c : Dev nD) : (dats m 0 c).arrAt 17 cfg0.N = Gm m c :=
  (dats m 0 c).arrAt_eq_of_cover 17 (Gm m c) (fun t _ => flushed_eq m c t) cover

/-- The kernel's run, its result array at `G` of the arguments and the arguments unchanged. -/
theorem run : θ_run defs (onTc (τ := τ) (main (F := Ideal))) ⟨m, fun _ => 0, ρ⟩ fun r => ∀ c : Dev nD,
      r.2.mem ((c : Thread nD τ).loc main_v0) = Gm m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15) :=
  (θ_run defs _ _).mono (fun r h c => ⟨(h c).1.trans (final m c), (h c).2⟩) (run_blocks m ρ)

end Cert.KernelIdeal.Blocks

end
-- ==== Proof.RefG.lean ====
/-
  The reference's result, read one operation at a time, is the whole-array function `G`: where every champion number
  truncates to a non-negative integer the reference's index arithmetic (a negative index counted from the table's end,
  then the gather's clamp) is the clip to `[0, 169]`, and the rest is the reference's own three layers and last
  linear map, entry by entry.
-/
import proofs.«419752_j1864015806631_3_alg».proof.Proof.Gen.ReferenceIdeal.Read
import proofs.«419752_j1864015806631_3_alg».proof.Proof.Whole

noncomputable section

namespace Cert.ReferenceIdeal.RefValue

open Cert.ReferenceIdeal Cert.ReferenceIdeal.Gen Cert.ReferenceIdeal.Read Idealize.ShloMosaic Idealize.ShloMosaic.ValueIdx Idealize.SL.Sem Cert.TeamMlp

/-- On the table's row axis the gather reads the start index, clamped into the table. -/
private theorem gather_axis0 (idx : IVec S262144x10x1 32) (b : Fin 262144) (s : Fin 10) (d : Fin 50) :
    (gather_S170x50_S262144x10x1_S262144x10x50_2_0_n_n_0_2_150.operandIdx (ix3 b s d) idx 0).val
      = min (idx (ix3 b s 0)).toInt.toNat 169 := by
  show gather_S170x50_S262144x10x1_S262144x10x50_2_0_n_n_0_2_150.start (ix3 b s d) idx 0
      + gather_S170x50_S262144x10x1_S262144x10x50_2_0_n_n_0_2_150.batchCoord (ix3 b s d) 0
      + gather_S170x50_S262144x10x1_S262144x10x50_2_0_n_n_0_2_150.offCoord (ix3 b s d) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin S170x50.rank) ∈ gather_S170x50_S262144x10x1_S262144x10x50_2_0_n_n_0_2_150.startIndexMap from List.mem_singleton.mpr rfl)]
  have hsi : gather_S170x50_S262144x10x1_S262144x10x50_2_0_n_n_0_2_150.siIdx (ix3 b s d)
      ⟨List.idxOf (0 : Fin S170x50.rank) gather_S170x50_S262144x10x1_S262144x10x50_2_0_n_n_0_2_150.startIndexMap,
        List.idxOf_lt_length_iff.2 (List.mem_singleton.mpr rfl)⟩ = ix3 b s 0 := by
    funext a; refine Fin.ext ?_
    match a with
    | ⟨0, _⟩ => rfl
    | ⟨1, _⟩ => rfl
    | ⟨2, _⟩ => rfl
  rw [hsi]
  rfl

/-- On the table's column axis the gather reads the result's last coordinate. -/
private theorem gather_axis1 (idx : IVec S262144x10x1 32) (b : Fin 262144) (s : Fin 10) (d : Fin 50) :
    (gather_S170x50_S262144x10x1_S262144x10x50_2_0_n_n_0_2_150.operandIdx (ix3 b s d) idx 1).val = d.val := by
  show gather_S170x50_S262144x10x1_S262144x10x50_2_0_n_n_0_2_150.start (ix3 b s d) idx 1
      + gather_S170x50_S262144x10x1_S262144x10x50_2_0_n_n_0_2_150.batchCoord (ix3 b s d) 1
      + gather_S170x50_S262144x10x1_S262144x10x50_2_0_n_n_0_2_150.offCoord (ix3 b s d) 1 = _
  rw [GatherDims.batchCoord_eq_zero _ _ _ List.not_mem_nil]
  unfold GatherDims.start
  rw [dif_neg (show ¬(1 : Fin S170x50.rank) ∈ gather_S170x50_S262144x10x1_S262144x10x50_2_0_n_n_0_2_150.startIndexMap by decide)]
  unfold GatherDims.offCoord
  rw [dif_pos (show (1 : Fin S170x50.rank) ∈ gather_S170x50_S262144x10x1_S262144x10x50_2_0_n_n_0_2_150.sKept by decide)]
  simp only [Nat.zero_add]
  rfl

/-- The gather at `(b, s, d)`: the table at the clamped start index's row, column `d`. -/
private theorem gather_apply (x : (⟨S170x50, .f32⟩ : BufTy).Contents (Elt Ideal)) (idx : IVec S262144x10x1 32) (b : Fin 262144) (s : Fin 10) (d : Fin 50)
    (v : BitVec 32) (hv : idx (ix3 b s 0) = v) :
    Host.gather gather_S170x50_S262144x10x1_S262144x10x50_2_0_n_n_0_2_150 x idx (ix3 b s d)
      = x (ix2 ⟨min v.toInt.toNat 169, by omega⟩ d) := by
  subst hv
  unfold Host.gather
  congr 1
  funext a
  refine Fin.ext ?_
  match a with
  | ⟨0, _⟩ => exact gather_axis0 idx b s d
  | ⟨1, _⟩ => exact gather_axis1 idx b s d

/-- A signed comparison `v < 0` of a word whose signed value is not negative gives the bit `0`. -/
private theorem cmpi_slt_zero (v : BitVec 32) (h : 0 ≤ v.toInt) : IntOp.cmpi .slt v 0#32 = 0#1 := by
  have hf : v.slt 0#32 = false := by
    rw [Bool.eq_false_iff]
    intro hs
    rw [BitVec.slt_iff_toInt_lt, BitVec.toInt_zero] at hs
    omega
  show BitVec.ofBool (v.slt 0#32) = 0#1
  rw [hf]
  rfl

/-- Where the champion number's integer part is not negative, the start index the gather reads at `(b, s)` is that
    integer part: the comparison with zero fails and the selection keeps the integer part as it is. -/
private theorem index_apply (x0 : (⟨S262144x12, .f32⟩ : BufTy).Contents (Elt Ideal)) (b : Fin 262144) (s : Fin 10)
    (h : 0 ≤ (Ideal.fptosi 32 (x0 (ix2 b ⟨2 + s.val, by omega⟩))).toInt) :
    val_main_v9 (F := Ideal) x0 (ix3 b s 0) = Ideal.fptosi 32 (x0 (ix2 b ⟨2 + s.val, by omega⟩)) := by
  have e9 : idx_main_v9 (ix3 b s (0 : Fin 1)) = ix2 b s := by
    funext a
    match a with
    | ⟨0, _⟩ => rfl
    | ⟨1, _⟩ => rfl
  have e2 : idx_main_v2 (ix2 b s) = ix2 b ⟨2 + s.val, by omega⟩ := by
    funext a
    match a with
    | ⟨0, _⟩ => rfl
    | ⟨1, _⟩ => rfl
  rw [val_main_v9_apply, e9, val_main_v8_apply, val_main_v5_apply, val_main_v3_apply, val_main_v4_apply, val_main_c_apply,
    val_main_v2_apply, e2]
  show Scalar.select (IntOp.cmpi .slt (Ideal.fptosi 32 (x0 (ix2 b ⟨2 + s.val, by omega⟩))) 0#32) _
      (Ideal.fptosi 32 (x0 (ix2 b ⟨2 + s.val, by omega⟩))) = _
  rw [cmpi_slt_zero _ h, select_zero]

/-- The gathered embedding at `(b, s, d)`: the table's row the champion number names, column `d`. -/
private theorem emb_apply (x0 : (⟨S262144x12, .f32⟩ : BufTy).Contents (Elt Ideal)) (x1 : (⟨S170x50, .f32⟩ : BufTy).Contents (Elt Ideal))
    (hpos : ∀ (b : Fin 262144) (s : Fin 10), 0 ≤ (Ideal.fptosi 32 (x0 (ix2 b ⟨2 + s.val, by omega⟩))).toInt)
    (b : Fin 262144) (s : Fin 10) (d : Fin 50) :
    val_main_v10 (F := Ideal) x0 x1 (ix3 b s d) = x1 (ix2 (clipIdx (x0 (ix2 b ⟨2 + s.val, by omega⟩))) d) := by
  unfold val_main_v10
  exact gather_apply x1 (val_main_v9 (F := Ideal) x0) b s d _ (index_apply x0 b s (hpos b s))

/-- Team one's first-layer input at `(b, c, d)`: the embedding row of champion `c`, then the team's rating. -/
private theorem in1_apply (x0 : (⟨S262144x12, .f32⟩ : BufTy).Contents (Elt Ideal)) (x1 : (⟨S170x50, .f32⟩ : BufTy).Contents (Elt Ideal))
    (hpos : ∀ (b : Fin 262144) (s : Fin 10), 0 ≤ (Ideal.fptosi 32 (x0 (ix2 b ⟨2 + s.val, by omega⟩))).toInt)
    (b : Fin 262144) (c : Fin 5) (d : Fin 51) :
    val_main_v14 (F := Ideal) x0 x1 (ix3 b c d)
      = x51 (fun k e => x1 (ix2 k e)) (clipIdx (x0 (ix2 b ⟨2 + c.val, by omega⟩))) (x0 (ix2 b 0)) d := by
  unfold val_main_v14 x51
  by_cases h : d.val < 50
  · rw [dif_pos h]
    refine (concatenate_pair_apply_left (2 : Fin S262144x5x51.rank) (val_main_v11 (F := Ideal) x0 x1) (val_main_v13 (F := Ideal) x0)
      concatenates_S262144x5x50_S262144x5x1_S262144x5x51_d2 (ix3 b c d) rfl (ix3 b c ⟨d.val, h⟩) (fun a => ?_)).trans ?_
    · match a with
      | ⟨0, _⟩ => rfl
      | ⟨1, _⟩ => rfl
      | ⟨2, _⟩ => rfl
    · have e11 : idx_main_v11 (ix3 b c (⟨d.val, h⟩ : Fin 50)) = ix3 b (⟨c.val, by omega⟩ : Fin 10) (⟨d.val, h⟩ : Fin 50) := by
        funext a
        match a with
        | ⟨0, _⟩ => rfl
        | ⟨1, _⟩ => rfl
        | ⟨2, _⟩ => rfl
      rw [val_main_v11_apply, e11]
      exact emb_apply x0 x1 hpos b ⟨c.val, by omega⟩ ⟨d.val, h⟩
  · rw [dif_neg h]
    refine (concatenate_pair_apply_right (2 : Fin S262144x5x51.rank) (val_main_v11 (F := Ideal) x0 x1) (val_main_v13 (F := Ideal) x0)
      concatenates_S262144x5x50_S262144x5x1_S262144x5x51_d2 (ix3 b c d) rfl rfl (ix3 b c 0) (fun a ha => ?_) ?_).trans ?_
    · match a with
      | ⟨0, _⟩ => rfl
      | ⟨1, _⟩ => rfl
      | ⟨2, _⟩ => exact absurd rfl ha
    · have hd : d.val < 51 := d.isLt
      show 0 + 50 = d.val
      omega
    · have e13 : idx_main_v0 (idx_main_v12 (idx_main_v13 (ix3 b c (0 : Fin 1)))) = ix2 b (0 : Fin 12) := by
        funext a
        match a with
        | ⟨0, _⟩ => rfl
        | ⟨1, _⟩ => rfl
      rw [val_main_v13_apply, val_main_v12_apply, val_main_v0_apply, e13]

/-- Team one's first layer at `(b, c, o)`: the 51 inputs against row `o` of the weights, the bias, `relu`. -/
private theorem l1a_apply (x0 : (⟨S262144x12, .f32⟩ : BufTy).Contents (Elt Ideal)) (x1 : (⟨S170x50, .f32⟩ : BufTy).Contents (Elt Ideal)) (x2 : (⟨S50x51, .f32⟩ : BufTy).Contents (Elt Ideal)) (x3 : (⟨S50, .f32⟩ : BufTy).Contents (Elt Ideal)) (b : Fin 262144) (c : Fin 5) (o : Fin 50) :
    val_main_v19 (F := Ideal) x0 x1 x2 x3 (ix3 b c o)
      = relu ((∑ d : Fin 51, val_main_v14 (F := Ideal) x0 x1 (ix3 b c d) * x2 (ix2 o d)) + x3 (ix1 o)) := by
  have el : ∀ k : Fin 51, lidx_main_v15 (ix3 b c o) k = ix3 b c k := fun k => funext fun a => by
    match a with
    | ⟨0, _⟩ => rfl
    | ⟨1, _⟩ => rfl
    | ⟨2, _⟩ => rfl
  have er : ∀ k : Fin 51, ridx_main_v15 (ix3 b c o) k = ix2 o k := fun k => funext fun a => by
    match a with
    | ⟨0, _⟩ => rfl
    | ⟨1, _⟩ => rfl
  have eb : idx_main_v16 (idx_main_v17 (ix3 b c o)) = ix1 o := funext fun a => by
    match a with
    | ⟨0, _⟩ => rfl
  rw [val_main_v19_apply, val_main_v18_apply, val_main_v15_apply, val_main_v17_apply, val_main_v16_apply, eb,
    val_main_call0_v0_apply, val_main_call0_cst_apply]
  show max ((∑ k : Fin 51, val_main_v14 (F := Ideal) x0 x1 (lidx_main_v15 (ix3 b c o) k) * x2 (ridx_main_v15 (ix3 b c o) k))
      + x3 (ix1 o)) (Ideal.ofBits .f32 0x00000000#32) = max _ 0
  rw [Ideal.ofBits_zero_f32]
  refine congrArg (fun t => max (t + x3 (ix1 o)) 0) (Finset.sum_congr rfl fun k _ => ?_)
  rw [el k, er k]

/-- Team one's second layer at `(b, c, p)`. -/
private theorem l2a_apply (x0 : (⟨S262144x12, .f32⟩ : BufTy).Contents (Elt Ideal)) (x1 : (⟨S170x50, .f32⟩ : BufTy).Contents (Elt Ideal)) (x2 : (⟨S50x51, .f32⟩ : BufTy).Contents (Elt Ideal)) (x3 : (⟨S50, .f32⟩ : BufTy).Contents (Elt Ideal)) (x4 : (⟨S25x50, .f32⟩ : BufTy).Contents (Elt Ideal)) (x5 : (⟨S25, .f32⟩ : BufTy).Contents (Elt Ideal)) (b : Fin 262144) (c : Fin 5) (p : Fin 25) :
    val_main_v24 (F := Ideal) x0 x1 x2 x3 x4 x5 (ix3 b c p)
      = relu ((∑ o : Fin 50, val_main_v19 (F := Ideal) x0 x1 x2 x3 (ix3 b c o) * x4 (ix2 p o)) + x5 (ix1 p)) := by
  have el : ∀ k : Fin 50, lidx_main_v20 (ix3 b c p) k = ix3 b c k := fun k => funext fun a => by
    match a with
    | ⟨0, _⟩ => rfl
    | ⟨1, _⟩ => rfl
    | ⟨2, _⟩ => rfl
  have er : ∀ k : Fin 50, ridx_main_v20 (ix3 b c p) k = ix2 p k := fun k => funext fun a => by
    match a with
    | ⟨0, _⟩ => rfl
    | ⟨1, _⟩ => rfl
  have eb : idx_main_v21 (idx_main_v22 (ix3 b c p)) = ix1 p := funext fun a => by
    match a with
    | ⟨0, _⟩ => rfl
  rw [val_main_v24_apply, val_main_v23_apply, val_main_v20_apply, val_main_v22_apply, val_main_v21_apply, eb,
    val_main_call1_v0_apply, val_main_call1_cst_apply]
  show max ((∑ k : Fin 50, val_main_v19 (F := Ideal) x0 x1 x2 x3 (lidx_main_v20 (ix3 b c p) k) * x4 (ridx_main_v20 (ix3 b c p) k))
      + x5 (ix1 p)) (Ideal.ofBits .f32 0x00000000#32) = max _ 0
  rw [Ideal.ofBits_zero_f32]
  refine congrArg (fun t => max (t + x5 (ix1 p)) 0) (Finset.sum_congr rfl fun k _ => ?_)
  rw [el k, er k]

/-- Team one's third layer at `(b, c, q)`. -/
private theorem l3a_apply (x0 : (⟨S262144x12, .f32⟩ : BufTy).Contents (Elt Ideal)) (x1 : (⟨S170x50, .f32⟩ : BufTy).Contents (Elt Ideal)) (x2 : (⟨S50x51, .f32⟩ : BufTy).Contents (Elt Ideal)) (x3 : (⟨S50, .f32⟩ : BufTy).Contents (Elt Ideal)) (x4 : (⟨S25x50, .f32⟩ : BufTy).Contents (Elt Ideal)) (x5 : (⟨S25, .f32⟩ : BufTy).Contents (Elt Ideal)) (x6 : (⟨S10x25, .f32⟩ : BufTy).Contents (Elt Ideal)) (x7 : (⟨S10, .f32⟩ : BufTy).Contents (Elt Ideal)) (b : Fin 262144) (c : Fin 5) (q : Fin 10) :
    val_main_v29 (F := Ideal) x0 x1 x2 x3 x4 x5 x6 x7 (ix3 b c q)
      = relu ((∑ p : Fin 25, val_main_v24 (F := Ideal) x0 x1 x2 x3 x4 x5 (ix3 b c p) * x6 (ix2 q p)) + x7 (ix1 q)) := by
  have el : ∀ k : Fin 25, lidx_main_v25 (ix3 b c q) k = ix3 b c k := fun k => funext fun a => by
    match a with
    | ⟨0, _⟩ => rfl
    | ⟨1, _⟩ => rfl
    | ⟨2, _⟩ => rfl
  have er : ∀ k : Fin 25, ridx_main_v25 (ix3 b c q) k = ix2 q k := fun k => funext fun a => by
    match a with
    | ⟨0, _⟩ => rfl
    | ⟨1, _⟩ => rfl
  have eb : idx_main_v26 (idx_main_v27 (ix3 b c q)) = ix1 q := funext fun a => by
    match a with
    | ⟨0, _⟩ => rfl
  rw [val_main_v29_apply, val_main_v28_apply, val_main_v25_apply, val_main_v27_apply, val_main_v26_apply, eb,
    val_main_call2_v0_apply, val_main_call2_cst_apply]
  show max ((∑ k : Fin 25, val_main_v24 (F := Ideal) x0 x1 x2 x3 x4 x5 (lidx_main_v25 (ix3 b c q) k) * x6 (ridx_main_v25 (ix3 b c q) k))
      + x7 (ix1 q)) (Ideal.ofBits .f32 0x00000000#32) = max _ 0
  rw [Ideal.ofBits_zero_f32]
  refine congrArg (fun t => max (t + x7 (ix1 q)) 0) (Finset.sum_congr rfl fun k _ => ?_)
  rw [el k, er k]

/-- Team one's perceptron at `(b, c, q)` is the reference's `teamR` of champion `c`'s table row and the first rating. -/
private theorem team1_apply (x0 : (⟨S262144x12, .f32⟩ : BufTy).Contents (Elt Ideal)) (x1 : (⟨S170x50, .f32⟩ : BufTy).Contents (Elt Ideal)) (x2 : (⟨S50x51, .f32⟩ : BufTy).Contents (Elt Ideal)) (x3 : (⟨S50, .f32⟩ : BufTy).Contents (Elt Ideal)) (x4 : (⟨S25x50, .f32⟩ : BufTy).Contents (Elt Ideal)) (x5 : (⟨S25, .f32⟩ : BufTy).Contents (Elt Ideal)) (x6 : (⟨S10x25, .f32⟩ : BufTy).Contents (Elt Ideal)) (x7 : (⟨S10, .f32⟩ : BufTy).Contents (Elt Ideal))
    (hpos : ∀ (b : Fin 262144) (s : Fin 10), 0 ≤ (Ideal.fptosi 32 (x0 (ix2 b ⟨2 + s.val, by omega⟩))).toInt)
    (b : Fin 262144) (c : Fin 5) (q : Fin 10) :
    val_main_v29 (F := Ideal) x0 x1 x2 x3 x4 x5 x6 x7 (ix3 b c q)
      = teamR (fun k e => x1 (ix2 k e)) (fun o d => x2 (ix2 o d)) (fun o => x3 (ix1 o)) (fun p o => x4 (ix2 p o)) (fun p => x5 (ix1 p))
          (fun q p => x6 (ix2 q p)) (fun q => x7 (ix1 q)) (clipIdx (x0 (ix2 b ⟨2 + c.val, by omega⟩))) (x0 (ix2 b 0)) q := by
  unfold teamR
  rw [l3a_apply]
  refine congrArg (fun t => relu (t + x7 (ix1 q))) (Finset.sum_congr rfl fun p _ => ?_)
  rw [l2a_apply]
  refine congrArg (fun t => relu (t + x5 (ix1 p)) * x6 (ix2 q p)) (Finset.sum_congr rfl fun o _ => ?_)
  rw [l1a_apply]
  refine congrArg (fun t => relu (t + x3 (ix1 o)) * x4 (ix2 p o)) (Finset.sum_congr rfl fun d _ => ?_)
  rw [in1_apply x0 x1 hpos]

/-- Team two's first-layer input at `(b, c, d)`: the embedding row of champion `5 + c`, then the second rating. -/
private theorem in2_apply (x0 : (⟨S262144x12, .f32⟩ : BufTy).Contents (Elt Ideal)) (x1 : (⟨S170x50, .f32⟩ : BufTy).Contents (Elt Ideal))
    (hpos : ∀ (b : Fin 262144) (s : Fin 10), 0 ≤ (Ideal.fptosi 32 (x0 (ix2 b ⟨2 + s.val, by omega⟩))).toInt)
    (b : Fin 262144) (c : Fin 5) (d : Fin 51) :
    val_main_v34 (F := Ideal) x0 x1 (ix3 b c d)
      = x51 (fun k e => x1 (ix2 k e)) (clipIdx (x0 (ix2 b ⟨7 + c.val, by omega⟩))) (x0 (ix2 b 1)) d := by
  unfold val_main_v34 x51
  by_cases h : d.val < 50
  · rw [dif_pos h]
    refine (concatenate_pair_apply_left (2 : Fin S262144x5x51.rank) (val_main_v31 (F := Ideal) x0 x1) (val_main_v33 (F := Ideal) x0)
      concatenates_S262144x5x50_S262144x5x1_S262144x5x51_d2 (ix3 b c d) rfl (ix3 b c ⟨d.val, h⟩) (fun a => ?_)).trans ?_
    · match a with
      | ⟨0, _⟩ => rfl
      | ⟨1, _⟩ => rfl
      | ⟨2, _⟩ => rfl
    · have e31 : idx_main_v31 (ix3 b c (⟨d.val, h⟩ : Fin 50)) = ix3 b (⟨5 + c.val, by omega⟩ : Fin 10) (⟨d.val, h⟩ : Fin 50) := by
        funext a
        match a with
        | ⟨0, _⟩ => rfl
        | ⟨1, _⟩ => rfl
        | ⟨2, _⟩ => rfl
      have e7 : (⟨2 + (5 + c.val), by omega⟩ : Fin 12) = ⟨7 + c.val, by omega⟩ := Fin.ext (show 2 + (5 + c.val) = 7 + c.val by omega)
      rw [val_main_v31_apply, e31]
      refine (emb_apply x0 x1 hpos b ⟨5 + c.val, by omega⟩ ⟨d.val, h⟩).trans ?_
      show x1 (ix2 (clipIdx (x0 (ix2 b ⟨2 + (5 + c.val), by omega⟩))) ⟨d.val, h⟩) = _
      rw [e7]
  · rw [dif_neg h]
    refine (concatenate_pair_apply_right (2 : Fin S262144x5x51.rank) (val_main_v31 (F := Ideal) x0 x1) (val_main_v33 (F := Ideal) x0)
      concatenates_S262144x5x50_S262144x5x1_S262144x5x51_d2 (ix3 b c d) rfl rfl (ix3 b c 0) (fun a ha => ?_) ?_).trans ?_
    · match a with
      | ⟨0, _⟩ => rfl
      | ⟨1, _⟩ => rfl
      | ⟨2, _⟩ => exact absurd rfl ha
    · have hd : d.val < 51 := d.isLt
      show 0 + 50 = d.val
      omega
    · have e33 : idx_main_v1 (idx_main_v32 (idx_main_v33 (ix3 b c (0 : Fin 1)))) = ix2 b (1 : Fin 12) := by
        funext a
        match a with
        | ⟨0, _⟩ => rfl
        | ⟨1, _⟩ => rfl
      rw [val_main_v33_apply, val_main_v32_apply, val_main_v1_apply, e33]

/-- Team two's first layer at `(b, c, o)`. -/
private theorem l1b_apply (x0 : (⟨S262144x12, .f32⟩ : BufTy).Contents (Elt Ideal)) (x1 : (⟨S170x50, .f32⟩ : BufTy).Contents (Elt Ideal)) (x8 : (⟨S50x51, .f32⟩ : BufTy).Contents (Elt Ideal)) (x9 : (⟨S50, .f32⟩ : BufTy).Contents (Elt Ideal)) (b : Fin 262144) (c : Fin 5) (o : Fin 50) :
    val_main_v39 (F := Ideal) x0 x1 x8 x9 (ix3 b c o)
      = relu ((∑ d : Fin 51, val_main_v34 (F := Ideal) x0 x1 (ix3 b c d) * x8 (ix2 o d)) + x9 (ix1 o)) := by
  have el : ∀ k : Fin 51, lidx_main_v35 (ix3 b c o) k = ix3 b c k := fun k => funext fun a => by
    match a with
    | ⟨0, _⟩ => rfl
    | ⟨1, _⟩ => rfl
    | ⟨2, _⟩ => rfl
  have er : ∀ k : Fin 51, ridx_main_v35 (ix3 b c o) k = ix2 o k := fun k => funext fun a => by
    match a with
    | ⟨0, _⟩ => rfl
    | ⟨1, _⟩ => rfl
  have eb : idx_main_v36 (idx_main_v37 (ix3 b c o)) = ix1 o := funext fun a => by
    match a with
    | ⟨0, _⟩ => rfl
  rw [val_main_v39_apply, val_main_v38_apply, val_main_v35_apply, val_main_v37_apply, val_main_v36_apply, eb,
    val_main_call3_v0_apply, val_main_call3_cst_apply]
  show max ((∑ k : Fin 51, val_main_v34 (F := Ideal) x0 x1 (lidx_main_v35 (ix3 b c o) k) * x8 (ridx_main_v35 (ix3 b c o) k))
      + x9 (ix1 o)) (Ideal.ofBits .f32 0x00000000#32) = max _ 0
  rw [Ideal.ofBits_zero_f32]
  refine congrArg (fun t => max (t + x9 (ix1 o)) 0) (Finset.sum_congr rfl fun k _ => ?_)
  rw [el k, er k]

/-- Team two's second layer at `(b, c, p)`. -/
private theorem l2b_apply (x0 : (⟨S262144x12, .f32⟩ : BufTy).Contents (Elt Ideal)) (x1 : (⟨S170x50, .f32⟩ : BufTy).Contents (Elt Ideal)) (x8 : (⟨S50x51, .f32⟩ : BufTy).Contents (Elt Ideal)) (x9 : (⟨S50, .f32⟩ : BufTy).Contents (Elt Ideal)) (x10 : (⟨S25x50, .f32⟩ : BufTy).Contents (Elt Ideal)) (x11 : (⟨S25, .f32⟩ : BufTy).Contents (Elt Ideal)) (b : Fin 262144) (c : Fin 5) (p : Fin 25) :
    val_main_v44 (F := Ideal) x0 x1 x8 x9 x10 x11 (ix3 b c p)
      = relu ((∑ o : Fin 50, val_main_v39 (F := Ideal) x0 x1 x8 x9 (ix3 b c o) * x10 (ix2 p o)) + x11 (ix1 p)) := by
  have el : ∀ k : Fin 50, lidx_main_v40 (ix3 b c p) k = ix3 b c k := fun k => funext fun a => by
    match a with
    | ⟨0, _⟩ => rfl
    | ⟨1, _⟩ => rfl
    | ⟨2, _⟩ => rfl
  have er : ∀ k : Fin 50, ridx_main_v40 (ix3 b c p) k = ix2 p k := fun k => funext fun a => by
    match a with
    | ⟨0, _⟩ => rfl
    | ⟨1, _⟩ => rfl
  have eb : idx_main_v41 (idx_main_v42 (ix3 b c p)) = ix1 p := funext fun a => by
    match a with
    | ⟨0, _⟩ => rfl
  rw [val_main_v44_apply, val_main_v43_apply, val_main_v40_apply, val_main_v42_apply, val_main_v41_apply, eb,
    val_main_call4_v0_apply, val_main_call4_cst_apply]
  show max ((∑ k : Fin 50, val_main_v39 (F := Ideal) x0 x1 x8 x9 (lidx_main_v40 (ix3 b c p) k) * x10 (ridx_main_v40 (ix3 b c p) k))
      + x11 (ix1 p)) (Ideal.ofBits .f32 0x00000000#32) = max _ 0
  rw [Ideal.ofBits_zero_f32]
  refine congrArg (fun t => max (t + x11 (ix1 p)) 0) (Finset.sum_congr rfl fun k _ => ?_)
  rw [el k, er k]

/-- Team two's third layer at `(b, c, q)`. -/
private theorem l3b_apply (x0 : (⟨S262144x12, .f32⟩ : BufTy).Contents (Elt Ideal)) (x1 : (⟨S170x50, .f32⟩ : BufTy).Contents (Elt Ideal)) (x8 : (⟨S50x51, .f32⟩ : BufTy).Contents (Elt Ideal)) (x9 : (⟨S50, .f32⟩ : BufTy).Contents (Elt Ideal)) (x10 : (⟨S25x50, .f32⟩ : BufTy).Contents (Elt Ideal)) (x11 : (⟨S25, .f32⟩ : BufTy).Contents (Elt Ideal)) (x12 : (⟨S10x25, .f32⟩ : BufTy).Contents (Elt Ideal)) (x13 : (⟨S10, .f32⟩ : BufTy).Contents (Elt Ideal)) (b : Fin 262144) (c : Fin 5) (q : Fin 10) :
    val_main_v49 (F := Ideal) x0 x1 x8 x9 x10 x11 x12 x13 (ix3 b c q)
      = relu ((∑ p : Fin 25, val_main_v44 (F := Ideal) x0 x1 x8 x9 x10 x11 (ix3 b c p) * x12 (ix2 q p)) + x13 (ix1 q)) := by
  have el : ∀ k : Fin 25, lidx_main_v45 (ix3 b c q) k = ix3 b c k := fun k => funext fun a => by
    match a with
    | ⟨0, _⟩ => rfl
    | ⟨1, _⟩ => rfl
    | ⟨2, _⟩ => rfl
  have er : ∀ k : Fin 25, ridx_main_v45 (ix3 b c q) k = ix2 q k := fun k => funext fun a => by
    match a with
    | ⟨0, _⟩ => rfl
    | ⟨1, _⟩ => rfl
  have eb : idx_main_v46 (idx_main_v47 (ix3 b c q)) = ix1 q := funext fun a => by
    match a with
    | ⟨0, _⟩ => rfl
  rw [val_main_v49_apply, val_main_v48_apply, val_main_v45_apply, val_main_v47_apply, val_main_v46_apply, eb,
    val_main_call5_v0_apply, val_main_call5_cst_apply]
  show max ((∑ k : Fin 25, val_main_v44 (F := Ideal) x0 x1 x8 x9 x10 x11 (lidx_main_v45 (ix3 b c q) k) * x12 (ridx_main_v45 (ix3 b c q) k))
      + x13 (ix1 q)) (Ideal.ofBits .f32 0x00000000#32) = max _ 0
  rw [Ideal.ofBits_zero_f32]
  refine congrArg (fun t => max (t + x13 (ix1 q)) 0) (Finset.sum_congr rfl fun k _ => ?_)
  rw [el k, er k]

/-- Team two's perceptron at `(b, c, q)` is `teamR` of champion `5 + c`'s table row and the second rating. -/
private theorem team2_apply (x0 : (⟨S262144x12, .f32⟩ : BufTy).Contents (Elt Ideal)) (x1 : (⟨S170x50, .f32⟩ : BufTy).Contents (Elt Ideal)) (x8 : (⟨S50x51, .f32⟩ : BufTy).Contents (Elt Ideal)) (x9 : (⟨S50, .f32⟩ : BufTy).Contents (Elt Ideal)) (x10 : (⟨S25x50, .f32⟩ : BufTy).Contents (Elt Ideal)) (x11 : (⟨S25, .f32⟩ : BufTy).Contents (Elt Ideal)) (x12 : (⟨S10x25, .f32⟩ : BufTy).Contents (Elt Ideal)) (x13 : (⟨S10, .f32⟩ : BufTy).Contents (Elt Ideal))
    (hpos : ∀ (b : Fin 262144) (s : Fin 10), 0 ≤ (Ideal.fptosi 32 (x0 (ix2 b ⟨2 + s.val, by omega⟩))).toInt)
    (b : Fin 262144) (c : Fin 5) (q : Fin 10) :
    val_main_v49 (F := Ideal) x0 x1 x8 x9 x10 x11 x12 x13 (ix3 b c q)
      = teamR (fun k e => x1 (ix2 k e)) (fun o d => x8 (ix2 o d)) (fun o => x9 (ix1 o)) (fun p o => x10 (ix2 p o)) (fun p => x11 (ix1 p))
          (fun q p => x12 (ix2 q p)) (fun q => x13 (ix1 q)) (clipIdx (x0 (ix2 b ⟨7 + c.val, by omega⟩))) (x0 (ix2 b 1)) q := by
  unfold teamR
  rw [l3b_apply]
  refine congrArg (fun t => relu (t + x13 (ix1 q))) (Finset.sum_congr rfl fun p _ => ?_)
  rw [l2b_apply]
  refine congrArg (fun t => relu (t + x11 (ix1 p)) * x12 (ix2 q p)) (Finset.sum_congr rfl fun o _ => ?_)
  rw [l1b_apply]
  refine congrArg (fun t => relu (t + x9 (ix1 o)) * x10 (ix2 p o)) (Finset.sum_congr rfl fun d _ => ?_)
  rw [in2_apply x0 x1 hpos]

/-- Team one's five 10-vectors laid end to end: column `k` of the flattened array is entry `k % 10` of champion `k / 10`. -/
private theorem flat1_apply (x0 : (⟨S262144x12, .f32⟩ : BufTy).Contents (Elt Ideal)) (x1 : (⟨S170x50, .f32⟩ : BufTy).Contents (Elt Ideal)) (x2 : (⟨S50x51, .f32⟩ : BufTy).Contents (Elt Ideal)) (x3 : (⟨S50, .f32⟩ : BufTy).Contents (Elt Ideal)) (x4 : (⟨S25x50, .f32⟩ : BufTy).Contents (Elt Ideal)) (x5 : (⟨S25, .f32⟩ : BufTy).Contents (Elt Ideal)) (x6 : (⟨S10x25, .f32⟩ : BufTy).Contents (Elt Ideal)) (x7 : (⟨S10, .f32⟩ : BufTy).Contents (Elt Ideal)) (b : Fin 262144) (k : Fin 50) :
    val_main_v30 (F := Ideal) x0 x1 x2 x3 x4 x5 x6 x7 (ix2 b k)
      = val_main_v29 (F := Ideal) x0 x1 x2 x3 x4 x5 x6 x7 (ix3 b (⟨k.val / 10, by omega⟩ : Fin 5) (⟨k.val % 10, by omega⟩ : Fin 10)) := by
  have hb : b.val < 262144 := b.isLt
  have hk : k.val < 50 := k.isLt
  rw [val_main_v30_apply]
  congr 1
  funext a
  refine Fin.ext ?_
  match a with
  | ⟨0, _⟩ => show (b.val * 50 + k.val) / 50 = b.val; omega
  | ⟨1, _⟩ => show (b.val * 50 + k.val) / 10 % 5 = k.val / 10; omega
  | ⟨2, _⟩ => show (b.val * 50 + k.val) % 10 = k.val % 10; omega

/-- The same for team two. -/
private theorem flat2_apply (x0 : (⟨S262144x12, .f32⟩ : BufTy).Contents (Elt Ideal)) (x1 : (⟨S170x50, .f32⟩ : BufTy).Contents (Elt Ideal)) (x8 : (⟨S50x51, .f32⟩ : BufTy).Contents (Elt Ideal)) (x9 : (⟨S50, .f32⟩ : BufTy).Contents (Elt Ideal)) (x10 : (⟨S25x50, .f32⟩ : BufTy).Contents (Elt Ideal)) (x11 : (⟨S25, .f32⟩ : BufTy).Contents (Elt Ideal)) (x12 : (⟨S10x25, .f32⟩ : BufTy).Contents (Elt Ideal)) (x13 : (⟨S10, .f32⟩ : BufTy).Contents (Elt Ideal)) (b : Fin 262144) (k : Fin 50) :
    val_main_v50 (F := Ideal) x0 x1 x8 x9 x10 x11 x12 x13 (ix2 b k)
      = val_main_v49 (F := Ideal) x0 x1 x8 x9 x10 x11 x12 x13 (ix3 b (⟨k.val / 10, by omega⟩ : Fin 5) (⟨k.val % 10, by omega⟩ : Fin 10)) := by
  have hb : b.val < 262144 := b.isLt
  have hk : k.val < 50 := k.isLt
  rw [val_main_v50_apply]
  congr 1
  funext a
  refine Fin.ext ?_
  match a with
  | ⟨0, _⟩ => show (b.val * 50 + k.val) / 50 = b.val; omega
  | ⟨1, _⟩ => show (b.val * 50 + k.val) / 10 % 5 = k.val / 10; omega
  | ⟨2, _⟩ => show (b.val * 50 + k.val) % 10 = k.val % 10; omega

/-- The hundred numbers the last linear map reads, at `(b, k)`: the reference's `catR` of row `b` of the features. -/
private theorem cat_apply (x0 : (⟨S262144x12, .f32⟩ : BufTy).Contents (Elt Ideal)) (x1 : (⟨S170x50, .f32⟩ : BufTy).Contents (Elt Ideal)) (x2 : (⟨S50x51, .f32⟩ : BufTy).Contents (Elt Ideal)) (x3 : (⟨S50, .f32⟩ : BufTy).Contents (Elt Ideal)) (x4 : (⟨S25x50, .f32⟩ : BufTy).Contents (Elt Ideal)) (x5 : (⟨S25, .f32⟩ : BufTy).Contents (Elt Ideal)) (x6 : (⟨S10x25, .f32⟩ : BufTy).Contents (Elt Ideal)) (x7 : (⟨S10, .f32⟩ : BufTy).Contents (Elt Ideal)) (x8 : (⟨S50x51, .f32⟩ : BufTy).Contents (Elt Ideal)) (x9 : (⟨S50, .f32⟩ : BufTy).Contents (Elt Ideal)) (x10 : (⟨S25x50, .f32⟩ : BufTy).Contents (Elt Ideal)) (x11 : (⟨S25, .f32⟩ : BufTy).Contents (Elt Ideal)) (x12 : (⟨S10x25, .f32⟩ : BufTy).Contents (Elt Ideal)) (x13 : (⟨S10, .f32⟩ : BufTy).Contents (Elt Ideal))
    (hpos : ∀ (b : Fin 262144) (s : Fin 10), 0 ≤ (Ideal.fptosi 32 (x0 (ix2 b ⟨2 + s.val, by omega⟩))).toInt)
    (b : Fin 262144) (k : Fin 100) :
    val_main_v51 (F := Ideal) x0 x1 x2 x3 x4 x5 x6 x7 x8 x9 x10 x11 x12 x13 (ix2 b k)
      = catR (fun j => x0 (ix2 b j)) (fun k e => x1 (ix2 k e))
          (fun o d => x2 (ix2 o d)) (fun o => x3 (ix1 o)) (fun p o => x4 (ix2 p o)) (fun p => x5 (ix1 p)) (fun q p => x6 (ix2 q p)) (fun q => x7 (ix1 q))
          (fun o d => x8 (ix2 o d)) (fun o => x9 (ix1 o)) (fun p o => x10 (ix2 p o)) (fun p => x11 (ix1 p)) (fun q p => x12 (ix2 q p)) (fun q => x13 (ix1 q)) k := by
  have hk : k.val < 100 := k.isLt
  unfold val_main_v51 catR
  by_cases h : k.val < 50
  · rw [dif_pos h]
    refine (concatenate_pair_apply_left (1 : Fin S262144x100.rank) (val_main_v30 (F := Ideal) x0 x1 x2 x3 x4 x5 x6 x7)
      (val_main_v50 (F := Ideal) x0 x1 x8 x9 x10 x11 x12 x13)
      concatenates_S262144x50_S262144x50_S262144x100_d1 (ix2 b k) rfl (ix2 b ⟨k.val, h⟩) (fun a => ?_)).trans ?_
    · match a with
      | ⟨0, _⟩ => rfl
      | ⟨1, _⟩ => rfl
    · rw [flat1_apply]
      exact team1_apply x0 x1 x2 x3 x4 x5 x6 x7 hpos b ⟨k.val / 10, by omega⟩ ⟨k.val % 10, by omega⟩
  · rw [dif_neg h]
    refine (concatenate_pair_apply_right (1 : Fin S262144x100.rank) (val_main_v30 (F := Ideal) x0 x1 x2 x3 x4 x5 x6 x7)
      (val_main_v50 (F := Ideal) x0 x1 x8 x9 x10 x11 x12 x13)
      concatenates_S262144x50_S262144x50_S262144x100_d1 (ix2 b k) rfl rfl (ix2 b ⟨k.val - 50, by omega⟩) (fun a ha => ?_) ?_).trans ?_
    · match a with
      | ⟨0, _⟩ => rfl
      | ⟨1, _⟩ => exact absurd rfl ha
    · show k.val - 50 + 50 = k.val
      omega
    · rw [flat2_apply]
      exact team2_apply x0 x1 x8 x9 x10 x11 x12 x13 hpos b ⟨(k.val - 50) / 10, by omega⟩ ⟨(k.val - 50) % 10, by omega⟩

/-- The reference's result stage is `G` of the arguments, where the champion numbers' integer parts are not negative. -/
theorem ref_is_G (x0 : (⟨S262144x12, .f32⟩ : BufTy).Contents (Elt Ideal)) (x1 : (⟨S170x50, .f32⟩ : BufTy).Contents (Elt Ideal)) (x2 : (⟨S50x51, .f32⟩ : BufTy).Contents (Elt Ideal)) (x3 : (⟨S50, .f32⟩ : BufTy).Contents (Elt Ideal)) (x4 : (⟨S25x50, .f32⟩ : BufTy).Contents (Elt Ideal)) (x5 : (⟨S25, .f32⟩ : BufTy).Contents (Elt Ideal)) (x6 : (⟨S10x25, .f32⟩ : BufTy).Contents (Elt Ideal)) (x7 : (⟨S10, .f32⟩ : BufTy).Contents (Elt Ideal)) (x8 : (⟨S50x51, .f32⟩ : BufTy).Contents (Elt Ideal)) (x9 : (⟨S50, .f32⟩ : BufTy).Contents (Elt Ideal)) (x10 : (⟨S25x50, .f32⟩ : BufTy).Contents (Elt Ideal)) (x11 : (⟨S25, .f32⟩ : BufTy).Contents (Elt Ideal)) (x12 : (⟨S10x25, .f32⟩ : BufTy).Contents (Elt Ideal)) (x13 : (⟨S10, .f32⟩ : BufTy).Contents (Elt Ideal)) (x14 : (⟨S2x100, .f32⟩ : BufTy).Contents (Elt Ideal)) (x15 : (⟨S2, .f32⟩ : BufTy).Contents (Elt Ideal))
    (hpos : ∀ (b : Fin 262144) (s : Fin 10), 0 ≤ (Ideal.fptosi 32 (x0 (ix2 b ⟨2 + s.val, by omega⟩))).toInt) :
    val_main_v56 (F := Ideal) x0 x1 x2 x3 x4 x5 x6 x7 x8 x9 x10 x11 x12 x13 x14 x15 = G x0 x1 x2 x3 x4 x5 x6 x7 x8 x9 x10 x11 x12 x13 x14 x15 := by
  funext i
  obtain ⟨b, n, rfl⟩ : ∃ (b : Fin 262144) (n : Fin 2), i = ix2 b n := ⟨i 0, i 1, eq_ix2 i⟩
  have el : ∀ k : Fin 100, lidx_main_v53 (ix2 b n) k = ix2 b k := fun k => funext fun a => by
    match a with
    | ⟨0, _⟩ => rfl
    | ⟨1, _⟩ => rfl
  have er : ∀ k : Fin 100, idx_main_v52 (ridx_main_v53 (ix2 b n) k) = ix2 n k := fun k => funext fun a => by
    match a with
    | ⟨0, _⟩ => rfl
    | ⟨1, _⟩ => rfl
  have eb : idx_main_v54 (idx_main_v55 (ix2 b n)) = ix1 n := funext fun a => by
    match a with
    | ⟨0, _⟩ => rfl
  rw [val_main_v56_apply, val_main_v53_apply, val_main_v55_apply, val_main_v54_apply, eb]
  show (∑ k : Fin 100, val_main_v51 (F := Ideal) x0 x1 x2 x3 x4 x5 x6 x7 x8 x9 x10 x11 x12 x13 (lidx_main_v53 (ix2 b n) k)
      * val_main_v52 (F := Ideal) x14 (ridx_main_v53 (ix2 b n) k)) + x15 (ix1 n)
    = (∑ k : Fin 100, catR (fun j => x0 (ix2 b j)) (fun k e => x1 (ix2 k e))
          (fun o d => x2 (ix2 o d)) (fun o => x3 (ix1 o)) (fun p o => x4 (ix2 p o)) (fun p => x5 (ix1 p)) (fun q p => x6 (ix2 q p)) (fun q => x7 (ix1 q))
          (fun o d => x8 (ix2 o d)) (fun o => x9 (ix1 o)) (fun p o => x10 (ix2 p o)) (fun p => x11 (ix1 p)) (fun q p => x12 (ix2 q p)) (fun q => x13 (ix1 q)) k
        * x14 (ix2 n k)) + x15 (ix1 n)
  refine congrArg (fun t => t + x15 (ix1 n)) (Finset.sum_congr rfl fun k _ => ?_)
  rw [el k, val_main_v52_apply, er k, cat_apply x0 x1 x2 x3 x4 x5 x6 x7 x8 x9 x10 x11 x12 x13 hpos b k]

end Cert.ReferenceIdeal.RefValue

end
-- ==== Proof.Pre.lean ====
/-
  What the precondition says of the champion numbers: its last conjunct is that every one of them, truncated to a
  32-bit integer and read signed, is at least zero.
-/
import proofs.«419752_j1864015806631_3_alg».proof.Pre_finite_inputs
import proofs.«419752_j1864015806631_3_alg».proof.Proof.Gen.Pre_finite_inputs
import Idealize.ShloMosaic.Lib.ValueIdx
import Idealize.ShloMosaic.Lib.Pipeline.Value
import Idealize.ShloMosaic.Lib.ReduceAll
import Idealize.ShloMosaic.Lib.StableHlo.Predicate

noncomputable section

namespace Cert.Pre_finite_inputs.Decode

open Cert.Pre_finite_inputs Idealize.ShloMosaic Idealize.ShloMosaic.ValueIdx

/-- The rank-zero shape has one index. -/
private instance subsingleton_S_Idx : Subsingleton S_.Idx := ⟨fun a b => funext fun d => d.elim0⟩

/-- The last conjunct of the last part of the precondition, at one entry of the sliced columns. -/
private theorem part4_last [Cert.Pre_finite_inputs.Facts] (a0 : FVec Ideal S262144x12 .f32) (a14 : FVec Ideal S2x100 .f32)
    (a15 : FVec Ideal S2 .f32) (v63 v67 : IVec S_ 1)
    (h : fn_part4 (F := Ideal) a0 a14 a15 v63 v67 ValueIdx.ix0 = 1#1) (b : Fin 262144) (s : Fin 10) :
    0 ≤ (Ideal.fptosi 32 (a0 (ix2 b ⟨2 + s.val, by omega⟩))).toInt := by
  have h2 := (IntOp.andi_eq_one.1 h).2
  have h3 := Host.reduce_andi_all _ _ _ _ _ h2 (ix2 b s)
  have h4 : (0#32).toInt ≤ (Ideal.fptosi 32
      (extractStridedSlice S262144x10 ![0, 2] a0 Facts.slices_S262144x12_S262144x10_0_2 (ix2 b s))).toInt :=
    IntOp.cmpi_sge.1 h3
  have e2 : extractStridedSlice S262144x10 ![0, 2] a0 Facts.slices_S262144x12_S262144x10_0_2 (ix2 b s)
      = a0 (ix2 b ⟨2 + s.val, by omega⟩) :=
    extractStridedSlice_apply ![0, 2] a0 Facts.slices_S262144x12_S262144x10_0_2 (ix2 b s) (ix2 b ⟨2 + s.val, by omega⟩)
      (fun a => match a with
        | ⟨0, _⟩ => by show b.val = 0 + b.val; omega
        | ⟨1, _⟩ => by show 2 + s.val = 2 + s.val; omega)
  rw [e2] at h4
  exact h4

/-- Under the precondition every champion number's integer part is non-negative. -/
theorem idx_nonneg [Cert.Pre_finite_inputs.Facts] (a0 : FVec Ideal S262144x12 .f32) (a1 : FVec Ideal S170x50 .f32) (a2 : FVec Ideal S50x51 .f32) (a3 : FVec Ideal S50 .f32) (a4 : FVec Ideal S25x50 .f32) (a5 : FVec Ideal S25 .f32) (a6 : FVec Ideal S10x25 .f32) (a7 : FVec Ideal S10 .f32) (a8 : FVec Ideal S50x51 .f32) (a9 : FVec Ideal S50 .f32) (a10 : FVec Ideal S25x50 .f32) (a11 : FVec Ideal S25 .f32) (a12 : FVec Ideal S10x25 .f32) (a13 : FVec Ideal S10 .f32) (a14 : FVec Ideal S2x100 .f32) (a15 : FVec Ideal S2 .f32)
    (h : Cert.Pre_finite_inputs.fn (F := Ideal) a0 a1 a2 a3 a4 a5 a6 a7 a8 a9 a10 a11 a12 a13 a14 a15 = fun _ => 1#1) (b : Fin 262144) (s : Fin 10) :
    0 ≤ (Ideal.fptosi 32 (a0 (ix2 b ⟨2 + s.val, by omega⟩))).toInt := by
  have h0 := congrFun h ValueIdx.ix0
  dsimp only [fn, fn_part1, fn_part2, fn_part3] at h0
  exact part4_last a0 a14 a15 _ _ h0 b s

end Cert.Pre_finite_inputs.Decode

end
-- ==== Proof.lean ====
/-
  The kernel and its reference compute one function.

  The program: for each of 262144 rows of `features` (two ratings, then ten champion numbers, five per team) two
  three-layer perceptrons (51 → 50 → 25 → 10, `relu` after each layer) run on each team's five champions, the first layer's
  input being the champion's embedding row followed by the team's rating; the hundred numbers that result go through one
  linear map to two outputs. The reference looks the embedding rows up (`emb[idx]`) and applies the layers as written. The
  kernel multiplies the table into the first layer once on the host, fetches the projected rows by a one-hot product on a
  [5·2048, 170] stack, keeps the five channels stacked on the row axis, and applies the last linear map channel by channel
  into a 128-wide accumulator of which it stores the first two columns, 2048 rows per grid point.

  The two differ in one place that matters: a champion number is truncated to an integer and the kernel clips it to
  `[0, 169]`, while the reference counts a negative index from the table's end (and the gather then clamps). Where every
  truncated champion number is at least zero (the precondition's last conjunct) both read the row `min idx 169`. Past that
  the two sides differ only in the grouping of finite sums: the first layer's 51-term sum split as 50 + 1, and the last
  map's 100-term sum as ten 10-term sums added into zero; no law that fails at an infinity is used, so the finiteness
  conjuncts are not opened.

  `Spec` states the row functions of both arrangements, `Law` that they agree, `Whole` the result array `G`; `KLayers`,
  `KIndexRows`, `KMlp`, `KAcc`, `KBody` read the kernel body's stored block entry by entry, `KHost` the operands the
  wrapper computes, `KBlocks` tiles the blocks into the array; `RefG` reads the reference one operation at a time; `Pre`
  decodes the precondition.
-/
import proofs.«419752_j1864015806631_3_alg».proof.Defs
import proofs.«419752_j1864015806631_3_alg».proof.Proof.Gen.Kernel
import proofs.«419752_j1864015806631_3_alg».proof.Proof.Gen.Kernel.Skeleton
import proofs.«419752_j1864015806631_3_alg».proof.Proof.Gen.Kernel.Launch
import proofs.«419752_j1864015806631_3_alg».proof.Proof.Gen.Kernel.Points
import proofs.«419752_j1864015806631_3_alg».proof.Proof.Gen.Kernel.Frame
import proofs.«419752_j1864015806631_3_alg».proof.Proof.Gen.KernelIdeal
import proofs.«419752_j1864015806631_3_alg».proof.Proof.Gen.KernelIdeal.Skeleton
import proofs.«419752_j1864015806631_3_alg».proof.Proof.Gen.KernelIdeal.Launch
import proofs.«419752_j1864015806631_3_alg».proof.Proof.Gen.KernelIdeal.Points
import proofs.«419752_j1864015806631_3_alg».proof.Proof.Gen.KernelIdeal.Frame
import proofs.«419752_j1864015806631_3_alg».proof.Proof.Gen.ReferenceIdeal
import proofs.«419752_j1864015806631_3_alg».proof.Proof.Gen.Pre_finite_inputs
import proofs.«419752_j1864015806631_3_alg».proof.Proof.Gen.KernelIdeal.Value
import proofs.«419752_j1864015806631_3_alg».proof.Proof.Gen.ReferenceIdeal.Run
import proofs.«419752_j1864015806631_3_alg».proof.Proof.Gen.ReferenceIdeal.Read
import proofs.«419752_j1864015806631_3_alg».proof.Proof.KBlocks
import proofs.«419752_j1864015806631_3_alg».proof.Proof.RefG
import proofs.«419752_j1864015806631_3_alg».proof.Proof.Pre
import Idealize.ShloMosaic.Adequacy
import Idealize.ShloMosaic.Init

noncomputable section

namespace Cert.Proof

open Idealize.ShloMosaic Idealize.SL.Sem Cert.Kernel

/-- The reference has no kernel: its frame is its run with the result dropped. -/
theorem frame_ref : Cert.frame_ReferenceIdeal := fun m ρ _ =>
  (θ_run Cert.ReferenceIdeal.defs _ _).mono (fun _ h c => (h c).2) (Cert.ReferenceIdeal.Value.run (F := Ideal) m ρ)

/-- Both runs end with the result array at `G` of the arguments: the kernel's by tiling its blocks, the reference's
    operation by operation, the champion numbers' integer parts being non-negative under the precondition. -/
theorem algebraic : Cert.algebraic_KernelIdeal_ReferenceIdeal := by
  intro m ρ m' ρ' hpre hagree
  refine ⟨fun c => Cert.KernelIdeal.Blocks.Gm m c, Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v56_eq]
  obtain ⟨e0, e1, e2, e3, e4, e5, e6, e7, e8, e9, e10, e11, e12, e13, e14, e15⟩ := hagree c
  rw [e0, e1, e2, e3, e4, e5, e6, e7, e8, e9, e10, e11, e12, e13, e14, e15]
  exact Cert.ReferenceIdeal.RefValue.ref_is_G _ _ _ _ _ _ _ _ _ _ _ _ _ _ _ _
    (fun b s => Cert.Pre_finite_inputs.Decode.idx_nonneg _ _ _ _ _ _ _ _ _ _ _ _ _ _ _ _ (hpre c) b s)

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  frame_ref,
  trivial,
  algebraic⟩

end Cert.Proof

end
